-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 256]⟩ ⟨2, ![4096, 2048]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x4096 : Shape := ⟨2, ![512, 4096]⟩
abbrev S4096x2048 : Shape := ⟨2, ![4096, 2048]⟩
abbrev S_ : Shape := ⟨0, ![]⟩

class Facts : Prop where
  bcast_S_S512x4096 : S_.BroadcastsInDim S512x4096 (![] : Fin 0 → Fin S512x4096.rank)
  reducesTo_S512x4096_S_d0_1 : S512x4096.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_

variable [Facts]

def fn {F : FTy → Type} [FloatOps F] (main_arg0 : FVec F S512x4096 .f32) (main_arg1 : FVec F S4096x2048 .f32) : IVec S_ 1 :=
  let main_v0 : FVec F S512x4096 .f32 := Host.absf main_arg0
  let main_cst : FVec F S_ .f32 := constant S_ .f32 0x7F800000#32
  let main_v1 : FVec F S512x4096 .f32 := broadcastInDim S512x4096 ![] bcast_S_S512x4096 main_cst
  let main_v2 : IVec S512x4096 1 := cmpf .olt main_v0 main_v1
  let main_c : IVec S_ 1 := constantI S_ 1 1#1
  let main_v3 : IVec S_ 1 := (fun x v => Host.reduce IntOp.andi x v reducesTo_S512x4096_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  main_v8
-- ==== Pre_finite_inputs_ReferenceIdeal.lean ====
abbrev S4096x4096 : Shape := ⟨2, ![4096, 4096]⟩
abbrev S4096x2048 : Shape := ⟨2, ![4096, 2048]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_

variable [Facts]

def fn {F : FTy → Type} [FloatOps F] (main_arg0 : FVec F S4096x4096 .f32) (main_arg1 : FVec F S4096x2048 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  main_v8
-- ==== Kernel.lean ====
abbrev S512x4096 : Shape := ⟨2, ![512, 4096]⟩
abbrev S4096x2048 : Shape := ⟨2, ![4096, 2048]⟩
abbrev S4096x256 : Shape := ⟨2, ![4096, 256]⟩
abbrev S4x4096x256 : Shape := ⟨3, ![4, 4096, 256]⟩
abbrev S7x512x256 : Shape := ⟨3, ![7, 512, 256]⟩
abbrev S8x512x256 : Shape := ⟨3, ![8, 512, 256]⟩
abbrev S4 : Shape := ⟨1, ![4]⟩
abbrev S7 : Shape := ⟨1, ![7]⟩
abbrev S8 : Shape := ⟨1, ![8]⟩
abbrev S_ : Shape := ⟨0, ![]⟩
abbrev S1 : Shape := ⟨1, ![1]⟩
abbrev S128x4096 : Shape := ⟨2, ![128, 4096]⟩
abbrev S1x4096x256 : Shape := ⟨3, ![1, 4096, 256]⟩
abbrev S512x256 : Shape := ⟨2, ![512, 256]⟩
abbrev S1x512x256 : Shape := ⟨3, ![1, 512, 256]⟩

abbrev nBuf : Space → Nat
  | .hbm => 3
  | .vmem => 5
  | .smem => 0
  | _ => 0

abbrev bufTy : (tb : Table) → Fin (tcTables nBuf tb) → BufTy
  | .hbm, ⟨0, _⟩ => ⟨S512x4096, .f32⟩
  | .hbm, ⟨1, _⟩ => ⟨S4096x2048, .f32⟩
  | .hbm, ⟨2, _⟩ => ⟨S4096x256, .f32⟩
  | .local _ .vmem, ⟨0, _⟩ => ⟨S512x4096, .f32⟩
  | .local _ .vmem, ⟨1, _⟩ => ⟨S4x4096x256, .f32⟩
  | .local _ .vmem, ⟨2, _⟩ => ⟨S7x512x256, .bf16⟩
  | .local _ .vmem, ⟨3, _⟩ => ⟨S7x512x256, .bf16⟩
  | .local _ .vmem, ⟨4, _⟩ => ⟨S8x512x256, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  (ofTc nBuf bufTy 1 30 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) (c1_i32_45 : BitVec 32) : Fin 2 → Nat :=
  let c0_i32_52 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v48 : BitVec 32 := Scalar.addi v2 c1_i32_45
  let c8_i32_46 : BitVec 32 := 8#32
  let v49 : BitVec 32 := Scalar.remsi v48 c8_i32_46
  let c256_i32_47 : BitVec 32 := 256#32
  let v50 : BitVec 32 := Scalar.muli v49 c256_i32_47
  ![0, v50.toNat]
def k0_dev8 (d0 : Dev nD) : Nat :=
  let c0_i32_121 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_114 : BitVec 32 := 1#32
  let v114 : BitVec 32 := Scalar.addi v2 c1_i32_114
  let c8_i32_115 : BitVec 32 := 8#32
  let v115 : BitVec 32 := Scalar.remsi v114 c8_i32_115
  let c1_i32_120 : BitVec 32 := 1#32
  let v116 : BitVec 32 := Scalar.muli v115 c1_i32_120
  let v117 : BitVec 32 := Scalar.addi c0_i32_121 v116
  v117.toNat
def k0_dev9 (d0 : Dev nD) : Nat :=
  let c0_i32_158 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_151 : BitVec 32 := 2#32
  let v152 : BitVec 32 := Scalar.addi v2 c2_i32_151
  let c8_i32_152 : BitVec 32 := 8#32
  let v153 : BitVec 32 := Scalar.remsi v152 c8_i32_152
  let c1_i32_157 : BitVec 32 := 1#32
  let v154 : BitVec 32 := Scalar.muli v153 c1_i32_157
  let v155 : BitVec 32 := Scalar.addi c0_i32_158 v154
  v155.toNat
def k0_dev10 (d0 : Dev nD) : Nat :=
  let c0_i32_195 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_188 : BitVec 32 := 3#32
  let v190 : BitVec 32 := Scalar.addi v2 c3_i32_188
  let c8_i32_189 : BitVec 32 := 8#32
  let v191 : BitVec 32 := Scalar.remsi v190 c8_i32_189
  let c1_i32_194 : BitVec 32 := 1#32
  let v192 : BitVec 32 := Scalar.muli v191 c1_i32_194
  let v193 : BitVec 32 := Scalar.addi c0_i32_195 v192
  v193.toNat
def k0_dev11 (d0 : Dev nD) : Nat :=
  let c0_i32_232 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_225 : BitVec 32 := 4#32
  let v228 : BitVec 32 := Scalar.addi v2 c4_i32_225
  let c8_i32_226 : BitVec 32 := 8#32
  let v229 : BitVec 32 := Scalar.remsi v228 c8_i32_226
  let c1_i32_231 : BitVec 32 := 1#32
  let v230 : BitVec 32 := Scalar.muli v229 c1_i32_231
  let v231 : BitVec 32 := Scalar.addi c0_i32_232 v230
  v231.toNat
def k0_dev12 (d0 : Dev nD) : Nat :=
  let c0_i32_269 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_262 : BitVec 32 := 5#32
  let v266 : BitVec 32 := Scalar.addi v2 c5_i32_262
  let c8_i32_263 : BitVec 32 := 8#32
  let v267 : BitVec 32 := Scalar.remsi v266 c8_i32_263
  let c1_i32_268 : BitVec 32 := 1#32
  let v268 : BitVec 32 := Scalar.muli v267 c1_i32_268
  let v269 : BitVec 32 := Scalar.addi c0_i32_269 v268
  v269.toNat
def k0_dev13 (d0 : Dev nD) : Nat :=
  let c0_i32_298 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_291 : BitVec 32 := 6#32
  let v296 : BitVec 32 := Scalar.addi v2 c6_i32_291
  let c8_i32_292 : BitVec 32 := 8#32
  let v297 : BitVec 32 := Scalar.remsi v296 c8_i32_292
  let c1_i32_297 : BitVec 32 := 1#32
  let v298 : BitVec 32 := Scalar.muli v297 c1_i32_297
  let v299 : BitVec 32 := Scalar.addi c0_i32_298 v298
  v299.toNat
def k0_dev14 (d0 : Dev nD) : Nat :=
  let c0_i32_327 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_320 : BitVec 32 := 7#32
  let v326 : BitVec 32 := Scalar.addi v2 c7_i32_320
  let c8_i32_321 : BitVec 32 := 8#32
  let v327 : BitVec 32 := Scalar.remsi v326 c8_i32_321
  let c1_i32_326 : BitVec 32 := 1#32
  let v328 : BitVec 32 := Scalar.muli v327 c1_i32_326
  let v329 : BitVec 32 := Scalar.addi c0_i32_327 v328
  v329.toNat
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v355 : BitVec 32 := Scalar.muli v2 c512_i32
  let c0_i32_351 : BitVec 32 := 0#32
  ![v355.toNat, 0]
def k0_off3 (d0 : Dev nD) (c1_i32_354 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v361 : BitVec 32 := Scalar.subi v2 c1_i32_354
  let c8_i32_355 : BitVec 32 := 8#32
  let v362 : BitVec 32 := Scalar.addi v361 c8_i32_355
  let c8_i32_356 : BitVec 32 := 8#32
  let v363 : BitVec 32 := Scalar.remsi v362 c8_i32_356
  let c512_i32_373 : BitVec 32 := 512#32
  let v378 : BitVec 32 := Scalar.muli v363 c512_i32_373
  let c0_i32_376 : BitVec 32 := 0#32
  ![v378.toNat, 0]

class Facts₀ : Prop where
  hamt_1 : (1#32 : BitVec 32).msb = false
  inb_S4_S1_0 : ∀ a, (![0] : Fin 1 → Nat) a + S1.size a ≤ S4.size a
  squeezes_S1_S_ : S1.Squeezes S_
  inb_S512x4096_S128x4096_0_0 : ∀ a, (![0, 0] : Fin 2 → Nat) a + S128x4096.size a ≤ S512x4096.size a
  inb_S4_S1_1 : ∀ a, (![1] : Fin 1 → Nat) a + S1.size a ≤ S4.size a
  inb_S512x4096_S128x4096_128_0 : ∀ a, (![128, 0] : Fin 2 → Nat) a + S128x4096.size a ≤ S512x4096.size a
  inb_S4_S1_2 : ∀ a, (![2] : Fin 1 → Nat) a + S1.size a ≤ S4.size a
  inb_S512x4096_S128x4096_256_0 : ∀ a, (![256, 0] : Fin 2 → Nat) a + S128x4096.size a ≤ S512x4096.size a
  inb_S4_S1_3 : ∀ a, (![3] : Fin 1 → Nat) a + S1.size a ≤ S4.size a
  inb_S512x4096_S128x4096_384_0 : ∀ a, (![384, 0] : Fin 2 → Nat) a + S128x4096.size a ≤ S512x4096.size a
  inb_S4x4096x256_S1x4096x256_0_0_0 : ∀ a, (![0, 0, 0] : Fin 3 → Nat) a + S1x4096x256.size a ≤ S4x4096x256.size a
  squeezes_S1x4096x256_S4096x256 : S1x4096x256.Squeezes S4096x256
  inb_S4x4096x256_S1x4096x256_1_0_0 : ∀ a, (![1, 0, 0] : Fin 3 → Nat) a + S1x4096x256.size a ≤ S4x4096x256.size a
  inb_S4x4096x256_S1x4096x256_2_0_0 : ∀ a, (![2, 0, 0] : Fin 3 → Nat) a + S1x4096x256.size a ≤ S4x4096x256.size a
  inb_S4x4096x256_S1x4096x256_3_0_0 : ∀ a, (![3, 0, 0] : Fin 3 → Nat) a + S1x4096x256.size a ≤ S4x4096x256.size a
  inb_S512x4096_S512x4096_0_0 : ∀ a, (![0, 0] : Fin 2 → Nat) a + S512x4096.size a ≤ S512x4096.size a
  h_S512x4096 : 0 < S512x4096.numel
  h_S1x4096x256 : 0 < S1x4096x256.numel
  shapeCasts_S1x4096x256_S4096x256 : S1x4096x256.ShapeCasts S4096x256
  bitsLt_bf16_f32 : FTy.bits .bf16 < FTy.bits .f32
  inb_S7x512x256_S1x512x256_0_0_0 : ∀ a, (![0, 0, 0] : Fin 3 → Nat) a + S1x512x256.size a ≤ S7x512x256.size a
  h_S1x512x256 : 0 < S1x512x256.numel
  shapeCasts_S1x512x256_S512x256 : S1x512x256.ShapeCasts S512x256
  shapeCasts_S512x256_S1x512x256 : S512x256.ShapeCasts S1x512x256
  packedbf16_S7x512x256_S1x512x256_0_0_0 : (Rect.unit (s := S7x512x256) ![0, 0, 0] S1x512x256.size inb_S7x512x256_S1x512x256_0_0_0).PackedRows (EltTy.packing .bf16)
  hamt_7 : (7#32 : BitVec 32).msb = false
  inb_S7_S1_0 : ∀ a, (![0] : Fin 1 → Nat) a + S1.size a ≤ S7.size a
  squeezes_S1x512x256_S512x256 : S1x512x256.Squeezes S512x256
  wordsbf16_S7x512x256_S1x512x256_0_0_0 : (Rect.unit (s := S7x512x256) ![0, 0, 0] S1x512x256.size inb_S7x512x256_S1x512x256_0_0_0).WholeWords (EltTy.packing .bf16)
  inb_S7x512x256_S1x512x256_1_0_0 : ∀ a, (![1, 0, 0] : Fin 3 → Nat) a + S1x512x256.size a ≤ S7x512x256.size a
  packedbf16_S7x512x256_S1x512x256_1_0_0 : (Rect.unit (s := S7x512x256) ![1, 0, 0] S1x512x256.size inb_S7x512x256_S1x512x256_1_0_0).PackedRows (EltTy.packing .bf16)
  inb_S7_S1_1 : ∀ a, (![1] : Fin 1 → Nat) a + S1.size a ≤ S7.size a
  wordsbf16_S7x512x256_S1x512x256_1_0_0 : (Rect.unit (s := S7x512x256) ![1, 0, 0] S1x512x256.size inb_S7x512x256_S1x512x256_1_0_0).WholeWords (EltTy.packing .bf16)
  inb_S7x512x256_S1x512x256_2_0_0 : ∀ a, (![2, 0, 0] : Fin 3 → Nat) a + S1x512x256.size a ≤ S7x512x256.size a
  packedbf16_S7x512x256_S1x512x256_2_0_0 : (Rect.unit (s := S7x512x256) ![2, 0, 0] S1x512x256.size inb_S7x512x256_S1x512x256_2_0_0).PackedRows (EltTy.packing .bf16)
  inb_S7_S1_2 : ∀ a, (![2] : Fin 1 → Nat) a + S1.size a ≤ S7.size a
  wordsbf16_S7x512x256_S1x512x256_2_0_0 : (Rect.unit (s := S7x512x256) ![2, 0, 0] S1x512x256.size inb_S7x512x256_S1x512x256_2_0_0).WholeWords (EltTy.packing .bf16)
  inb_S7x512x256_S1x512x256_3_0_0 : ∀ a, (![3, 0, 0] : Fin 3 → Nat) a + S1x512x256.size a ≤ S7x512x256.size a
  packedbf16_S7x512x256_S1x512x256_3_0_0 : (Rect.unit (s := S7x512x256) ![3, 0, 0] S1x512x256.size inb_S7x512x256_S1x512x256_3_0_0).PackedRows (EltTy.packing .bf16)
  inb_S7_S1_3 : ∀ a, (![3] : Fin 1 → Nat) a + S1.size a ≤ S7.size a
  wordsbf16_S7x512x256_S1x512x256_3_0_0 : (Rect.unit (s := S7x512x256) ![3, 0, 0] S1x512x256.size inb_S7x512x256_S1x512x256_3_0_0).WholeWords (EltTy.packing .bf16)
  inb_S7x512x256_S1x512x256_4_0_0 : ∀ a, (![4, 0, 0] : Fin 3 → Nat) a + S1x512x256.size a ≤ S7x512x256.size a
  packedbf16_S7x512x256_S1x512x256_4_0_0 : (Rect.unit (s := S7x512x256) ![4, 0, 0] S1x512x256.size inb_S7x512x256_S1x512x256_4_0_0).PackedRows (EltTy.packing .bf16)
  inb_S7_S1_4 : ∀ a, (![4] : Fin 1 → Nat) a + S1.size a ≤ S7.size a
  wordsbf16_S7x512x256_S1x512x256_4_0_0 : (Rect.unit (s := S7x512x256) ![4, 0, 0] S1x512x256.size inb_S7x512x256_S1x512x256_4_0_0).WholeWords (EltTy.packing .bf16)
  inb_S7x512x256_S1x512x256_5_0_0 : ∀ a, (![5, 0, 0] : Fin 3 → Nat) a + S1x512x256.size a ≤ S7x512x256.size a
  packedbf16_S7x512x256_S1x512x256_5_0_0 : (Rect.unit (s := S7x512x256) ![5, 0, 0] S1x512x256.size inb_S7x512x256_S1x512x256_5_0_0).PackedRows (EltTy.packing .bf16)
  inb_S7_S1_5 : ∀ a, (![5] : Fin 1 → Nat) a + S1.size a ≤ S7.size a
  wordsbf16_S7x512x256_S1x512x256_5_0_0 : (Rect.unit (s := S7x512x256) ![5, 0, 0] S1x512x256.size inb_S7x512x256_S1x512x256_5_0_0).WholeWords (EltTy.packing .bf16)
  inb_S7x512x256_S1x512x256_6_0_0 : ∀ a, (![6, 0, 0] : Fin 3 → Nat) a + S1x512x256.size a ≤ S7x512x256.size a
  packedbf16_S7x512x256_S1x512x256_6_0_0 : (Rect.unit (s := S7x512x256) ![6, 0, 0] S1x512x256.size inb_S7x512x256_S1x512x256_6_0_0).PackedRows (EltTy.packing .bf16)
  inb_S7_S1_6 : ∀ a, (![6] : Fin 1 → Nat) a + S1.size a ≤ S7.size a
  wordsbf16_S7x512x256_S1x512x256_6_0_0 : (Rect.unit (s := S7x512x256) ![6, 0, 0] S1x512x256.size inb_S7x512x256_S1x512x256_6_0_0).WholeWords (EltTy.packing .bf16)
  inb_S8x512x256_S1x512x256_7_0_0 : ∀ a, (![7, 0, 0] : Fin 3 → Nat) a + S1x512x256.size a ≤ S8x512x256.size a
  inb_S8_S1_7 : ∀ a, (![7] : Fin 1 → Nat) a + S1.size a ≤ S8.size a
  inb_S8x512x256_S1x512x256_0_0_0 : ∀ a, (![0, 0, 0] : Fin 3 → Nat) a + S1x512x256.size a ≤ S8x512x256.size a
  inb_S8_S1_0 : ∀ a, (![0] : Fin 1 → Nat) a + S1.size a ≤ S8.size a
  inb_S8x512x256_S1x512x256_1_0_0 : ∀ a, (![1, 0, 0] : Fin 3 → Nat) a + S1x512x256.size a ≤ S8x512x256.size a
  inb_S8_S1_1 : ∀ a, (![1] : Fin 1 → Nat) a + S1.size a ≤ S8.size a
  inb_S8x512x256_S1x512x256_2_0_0 : ∀ a, (![2, 0, 0] : Fin 3 → Nat) a + S1x512x256.size a ≤ S8x512x256.size a
  inb_S8_S1_2 : ∀ a, (![2] : Fin 1 → Nat) a + S1.size a ≤ S8.size a
  inb_S8x512x256_S1x512x256_3_0_0 : ∀ a, (![3, 0, 0] : Fin 3 → Nat) a + S1x512x256.size a ≤ S8x512x256.size a
  inb_S8_S1_3 : ∀ a, (![3] : Fin 1 → Nat) a + S1.size a ≤ S8.size a
  inb_S8x512x256_S1x512x256_4_0_0 : ∀ a, (![4, 0, 0] : Fin 3 → Nat) a + S1x512x256.size a ≤ S8x512x256.size a
  inb_S8_S1_4 : ∀ a, (![4] : Fin 1 → Nat) a + S1.size a ≤ S8.size a
  inb_S8x512x256_S1x512x256_5_0_0 : ∀ a, (![5, 0, 0] : Fin 3 → Nat) a + S1x512x256.size a ≤ S8x512x256.size a
  inb_S8_S1_5 : ∀ a, (![5] : Fin 1 → Nat) a + S1.size a ≤ S8.size a
  inb_S8x512x256_S1x512x256_6_0_0 : ∀ a, (![6, 0, 0] : Fin 3 → Nat) a + S1x512x256.size a ≤ S8x512x256.size a
  inb_S8_S1_6 : ∀ a, (![6] : Fin 1 → Nat) a + S1.size a ≤ S8.size a
  dot_S512x4096_S4096x256_S512x256_1_0_0_1_n_n_wf : DotDims.WF S512x4096 S4096x256 S512x256 [1] [0] [0] [1] [] []
  hcc0_scratch5 : 0 + S4.numel ≤ 30
  hcc0_scratch6 : 4 + S4.numel ≤ 30
  hcc0_scratch7 : 8 + S7.numel ≤ 30
  hcc0_scratch8 : 15 + S7.numel ≤ 30
  hcc0_scratch9 : 22 + S8.numel ≤ 30
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_off1_inb : ∀ d0 : Dev nD, ∀ (r : Fin 8), ∀ a, (k0_off1 d0 (BitVec.ofNat 32 (1 + r.val))) a + S4096x256.size a ≤ S4096x2048.size a
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_off2_inb : ∀ d0 : Dev nD, ∀ a, (k0_off2 d0) a + S512x256.size a ≤ S4096x256.size a
  k0_off3_inb : ∀ d0 : Dev nD, ∀ (r : Fin 7), ∀ a, (k0_off3 d0 (BitVec.ofNat 32 (1 + r.val))) a + S512x256.size a ≤ S4096x256.size a

variable [Facts₀]

abbrev cc0_scratch5 : DmaSems sig S4 := SemArray.consecutive 0 S4 hcc0_scratch5
abbrev cc0_scratch6 : DmaSems sig S4 := SemArray.consecutive 4 S4 hcc0_scratch6
abbrev cc0_scratch7 : DmaSems sig S7 := SemArray.consecutive 8 S7 hcc0_scratch7
abbrev cc0_scratch8 : DmaSems sig S7 := SemArray.consecutive 15 S7 hcc0_scratch8
abbrev cc0_scratch9 : DmaSems sig S8 := SemArray.consecutive 22 S8 hcc0_scratch9
def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  bcast_S_S4096x2048 : S_.BroadcastsInDim S4096x2048 (![] : Fin 0 → Fin S4096x2048.rank)
  dot_S4096x4096_S4096x2048_S4096x2048_1_0_0_1_n_n_wf : DotDims.WF S4096x4096 S4096x2048 S4096x2048 [1] [0] [0] [1] [] []

variable [Facts₀]

def dot_S4096x4096_S4096x2048_S4096x2048_1_0_0_1_n_n : DotDims S4096x4096 S4096x2048 S4096x2048 where
  lhsContracting := [1]
  rhsContracting := [0]
  lhsNonContracting := [0]
  rhsNonContracting := [1]
  lhsBatch := []
  rhsBatch := []
  wf := dot_S4096x4096_S4096x2048_S4096x2048_1_0_0_1_n_n_wf

class Facts : Prop extends Facts₀ where

variable [Facts]
-- ==== Proof.Proto.lean ====
import proofs.«900533_g7700000000000534_dist_gemm_a2a_m4096_k4096_n2048_f32_relu_v7x_i8_1_alg».proof.Proof.Gen.KernelIdeal.Skeleton
import proofs.«900533_g7700000000000534_dist_gemm_a2a_m4096_k4096_n2048_f32_relu_v7x_i8_1_alg».proof.Proof.Gen.KernelIdeal.Launch
import Idealize.ShloMosaic.Lib.Pipeline.Launch
import Idealize.ShloMosaic.Lib.Pipeline.Kit
import Idealize.ShloMosaic.Lib.Tactic

set_option maxRecDepth 16384

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

/-! ## Hops on the ring of eight devices -/

/-- A hop h stands for the distance h + 1: device c sends its block for device c + h + 1 at hop h. -/
abbrev Hop := Fin 7

def peer (c : Dev nD) (h : Hop) : Dev nD := ⟨(c.val + h.val + 1) % 8, Nat.mod_lt _ (by decide)⟩
def src (c : Dev nD) (h : Hop) : Dev nD := ⟨(c.val + 7 - h.val) % 8, Nat.mod_lt _ (by decide)⟩
def rev (h : Hop) : Hop := ⟨6 - h.val, by omega⟩

theorem peer_src (c : Dev nD) (h : Hop) : peer (src c h) h = c := by revert c h; decide
theorem src_peer (c : Dev nD) (h : Hop) : src (peer c h) h = c := by revert c h; decide
theorem src_rev (c : Dev nD) (h : Hop) : src c (rev h) = peer c h := by revert c h; decide
theorem peer_rev (c : Dev nD) (h : Hop) : peer c (rev h) = src c h := by revert c h; decide
theorem rev_rev (h : Hop) : rev (rev h) = h := by revert h; decide
theorem peer_ne (c : Dev nD) (h : Hop) : peer c h ≠ c := by revert c h; decide
theorem src_ne (c : Dev nD) (h : Hop) : src c h ≠ c := by revert c h; decide
theorem peer_inj (c : Dev nD) (h h' : Hop) : peer c h = peer c h' → h = h' := by revert c h h'; decide

/-! ## The resource algebra: the pipeline library's copy, the rounds library's (duties named by hop), the counters' -/

abbrev UB : Type := URounds (GSem nD τ sig) Hop
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (UEmb.inl : UEmb UB (UB × Counters)).toEmb.trans embR

abbrev 𝒱₀ : Variants := Variants.none

variable (m : (ℓ : Loc nD τ sig) → Buf (Elt F) ℓ) (ρ : Dev nD → PrngReg)

/-! ## Memrefs and cells -/

abbrev commM : Memref sig .tc .vmem S7x512x256 .bf16 := Memref.whole cc0_scratch2
abbrev recvM : Memref sig .tc .vmem S7x512x256 .bf16 := Memref.whole cc0_scratch3

theorem slot_inb (h : Hop) : ∀ a, (![h.val, 0, 0] : Fin 3 → Nat) a + S1x512x256.size a ≤ S7x512x256.size a := by
  revert h; decide
/-- Slot h of a seven-slot buffer, as a rectangle of it. -/
abbrev slotRect (h : Hop) : Rect S7x512x256 := Rect.unit (s := S7x512x256) ![h.val, 0, 0] S1x512x256.size (slot_inb h)
/-- Slot h of the send buffer and of the receive buffer, as the transfers see them: 512 by 256. -/
abbrev commSlot (h : Hop) : Memref sig .tc .vmem S512x256 .bf16 :=
  (commM.slice (slotRect h) (fun _ => rfl)).squeeze S512x256 squeezes_S1x512x256_S512x256
abbrev recvSlot (h : Hop) : Memref sig .tc .vmem S512x256 .bf16 :=
  (recvM.slice (slotRect h) (fun _ => rfl)).squeeze S512x256 squeezes_S1x512x256_S512x256

abbrev barS : Sem sig := (SemArray.scalar (sig.barrier 0 rfl) : Sems sig S_).sem
def sendS (h : Hop) : DmaSem sig := ⟨8 + h.val, by have := h.isLt; show 8 + h.val < 30; omega⟩
def recvS (h : Hop) : DmaSem sig := ⟨15 + h.val, by have := h.isLt; show 15 + h.val < 30; omega⟩

abbrev barCell (c : Dev nD) : GSem nD τ sig := ((c : Thread nD τ), .reg barS)
abbrev sendCell (c : Dev nD) (h : Hop) : GSem nD τ sig := ((c : Thread nD τ), .dma (sendS h))
abbrev recvCell (c : Dev nD) (h : Hop) : GSem nD τ sig := ((c : Thread nD τ), .dma (recvS h))

/-- The units one block's transfer credits. -/
abbrev N : ℕ := (recvSlot 0 : Memref sig .tc .vmem S512x256 .bf16).view.dmaCredit

/-! ## What is computed -/

/-- One block of the product: relu (x · w) for a device's rows x and one column tile w. -/
def blkF (x : Vec F S512x4096 .f32) (w : Vec F S1x4096x256 .f32) : FVec F S512x256 .f32 :=
  maximumf (matmul dot_S512x4096_S4096x256_S512x256_1_0_0_1_n_n none x (shapeCast S4096x256 w shapeCasts_S1x4096x256_S4096x256) (constant S512x256 .f32 0x00000000#32))
    (broadcast S512x256 (Scalar.ofBits .f32 0x00000000#32))

/-- Device c's rows of x and its copy of w; the column tile of w that belongs to device p. -/
def xOf (c : Dev nD) : Vec F S512x4096 .f32 := m ((c : Thread nD τ).loc main_arg0)
def wOf (c : Dev nD) : Vec F S4096x2048 .f32 := m ((c : Thread nD τ).loc main_arg1)
theorem wcol_inb (p : Dev nD) : ∀ a, (![0, 256 * p.val] : Fin 2 → Nat) a + S4096x256.size a ≤ S4096x2048.size a := by
  revert p; decide
def wCol (c p : Dev nD) : Vec F S4096x256 .f32 :=
  ((Memref.whole main_arg1 : Memref sig .tc .hbm S4096x2048 .f32).slice
    (Rect.unit (s := S4096x2048) ![0, 256 * p.val] S4096x256.size (wcol_inb p)) (fun _ => rfl) : Memref sig .tc .hbm S4096x256 .f32).view.read (Elt F) (wOf m c)
theorem shapeCasts_S4096x256_S1x4096x256 : S4096x256.ShapeCasts S1x4096x256 := by decide
def wTile (c p : Dev nD) : Vec F S1x4096x256 .f32 := shapeCast S1x4096x256 (wCol m c p) shapeCasts_S4096x256_S1x4096x256

/-- What device s sends at hop h: its rows times the column tile of peer s h, rounded to bf16. -/
def sentBlk (s : Dev nD) (h : Hop) : Vec F S512x256 .bf16 := truncf .bf16 (blkF (xOf m s) (wTile m s (peer s h))) bitsLt_bf16_f32

/-- The receive buffer of d once hop h's block has landed, as far as slot h goes. -/
def landedV (d : Dev nD) (h : Hop) : Buf (Elt F) ((recvSlot h : Memref sig .tc .vmem S512x256 .bf16).view.loc (d : Thread nD τ)) :=
  (recvSlot h : Memref sig .tc .vmem S512x256 .bf16).view.write (Elt F) (fun _ => Classical.arbitrary _) (sentBlk m (src d h) h) Finset.univ
/-- The send buffer of c with slot h holding what it sends at hop h. -/
def commV (c : Dev nD) (h : Hop) : Buf (Elt F) ((commSlot h : Memref sig .tc .vmem S512x256 .bf16).view.loc (c : Thread nD τ)) :=
  (commSlot h : Memref sig .tc .vmem S512x256 .bf16).view.write (Elt F) (fun _ => Classical.arbitrary _) (sentBlk m c h) Finset.univ

def slotPts (d : Dev nD) (h : Hop) (f : Buf (Elt F) ((recvSlot h : Memref sig .tc .vmem S512x256 .bf16).view.loc (d : Thread nD τ))) : sProp 𝕄 :=
  (recvSlot h : Memref sig .tc .vmem S512x256 .bf16).view.loc (d : Thread nD τ) ↦[(recvSlot h : Memref sig .tc .vmem S512x256 .bf16).view.set]{fullShare} f
def commPts (c : Dev nD) (h : Hop) (f : Buf (Elt F) ((commSlot h : Memref sig .tc .vmem S512x256 .bf16).view.loc (c : Thread nD τ))) : sProp 𝕄 :=
  (commSlot h : Memref sig .tc .vmem S512x256 .bf16).view.loc (c : Thread nD τ) ↦[(commSlot h : Memref sig .tc .vmem S512x256 .bf16).view.set]{fullShare} f

/-! ## The schedule -/

/-- Duty k of g's barrier cell is paid by src g k, whose signal hands g the receive slot rev k of that
    device (the slot g writes at hop rev k) and that its receive cell there is at round 0. -/
def barPay (g : Dev nD) (k : Hop) : sProp 𝕄 := iprop((∃ f, slotPts (src g k) (rev k) f) ∗ reached ER (recvCell (src g k) (rev k)) 0)
def recvPay (d : Dev nD) (h : Hop) : sProp 𝕄 := slotPts d h (landedV m d h)
def sendPay (c : Dev nD) (h : Hop) : sProp 𝕄 := commPts c h (commV m c h)

abbrev IsBar (g : GSem nD τ sig) : Prop := g.1.2 = .tc ∧ g.2 = .reg barS
def IsSend (g : GSem nD τ sig) : Prop := g.1.2 = .tc ∧ ∃ h : Hop, g.2 = .dma (sendS h)
def IsRecv (g : GSem nD τ sig) : Prop := g.1.2 = .tc ∧ ∃ h : Hop, g.2 = .dma (recvS h)
instance (g : GSem nD τ sig) : Decidable (IsSend g) := by unfold IsSend; infer_instance
instance (g : GSem nD τ sig) : Decidable (IsRecv g) := by unfold IsRecv; infer_instance

/-- Which hop a send or receive semaphore belongs to (0 for any other). -/
def hopOf (s : SemLoc sig) : Hop := match s with
  | .dma q => if h : 15 ≤ q.val ∧ q.val < 22 then ⟨q.val - 15, by omega⟩ else if h : 8 ≤ q.val ∧ q.val < 15 then ⟨q.val - 8, by omega⟩ else 0
  | _ => 0

/-- One round: a barrier cell has its seven duties of one unit each, a send or receive cell the duty 0 of one block's
    credit. -/
def sched : Rounds.Schedule (GSem nD τ sig) Hop 𝕄 where
  duties g r := if r = 0 ∧ IsBar g then Finset.univ else if r = 0 ∧ (IsSend g ∨ IsRecv g) then {0} else ∅
  unitless _ := False
  amount g _ _ := if g.2 = .reg barS then 1 else N
  payload g _ d :=
    if g.2 = .reg barS then barPay g.1.1 d
    else if IsRecv g then recvPay m g.1.1 (hopOf g.2)
    else if IsSend g then sendPay m g.1.1 (hopOf g.2)
    else iprop(emp)
  amount_pos g _ _ _ := by
    by_cases h : g.2 = .reg barS
    · rw [if_pos h]; exact Nat.one_pos
    · rw [if_neg h]; exact View.dmaCredit_pos _ (by decide)

end Cert.KernelIdeal.A2A

end
-- ==== Proof.Inv.lean ====
import proofs.«900533_g7700000000000534_dist_gemm_a2a_m4096_k4096_n2048_f32_relu_v7x_i8_1_alg».proof.Proof.Proto
import Idealize.ShloMosaic.Lib.ValueIdx

set_option maxRecDepth 16384

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ UU ℕ

variable (m : (ℓ : Loc nD τ sig) → Buf (Elt F) ℓ) (ρ : Dev nD → PrngReg)

/-! ## The result -/

/-- Device d's own block: its rows times its own column tile. -/
def ownBlk (d : Dev nD) : FVec F S512x256 .f32 := blkF (xOf m d) (wTile m d d)
/-- The block device d receives at hop h, widened back to f32. -/
def gotBlk (d : Dev nD) (h : Hop) : FVec F S512x256 .f32 := extf .f32 (sentBlk m (src d h) h) bitsLt_bf16_f32
/-- The hop at which s sends to d (any hop when s = d). -/
def hopTo (d s : Dev nD) : Hop := ⟨((d.val + 7 - s.val) % 8) % 7, Nat.mod_lt _ (by decide)⟩
theorem src_hopTo (d s : Dev nD) (h : s ≠ d) : src d (hopTo d s) = s := by revert d s; decide
theorem hopTo_src (d : Dev nD) (h : Hop) : hopTo d (src d h) = h := by revert d h; decide
/-- Rows 512 s … 512 s + 511 of device d's result: the block computed from device s's rows. -/
def rowBlk (d s : Dev nD) : FVec F S512x256 .f32 := if s = d then ownBlk m d else gotBlk m d (hopTo d s)
/-- Device d's result array: 4096 rows, its 256 columns. -/
def outV (d : Dev nD) : Vec F S4096x256 .f32 := fun i =>
  rowBlk m d ⟨(i 0).val / 512, Nat.div_lt_of_lt_mul (i 0).isLt⟩ (ValueIdx.ix2 ⟨(i 0).val % 512, Nat.mod_lt _ (by decide)⟩ (i 1))

/-! ## Levels, and what each device owes at launch -/

def L (g : GSem nD τ sig) : Finset Unit := if g.1.2 = .tc then {()} else ∅
/-- Barrier cells at 1, receive cells at 2, everything else (the local transfers' cells, the send cells) at 0. -/
def lv (g : GSem nD τ sig) (_ : Unit) : ℕ := if g.2 = .reg barS then 1 else if IsRecv g then 2 else 0

/-- Device c owes every other device's barrier cell one unit and the receive cell of hop h on peer c h one block's
    credit; summed so that the signals peel from the right, hop 0 first, and then the transfers, hop 0 first. -/
def O₀ (c : Dev nD) : CellTallies nD τ sig Unit := tallyAt (recvCell (peer c 6) 6) () N + tallyAt (recvCell (peer c 5) 5) () N + tallyAt (recvCell (peer c 4) 4) () N + tallyAt (recvCell (peer c 3) 3) () N + tallyAt (recvCell (peer c 2) 2) () N + tallyAt (recvCell (peer c 1) 1) () N + tallyAt (recvCell (peer c 0) 0) () N + tallyAt (barCell (peer c 6)) () 1 + tallyAt (barCell (peer c 5)) () 1 + tallyAt (barCell (peer c 4)) () 1 + tallyAt (barCell (peer c 3)) () 1 + tallyAt (barCell (peer c 2)) () 1 + tallyAt (barCell (peer c 1)) () 1 + tallyAt (barCell (peer c 0)) () 1

/-! ## The ghost state of one device, and the body's pre- and postcondition -/

/-- Names of a device's fifteen cells: 0 the barrier, 1 + h the send cell of hop h, 8 + h the receive cell. -/
def jS (h : Hop) : Fin 15 := ⟨1 + h.val, by have := h.isLt; omega⟩
def jR (h : Hop) : Fin 15 := ⟨8 + h.val, by have := h.isLt; omega⟩
def csem (j : Fin 15) : SemLoc sig :=
  if j.val = 0 then .reg barS else if h : j.val < 8 then .dma (sendS ⟨j.val - 1, by omega⟩) else .dma (recvS ⟨j.val - 8, by have := j.isLt; omega⟩)
abbrev kcell (ck : Dev nD × Fin 15) : GSem nD τ sig := ((ck.1 : Thread nD τ), csem ck.2)

variable (K : Dev nD × Fin 15 → ℕ)

/-- The invariants device c's body opens: its own fifteen cells, every other device's barrier cell (its signals) and
    the receive cell of hop h on peer c h (its transfers). -/
def invs (c : Dev nD) : sProp 𝕄 :=
  iprop(cellInv ER (sched m) (K (c, 0)) (barCell c)
    ∗ bigSep Finset.univ (fun h : Hop => cellInv ER (sched m) (K (c, jS h)) (sendCell c h))
    ∗ bigSep Finset.univ (fun h : Hop => cellInv ER (sched m) (K (c, jR h)) (recvCell c h))
    ∗ bigSep Finset.univ (fun k : Hop => cellInv ER (sched m) (K (peer c k, 0)) (barCell (peer c k)))
    ∗ bigSep Finset.univ (fun h : Hop => cellInv ER (sched m) (K (peer c h, jR h)) (recvCell (peer c h) h)))

def ghost (c : Dev nD) : sProp 𝕄 :=
  iprop(invs m K c
    ∗ atPos ER (barCell c) 0 ∅ 0
    ∗ bigSep Finset.univ (fun h : Hop => atPos ER (sendCell c h) 0 ∅ 0)
    ∗ bigSep Finset.univ (fun h : Hop => atPos ER (recvCell c h) 0 ∅ 0)
    ∗ bigSep Finset.univ (fun k : Hop => reached ER (barCell (peer c k)) 0)
    ∗ bigSep Finset.univ (fun h : Hop => reached ER (sendCell c h) 0)
    ∗ bigSep Finset.univ (fun h : Hop => reached ER (recvCell c h) 0)
    ∗ bigSep Finset.univ (fun k : Hop => dutyTok ER (barCell (peer c k)) 0 k)
    ∗ bigSep Finset.univ (fun h : Hop => dutyTok ER (recvCell (peer c h) h) 0 (0 : Hop))
    ∗ bigSep Finset.univ (fun h : Hop => dutyTok ER (sendCell c h) 0 (0 : Hop)))

/-- A whole buffer held at contents f, spelt through its memref's view. -/
abbrev held (c : Dev nD) {sp : Space} {S : Shape} {e : EltTy} (M : Memref sig .tc sp S e) (f : Buf (Elt F) (M.view.loc (c : Thread nD τ))) : sProp 𝕄 :=
  M.view.loc (c : Thread nD τ) ↦[M.view.set]{fullShare} f

/-- The sixteen semaphores of the local transfers: x chunks 0–3, column tiles 4–7, result blocks 22–29. -/
def locSem (j : Fin 16) : DmaSem sig := if h : j.val < 8 then ⟨j.val, by show j.val < 30; omega⟩ else ⟨j.val + 14, by have := j.isLt; show j.val + 14 < 30; omega⟩
def locSems0 (c : Dev nD) : sProp 𝕄 := bigSep Finset.univ (fun j : Fin 16 => semVal ((c : Thread nD τ), SemLoc.dma (locSem j)) 0)
def allSems0 (c : Dev nD) : sProp 𝕄 := bigSep Finset.univ (fun q : DmaSem sig => semVal ((c : Thread nD τ), SemLoc.dma q) 0)

abbrev xM : Memref sig .tc .hbm S512x4096 .f32 := Memref.whole main_arg0
abbrev wM : Memref sig .tc .hbm S4096x2048 .f32 := Memref.whole main_arg1
abbrev oM : Memref sig .tc .hbm S4096x256 .f32 := Memref.whole main_v1
abbrev xsM : Memref sig .tc .vmem S512x4096 .f32 := Memref.whole cc0_scratch0
abbrev wtM : Memref sig .tc .vmem S4x4096x256 .f32 := Memref.whole cc0_scratch1
abbrev stM : Memref sig .tc .vmem S8x512x256 .f32 := Memref.whole cc0_scratch4

def scratches (c : Dev nD) : sProp 𝕄 :=
  iprop((∃ f, held c xsM f) ∗ (∃ f, held c wtM f) ∗ (∃ f, held c commM f) ∗ (∃ f, held c recvM f) ∗ (∃ f, held c stM f))

/-- What device c's body starts from. -/
def bodyPre (c : Dev nD) : sProp 𝕄 :=
  iprop(ghost m K c ∗ cred (tallyAt (barCell c) () 7) ∗ bigSep Finset.univ (fun h : Hop => cred (tallyAt (recvCell c h) () N)) ∗ levAts L lv
    ∗ (∃ W, owes (c : Thread nD τ) (O₀ c) W) ∗ locSems0 c
    ∗ held c xM (xOf m c) ∗ held c wM (wOf m c) ∗ (∃ f, held c oM f) ∗ scratches c)

/-- What it ends with: the arguments as they were, the result array at outV, every own semaphore at zero, nothing owed. -/
def bodyPost (c : Dev nD) : sProp 𝕄 :=
  iprop(held c xM (xOf m c) ∗ held c wM (wOf m c) ∗ held c oM (outV m c) ∗ scratches c ∗ allSems0 c ∗ (∃ W, owes (c : Thread nD τ) 0 W))

end Cert.KernelIdeal.A2A

end
-- ==== Proof.Tables.lean ====
import proofs.«900533_g7700000000000534_dist_gemm_a2a_m4096_k4096_n2048_f32_relu_v7x_i8_1_alg».proof.Proof.Inv

set_option maxRecDepth 16384

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ UU ℕ

/-! ## Which semaphore is which -/

theorem dma_ne_bar (q : DmaSem sig) : (SemLoc.dma q : SemLoc sig) ≠ .reg barS := fun h => by cases h
theorem sendS_ne_recvS (h h' : Hop) : sendS h ≠ recvS h' := by revert h h'; decide

theorem hopOf_send (h : Hop) : hopOf (SemLoc.dma (sendS h) : SemLoc sig) = h := by revert h; decide
theorem hopOf_recv (h : Hop) : hopOf (SemLoc.dma (recvS h) : SemLoc sig) = h := by revert h; decide

theorem isRecv_recv (c : Dev nD) (h : Hop) : IsRecv (recvCell c h) := ⟨rfl, h, rfl⟩
theorem isSend_send (c : Dev nD) (h : Hop) : IsSend (sendCell c h) := ⟨rfl, h, rfl⟩
theorem not_isRecv_send (c : Dev nD) (h : Hop) : ¬ IsRecv (sendCell c h) :=
  fun ⟨_, h', e⟩ => sendS_ne_recvS h h' (SemLoc.dma.inj e)
theorem not_isSend_recv (c : Dev nD) (h : Hop) : ¬ IsSend (recvCell c h) :=
  fun ⟨_, h', e⟩ => sendS_ne_recvS h' h (SemLoc.dma.inj e).symm
theorem not_isBar_send (c : Dev nD) (h : Hop) : ¬ IsBar (sendCell c h) := fun hb => dma_ne_bar _ hb.2
theorem not_isBar_recv (c : Dev nD) (h : Hop) : ¬ IsBar (recvCell c h) := fun hb => dma_ne_bar _ hb.2

/-! ## The payloads can be stored in an invariant -/

instance sched_payload_storable (m : (ℓ : Loc nD τ sig) → Buf (Elt F) ℓ) (g : GSem nD τ sig) (r : ℕ) (d : Hop) :
    BI.Storable (upEmb : UEmb _ 𝕄) ((sched (F := F) m).payload g r d) := by
  show BI.Storable upEmb (if g.2 = .reg barS then barPay g.1.1 d else if IsRecv g then recvPay m g.1.1 (hopOf g.2)
    else if IsSend g then sendPay m g.1.1 (hopOf g.2) else iprop(emp))
  unfold barPay recvPay sendPay slotPts commPts
  (repeat' split) <;> infer_instance

/-! ## The schedule, cell by cell -/

theorem duties_bar (m : (ℓ : Loc nD τ sig) → Buf (Elt F) ℓ) (c : Dev nD) : (sched (F := F) m).duties (barCell c) 0 = Finset.univ := by
  dsimp only [sched]; exact if_pos ⟨rfl, rfl, rfl⟩
theorem duties_send (m : (ℓ : Loc nD τ sig) → Buf (Elt F) ℓ) (c : Dev nD) (h : Hop) : (sched (F := F) m).duties (sendCell c h) 0 = {0} := by
  dsimp only [sched]; rw [if_neg (fun hb => not_isBar_send c h hb.2)]; exact if_pos ⟨rfl, .inl (isSend_send c h)⟩
theorem duties_recv (m : (ℓ : Loc nD τ sig) → Buf (Elt F) ℓ) (c : Dev nD) (h : Hop) : (sched (F := F) m).duties (recvCell c h) 0 = {0} := by
  dsimp only [sched]; rw [if_neg (fun hb => not_isBar_recv c h hb.2)]; exact if_pos ⟨rfl, .inr (isRecv_recv c h)⟩
theorem duties_later (m : (ℓ : Loc nD τ sig) → Buf (Elt F) ℓ) (g : GSem nD τ sig) (r : ℕ) (hr : 1 ≤ r) : (sched (F := F) m).duties g r = ∅ := by
  dsimp only [sched]; rw [if_neg fun h => by omega, if_neg fun h => by omega]

theorem amount_bar (m : (ℓ : Loc nD τ sig) → Buf (Elt F) ℓ) (c : Dev nD) (d : Hop) : (sched (F := F) m).amount (barCell c) 0 d = 1 := by
  dsimp only [sched]; exact if_pos rfl
theorem amount_send (m : (ℓ : Loc nD τ sig) → Buf (Elt F) ℓ) (c : Dev nD) (h d : Hop) : (sched (F := F) m).amount (sendCell c h) 0 d = N := by
  dsimp only [sched]; exact if_neg (dma_ne_bar _)
theorem amount_recv (m : (ℓ : Loc nD τ sig) → Buf (Elt F) ℓ) (c : Dev nD) (h d : Hop) : (sched (F := F) m).amount (recvCell c h) 0 d = N := by
  dsimp only [sched]; exact if_neg (dma_ne_bar _)

theorem expect_bar (m : (ℓ : Loc nD τ sig) → Buf (Elt F) ℓ) (c : Dev nD) : (sched (F := F) m).expect (barCell c) 0 = 7 := by
  unfold Schedule.expect Schedule.amountOf
  rw [duties_bar, Finset.sum_congr rfl fun d _ => amount_bar m c d, Finset.sum_const, Finset.card_univ, Fintype.card_fin, smul_eq_mul]
theorem expect_send (m : (ℓ : Loc nD τ sig) → Buf (Elt F) ℓ) (c : Dev nD) (h : Hop) : (sched (F := F) m).expect (sendCell c h) 0 = N := by
  unfold Schedule.expect Schedule.amountOf; rw [duties_send, Finset.sum_singleton, amount_send]
theorem expect_recv (m : (ℓ : Loc nD τ sig) → Buf (Elt F) ℓ) (c : Dev nD) (h : Hop) : (sched (F := F) m).expect (recvCell c h) 0 = N := by
  unfold Schedule.expect Schedule.amountOf; rw [duties_recv, Finset.sum_singleton, amount_recv]

theorem payload_bar (m : (ℓ : Loc nD τ sig) → Buf (Elt F) ℓ) (c : Dev nD) (k : Hop) : (sched (F := F) m).payload (barCell c) 0 k = barPay c k := by
  dsimp only [sched]; rw [if_pos rfl]
theorem payload_send (m : (ℓ : Loc nD τ sig) → Buf (Elt F) ℓ) (c : Dev nD) (h d : Hop) : (sched (F := F) m).payload (sendCell c h) 0 d = sendPay m c h := by
  dsimp only [sched]; rw [if_neg (dma_ne_bar _), if_neg (not_isRecv_send c h), if_pos (isSend_send c h), hopOf_send]
theorem payload_recv (m : (ℓ : Loc nD τ sig) → Buf (Elt F) ℓ) (c : Dev nD) (h d : Hop) : (sched (F := F) m).payload (recvCell c h) 0 d = recvPay m c h := by
  dsimp only [sched]; rw [if_neg (dma_ne_bar _), if_pos (isRecv_recv c h), hopOf_recv]

/-- A product over the seven hops, written out. -/
theorem bigSep_hop (Φ : Hop → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- The rest of a barrier cell's round, no duty taken: the seven payloads. -/
theorem rest_bar (m : (ℓ : Loc nD τ sig) → Buf (Elt F) ℓ) (c : Dev nD) :
    bigSep ((sched (F := F) m).duties (barCell c) 0 \ ∅) (fun d => (sched (F := F) m).payload (barCell c) 0 d)
      = iprop(barPay c 0 ∗ barPay c 1 ∗ barPay c 2 ∗ barPay c 3 ∗ barPay c 4 ∗ barPay c 5 ∗ barPay c 6) := by
  rw [Finset.sdiff_empty, duties_bar, bigSep_hop]
  simp only [payload_bar]
theorem rest_send (m : (ℓ : Loc nD τ sig) → Buf (Elt F) ℓ) (c : Dev nD) (h : Hop) :
    bigSep ((sched (F := F) m).duties (sendCell c h) 0 \ ∅) (fun d => (sched (F := F) m).payload (sendCell c h) 0 d) = sendPay m c h := by
  rw [Finset.sdiff_empty, duties_send, bigSep_singleton, payload_send]
theorem rest_recv (m : (ℓ : Loc nD τ sig) → Buf (Elt F) ℓ) (c : Dev nD) (h : Hop) :
    bigSep ((sched (F := F) m).duties (recvCell c h) 0 \ ∅) (fun d => (sched (F := F) m).payload (recvCell c h) 0 d) = recvPay m c h := by
  rw [Finset.sdiff_empty, duties_recv, bigSep_singleton, payload_recv]

/-! ## Levels -/

theorem L_of_ne (g : GSem nD τ sig) (h : g.1.2 ≠ .tc) : L g = ∅ := if_neg h
theorem L_tc (c : Dev nD) (sm : SemLoc sig) : L ((c : Thread nD τ), sm) = {()} := if_pos rfl

theorem tallyAt_pos {g g' : GSem nD τ sig} {k : ℕ} {u u' : Unit} (h : 0 < tallyAt g u k g' u') : g' = g := by
  rw [tallyAt_apply] at h
  by_contra hn
  rw [if_neg (fun h' => hn h'.1)] at h
  exact Nat.lt_irrefl 0 h

/-- Whatever a device owes at launch is owed to a barrier cell or to the receive cell of hop h on peer c h. -/
theorem O₀_pos {c : Dev nD} {g : GSem nD τ sig} {u : Unit} (h : 0 < O₀ c g u) :
    (∃ k : Hop, g = barCell (peer c k)) ∨ (∃ h : Hop, g = recvCell (peer c h) h) := by
  unfold O₀ at h
  simp only [Pi.add_apply, Finsupp.add_apply, Nat.add_pos_iff_pos_or_pos, or_assoc] at h
  rcases h with h | h | h | h | h | h | h | h | h | h | h | h | h | h
  all_goals first
    | exact .inr ⟨_, tallyAt_pos h⟩
    | exact .inl ⟨_, tallyAt_pos h⟩

/-- A wait on a semaphore that is no receive semaphore sits at level 0, below everything that can be owed. -/
theorem mayWait_local (c : Dev nD) (q : DmaSem sig) (hq : ¬ IsRecv (((c : Thread nD τ), SemLoc.dma q) : GSem nD τ sig))
    (O : CellTallies nD τ sig Unit)
    (hO : ∀ g u, 0 < O g u → (∃ k : Hop, g = barCell (peer c k)) ∨ (∃ h : Hop, g = recvCell (peer c h) h)) :
    (levAts L lv : sProp 𝕄) ⊢ MayWait (c : Thread nD τ) (.dma q) () O :=
  MayOwe.of_cut (L := L) (lev := lv) 0
    (fun p hp => by rw [Finset.mem_singleton.mp hp, L_tc]; exact Finset.mem_singleton_self _)
    (fun g u hg => by
      rcases hO g u hg with ⟨k, rfl⟩ | ⟨h, rfl⟩ <;> (rw [L_tc]; exact Finset.mem_singleton_self _))
    (fun p hp => by
      rw [Finset.mem_singleton.mp hp]; dsimp only [lv]; rw [if_neg (dma_ne_bar q), if_neg hq])
    (fun g u hg => by
      rcases hO g u hg with ⟨k, rfl⟩ | ⟨h, rfl⟩
      · dsimp only [lv]; rw [if_pos rfl]; decide
      · dsimp only [lv]; rw [if_neg (dma_ne_bar _), if_pos (isRecv_recv _ _)]; decide)

/-- The barrier wait sits at level 1, below the receive credits, which are all a device then owes. -/
theorem mayWait_bar (c : Dev nD) (O : CellTallies nD τ sig Unit)
    (hO : ∀ g u, 0 < O g u → ∃ h : Hop, g = recvCell (peer c h) h) :
    (levAts L lv : sProp 𝕄) ⊢ MayWait (c : Thread nD τ) (.reg barS) () O :=
  MayOwe.of_cut (L := L) (lev := lv) 1
    (fun p hp => by rw [Finset.mem_singleton.mp hp, L_tc]; exact Finset.mem_singleton_self _)
    (fun g u hg => by
      obtain ⟨h, rfl⟩ := hO g u hg; rw [L_tc]; exact Finset.mem_singleton_self _)
    (fun p hp => by
      rw [Finset.mem_singleton.mp hp]; dsimp only [lv]; rw [if_pos rfl])
    (fun g u hg => by
      obtain ⟨h, rfl⟩ := hO g u hg
      dsimp only [lv]; rw [if_neg (dma_ne_bar _), if_pos (isRecv_recv _ _)]; decide)

/-- info: 'Cert.KernelIdeal.A2A.rest_bar' depends on axioms: [propext, Classical.choice, Quot.sound] -/
#guard_msgs in #print axioms rest_bar
/-- info: 'Cert.KernelIdeal.A2A.sched_payload_storable' depends on axioms: [propext, Classical.choice, Quot.sound] -/
#guard_msgs in #print axioms sched_payload_storable
/-- info: 'Cert.KernelIdeal.A2A.O₀_pos' depends on axioms: [propext, Classical.choice, Quot.sound] -/
#guard_msgs in #print axioms O₀_pos
/-- info: 'Cert.KernelIdeal.A2A.mayWait_local' depends on axioms: [propext, Classical.choice, Quot.sound] -/
#guard_msgs in #print axioms mayWait_local
/-- info: 'Cert.KernelIdeal.A2A.mayWait_bar' depends on axioms: [propext, Classical.choice, Quot.sound] -/
#guard_msgs in #print axioms mayWait_bar

end Cert.KernelIdeal.A2A

end
-- ==== Proof.Rules.lean ====
import proofs.«900533_g7700000000000534_dist_gemm_a2a_m4096_k4096_n2048_f32_relu_v7x_i8_1_alg».proof.Proof.Tables
import Idealize.ShloMosaic.Lib.Pipeline.Value

set_option maxRecDepth 16384

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ UU ℕ

/-! ## A signal to the barrier cell of the peer at a hop -/

/-- Device c signals the barrier cell of peer c k. There c pays duty k, since src (peer c k) k = c, and the duty's
    payload is c's own receive slot rev k together with the fact that c's receive cell of hop rev k is at round 0. -/
theorem wp_signal_hop (m : (ℓ : Loc nD τ sig) → Buf (Elt F) ℓ) (K : Dev nD × Fin 15 → ℕ)
    (c : Dev nD) (k : Hop) (n : Dev nD) (hn : n = peer c k) {α : Type} {Q : α → sProp 𝕄}
    {kk : PUnit → Prog (TpuEff nD τ sig (Elt F) Λ₀ .tc) α}
    (f : Buf (Elt F) ((recvSlot (rev k) : Memref sig .tc .vmem S512x256 .bf16).view.loc (c : Thread nD τ)))
    (O : CellTallies nD τ sig Unit) (W : Waits sig Unit) :
    iprop(cellInv ER (sched m) (K (peer c k, 0)) (barCell (peer c k)) ∗ owes (c : Thread nD τ) (O + tallyAt (barCell (peer c k)) () 1) W
        ∗ dutyTok ER (barCell (peer c k)) 0 k ∗ slotPts c (rev k) f ∗ reached ER (recvCell c (rev k)) 0 ∗ reached ER (barCell (peer c k)) 0)
      ⊢ iprop((owes (c : Thread nD τ) O W -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (Dev.tc n : Thread nD τ) barS 1) kk) Q) := by
  subst hn
  have hpay : iprop(slotPts c (rev k) f ∗ reached ER (recvCell c (rev k)) 0) ⊢ (sched (F := F) m).payload (barCell (peer c k)) 0 k := by
    rw [payload_bar]; unfold barPay; rw [src_peer]
    iintro ⟨H1, H2⟩
    isplitl [H1]
    · iexists f; iexact H1
    · iexact H2
  iintro ⟨Hg, HL, Htok, Hs, Hr1, Hr2⟩ Hk
  iapply (wp_signal 𝒱₀ ER (sched m) (c : Thread nD τ) none (by rw [duties_bar]; exact Finset.mem_univ k) (amount_bar m (peer c k) k) () O rfl)
    $$ [Hg HL Htok Hs Hr1 Hr2] Hk
  isplitl [Hg]; · iexact Hg
  isplitl [HL]; · iexact HL
  isplitl [Htok]; · iexact Htok
  isplitl [Hs Hr1]
  · iapply hpay
    isplitl [Hs]; · iexact Hs
    iexact Hr1
  · iexact Hr2

/-! ## The transfer of a hop's block to the peer -/

/-- Every slot's transfer credits the same number of units. -/
theorem amount_recvSlot (h : Hop) :
    (recvSlot h : Memref sig .tc .vmem S512x256 .bf16).view.amount (.dma (recvS h)) = N := rfl

/-- Contents that read as the block sent at hop h agree, on the send slot, with the slot written with that block. -/
theorem comm_agree (m : (ℓ : Loc nD τ sig) → Buf (Elt F) ℓ) (c : Dev nD) (h : Hop)
    (fs : Buf (Elt F) ((commSlot h : Memref sig .tc .vmem S512x256 .bf16).view.loc (c : Thread nD τ)))
    (hfs : (commSlot h : Memref sig .tc .vmem S512x256 .bf16).view.read (Elt F) fs = sentBlk m c h) :
    ∀ i ∈ (commSlot h : Memref sig .tc .vmem S512x256 .bf16).view.set, fs i = commV m c h i := by
  intro i hi
  obtain ⟨y, rfl⟩ := View.exists_emb_of_mem_set _ hi
  unfold commV
  rw [View.write_emb_of_mem _ _ (Finset.mem_univ y), ← hfs, View.read_apply]
  simp only [cast_cast, cast_eq]

/-- The receive slot of peer c h written with what c's send slot reads as is the slot with c's block landed. -/
theorem land_agree (m : (ℓ : Loc nD τ sig) → Buf (Elt F) ℓ) (c : Dev nD) (h : Hop)
    (fs : Buf (Elt F) ((commSlot h : Memref sig .tc .vmem S512x256 .bf16).view.loc (c : Thread nD τ)))
    (fd : Buf (Elt F) ((recvSlot h : Memref sig .tc .vmem S512x256 .bf16).view.loc (peer c h : Thread nD τ)))
    (hfs : (commSlot h : Memref sig .tc .vmem S512x256 .bf16).view.read (Elt F) fs = sentBlk m c h) :
    ∀ i ∈ (recvSlot h : Memref sig .tc .vmem S512x256 .bf16).view.set,
      (recvSlot h : Memref sig .tc .vmem S512x256 .bf16).view.write (Elt F) fd
        ((commSlot h : Memref sig .tc .vmem S512x256 .bf16).view.read (Elt F) fs) Finset.univ i = landedV m (peer c h) h i := by
  intro i hi
  obtain ⟨y, rfl⟩ := View.exists_emb_of_mem_set _ hi
  unfold landedV
  rw [View.write_emb_of_mem _ _ (Finset.mem_univ y), View.write_emb_of_mem _ _ (Finset.mem_univ y), hfs, src_peer]

/-- Device c sends the block of hop h to peer c h: it pays duty 0 of its own send cell with its send slot as that cell's
    payload, and duty 0 of the peer's receive cell of hop h with the peer's receive slot, rewritten with what the send
    slot reads as, as that cell's payload. It gets the send cell's credit and no longer owes the receive cell's. -/
theorem wp_send_hop (m : (ℓ : Loc nD τ sig) → Buf (Elt F) ℓ) (K : Dev nD × Fin 15 → ℕ)
    (c : Dev nD) (h : Hop) (n : Dev nD) (hn : n = peer c h)
    {hsc : (recvSlot h : Memref sig (Dev.tc n : Thread nD τ).2.kind .vmem S512x256 .bf16).view.ref.isScScratch = false}
    {hsrc : (commSlot h : Memref sig .tc .vmem S512x256 .bf16).view.WordExact}
    {hdst : (recvSlot h : Memref sig .tc .vmem S512x256 .bf16).view.WordExact}
    {hsem : DmaTarget.Typed .vmem (.dma (recvS h)) (.remote (Dev.tc n : Thread nD τ) (recvSlot h : Memref sig .tc .vmem S512x256 .bf16) (.dma (sendS h)) hsc)}
    {α : Type} {Q : α → sProp 𝕄} {kk : PUnit → Prog (TpuEff nD τ sig (Elt F) Λ₀ .tc) α}
    (fs : Buf (Elt F) ((commSlot h : Memref sig .tc .vmem S512x256 .bf16).view.loc (c : Thread nD τ)))
    (fd : Buf (Elt F) ((recvSlot h : Memref sig .tc .vmem S512x256 .bf16).view.loc (peer c h : Thread nD τ)))
    (hfs : (commSlot h : Memref sig .tc .vmem S512x256 .bf16).view.read (Elt F) fs = sentBlk m c h)
    (O : CellTallies nD τ sig Unit) (W : Waits sig Unit) :
    iprop(cellInv ER (sched m) (K (c, jS h)) (sendCell c h) ∗ cellInv ER (sched m) (K (peer c h, jR h)) (recvCell (peer c h) h)
        ∗ commPts c h fs ∗ slotPts (peer c h) h fd ∗ owes (c : Thread nD τ) (O + tallyAt (recvCell (peer c h) h) () N) W
        ∗ dutyTok ER (sendCell c h) 0 (0 : Hop) ∗ reached ER (sendCell c h) 0
        ∗ dutyTok ER (recvCell (peer c h) h) 0 (0 : Hop) ∗ reached ER (recvCell (peer c h) h) 0)
      ⊢ iprop(((cred (tallyAt (sendCell c h) () N) ∗ owes (c : Thread nD τ) O W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (commSlot h) (.remote (Dev.tc n : Thread nD τ) (recvSlot h) (.dma (sendS h)) hsc) (.dma (recvS h)) hsrc hdst hsem) kk) Q) := by
  subst hn
  have hpay₁ : commPts c h fs ⊢ (sched (F := F) m).payload (sendCell c h) 0 (0 : Hop) := by
    rw [payload_send]; unfold sendPay commPts
    rw [pointsTo_congr (comm_agree m c h fs hfs)]
  have hpay₂ : ((recvSlot h : Memref sig .tc .vmem S512x256 .bf16).view.loc (peer c h : Thread nD τ)
        ↦[(recvSlot h : Memref sig .tc .vmem S512x256 .bf16).view.set]{fullShare}
          ((recvSlot h : Memref sig .tc .vmem S512x256 .bf16).view.write (Elt F) fd
            ((commSlot h : Memref sig .tc .vmem S512x256 .bf16).view.read (Elt F) fs) Finset.univ) : sProp 𝕄)
      ⊢ (sched (F := F) m).payload (recvCell (peer c h) h) 0 (0 : Hop) := by
    rw [payload_recv]; unfold recvPay slotPts
    rw [pointsTo_congr (land_agree m c h fs fd hfs)]
  exact wp_send_pointsTo 𝒱₀ ER (sched m) (c : Thread nD τ) none
    (src := commSlot h) (dst := recvSlot h) (c' := (peer c h : Thread nD τ)) (q := fullShare) (fs := fs) (fd := fd)
    (by rw [duties_send]; exact Finset.mem_singleton_self _) (by rw [duties_recv]; exact Finset.mem_singleton_self _)
    () () N (amount_recvSlot h) (amount_send m c h 0) (amount_recv m (peer c h) h 0) O rfl hpay₁ hpay₂

/-- info: 'Cert.KernelIdeal.A2A.wp_signal_hop' depends on axioms: [propext, Classical.choice, Quot.sound] -/
#guard_msgs in #print axioms wp_signal_hop
/-- info: 'Cert.KernelIdeal.A2A.wp_send_hop' depends on axioms: [propext, Classical.choice, Quot.sound] -/
#guard_msgs in #print axioms wp_send_hop

end Cert.KernelIdeal.A2A

end
-- ==== Proof.Slots.lean ====
import proofs.«900533_g7700000000000534_dist_gemm_a2a_m4096_k4096_n2048_f32_relu_v7x_i8_1_alg».proof.Proof.Tables

set_option maxRecDepth 16384

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ UU ℕ

/-! ## The barrier payloads with the device arithmetic resolved -/

/-- The payload of duty k on g's barrier cell, once the paying device d = src g k and the slot j = rev k are named. -/
theorem barPay_at (g d : Dev nD) (k j : Hop) (hd : src g k = d) (hj : rev k = j) :
    (barPay g k : sProp 𝕄) = iprop((∃ f, ((recvSlot j : Memref sig .tc .vmem S512x256 .bf16).view.loc (d : Thread nD τ) ↦[(recvSlot j : Memref sig .tc .vmem S512x256 .bf16).view.set]{fullShare} f)) ∗ reached ER (recvCell d j) 0) := by
  subst hd; subst hj; rfl

theorem payload_bar_peer0 (m : (ℓ : Loc nD τ sig) → Buf (Elt F) ℓ) (c : Dev nD) : (sched (F := F) m).payload (barCell (peer c 0)) 0 (0 : Hop) = iprop((∃ f, ((recvSlot 6 : Memref sig .tc .vmem S512x256 .bf16).view.loc (c : Thread nD τ) ↦[(recvSlot 6 : Memref sig .tc .vmem S512x256 .bf16).view.set]{fullShare} f)) ∗ reached ER (recvCell c 6) 0) := by
  rw [payload_bar]; exact barPay_at (peer c 0) c 0 6 (src_peer c 0) (by decide)
theorem payload_bar_peer1 (m : (ℓ : Loc nD τ sig) → Buf (Elt F) ℓ) (c : Dev nD) : (sched (F := F) m).payload (barCell (peer c 1)) 0 (1 : Hop) = iprop((∃ f, ((recvSlot 5 : Memref sig .tc .vmem S512x256 .bf16).view.loc (c : Thread nD τ) ↦[(recvSlot 5 : Memref sig .tc .vmem S512x256 .bf16).view.set]{fullShare} f)) ∗ reached ER (recvCell c 5) 0) := by
  rw [payload_bar]; exact barPay_at (peer c 1) c 1 5 (src_peer c 1) (by decide)
theorem payload_bar_peer2 (m : (ℓ : Loc nD τ sig) → Buf (Elt F) ℓ) (c : Dev nD) : (sched (F := F) m).payload (barCell (peer c 2)) 0 (2 : Hop) = iprop((∃ f, ((recvSlot 4 : Memref sig .tc .vmem S512x256 .bf16).view.loc (c : Thread nD τ) ↦[(recvSlot 4 : Memref sig .tc .vmem S512x256 .bf16).view.set]{fullShare} f)) ∗ reached ER (recvCell c 4) 0) := by
  rw [payload_bar]; exact barPay_at (peer c 2) c 2 4 (src_peer c 2) (by decide)
theorem payload_bar_peer3 (m : (ℓ : Loc nD τ sig) → Buf (Elt F) ℓ) (c : Dev nD) : (sched (F := F) m).payload (barCell (peer c 3)) 0 (3 : Hop) = iprop((∃ f, ((recvSlot 3 : Memref sig .tc .vmem S512x256 .bf16).view.loc (c : Thread nD τ) ↦[(recvSlot 3 : Memref sig .tc .vmem S512x256 .bf16).view.set]{fullShare} f)) ∗ reached ER (recvCell c 3) 0) := by
  rw [payload_bar]; exact barPay_at (peer c 3) c 3 3 (src_peer c 3) (by decide)
theorem payload_bar_peer4 (m : (ℓ : Loc nD τ sig) → Buf (Elt F) ℓ) (c : Dev nD) : (sched (F := F) m).payload (barCell (peer c 4)) 0 (4 : Hop) = iprop((∃ f, ((recvSlot 2 : Memref sig .tc .vmem S512x256 .bf16).view.loc (c : Thread nD τ) ↦[(recvSlot 2 : Memref sig .tc .vmem S512x256 .bf16).view.set]{fullShare} f)) ∗ reached ER (recvCell c 2) 0) := by
  rw [payload_bar]; exact barPay_at (peer c 4) c 4 2 (src_peer c 4) (by decide)
theorem payload_bar_peer5 (m : (ℓ : Loc nD τ sig) → Buf (Elt F) ℓ) (c : Dev nD) : (sched (F := F) m).payload (barCell (peer c 5)) 0 (5 : Hop) = iprop((∃ f, ((recvSlot 1 : Memref sig .tc .vmem S512x256 .bf16).view.loc (c : Thread nD τ) ↦[(recvSlot 1 : Memref sig .tc .vmem S512x256 .bf16).view.set]{fullShare} f)) ∗ reached ER (recvCell c 1) 0) := by
  rw [payload_bar]; exact barPay_at (peer c 5) c 5 1 (src_peer c 5) (by decide)
theorem payload_bar_peer6 (m : (ℓ : Loc nD τ sig) → Buf (Elt F) ℓ) (c : Dev nD) : (sched (F := F) m).payload (barCell (peer c 6)) 0 (6 : Hop) = iprop((∃ f, ((recvSlot 0 : Memref sig .tc .vmem S512x256 .bf16).view.loc (c : Thread nD τ) ↦[(recvSlot 0 : Memref sig .tc .vmem S512x256 .bf16).view.set]{fullShare} f)) ∗ reached ER (recvCell c 0) 0) := by
  rw [payload_bar]; exact barPay_at (peer c 6) c 6 0 (src_peer c 6) (by decide)
theorem payload_bar_own0 (m : (ℓ : Loc nD τ sig) → Buf (Elt F) ℓ) (c : Dev nD) : (sched (F := F) m).payload (barCell c) 0 (0 : Hop) = iprop((∃ f, ((recvSlot 6 : Memref sig .tc .vmem S512x256 .bf16).view.loc (peer c 6 : Thread nD τ) ↦[(recvSlot 6 : Memref sig .tc .vmem S512x256 .bf16).view.set]{fullShare} f)) ∗ reached ER (recvCell (peer c 6) 6) 0) := by
  rw [payload_bar]; exact barPay_at c (peer c 6) 0 6 (by revert c; decide) (by decide)
theorem payload_bar_own1 (m : (ℓ : Loc nD τ sig) → Buf (Elt F) ℓ) (c : Dev nD) : (sched (F := F) m).payload (barCell c) 0 (1 : Hop) = iprop((∃ f, ((recvSlot 5 : Memref sig .tc .vmem S512x256 .bf16).view.loc (peer c 5 : Thread nD τ) ↦[(recvSlot 5 : Memref sig .tc .vmem S512x256 .bf16).view.set]{fullShare} f)) ∗ reached ER (recvCell (peer c 5) 5) 0) := by
  rw [payload_bar]; exact barPay_at c (peer c 5) 1 5 (by revert c; decide) (by decide)
theorem payload_bar_own2 (m : (ℓ : Loc nD τ sig) → Buf (Elt F) ℓ) (c : Dev nD) : (sched (F := F) m).payload (barCell c) 0 (2 : Hop) = iprop((∃ f, ((recvSlot 4 : Memref sig .tc .vmem S512x256 .bf16).view.loc (peer c 4 : Thread nD τ) ↦[(recvSlot 4 : Memref sig .tc .vmem S512x256 .bf16).view.set]{fullShare} f)) ∗ reached ER (recvCell (peer c 4) 4) 0) := by
  rw [payload_bar]; exact barPay_at c (peer c 4) 2 4 (by revert c; decide) (by decide)
theorem payload_bar_own3 (m : (ℓ : Loc nD τ sig) → Buf (Elt F) ℓ) (c : Dev nD) : (sched (F := F) m).payload (barCell c) 0 (3 : Hop) = iprop((∃ f, ((recvSlot 3 : Memref sig .tc .vmem S512x256 .bf16).view.loc (peer c 3 : Thread nD τ) ↦[(recvSlot 3 : Memref sig .tc .vmem S512x256 .bf16).view.set]{fullShare} f)) ∗ reached ER (recvCell (peer c 3) 3) 0) := by
  rw [payload_bar]; exact barPay_at c (peer c 3) 3 3 (by revert c; decide) (by decide)
theorem payload_bar_own4 (m : (ℓ : Loc nD τ sig) → Buf (Elt F) ℓ) (c : Dev nD) : (sched (F := F) m).payload (barCell c) 0 (4 : Hop) = iprop((∃ f, ((recvSlot 2 : Memref sig .tc .vmem S512x256 .bf16).view.loc (peer c 2 : Thread nD τ) ↦[(recvSlot 2 : Memref sig .tc .vmem S512x256 .bf16).view.set]{fullShare} f)) ∗ reached ER (recvCell (peer c 2) 2) 0) := by
  rw [payload_bar]; exact barPay_at c (peer c 2) 4 2 (by revert c; decide) (by decide)
theorem payload_bar_own5 (m : (ℓ : Loc nD τ sig) → Buf (Elt F) ℓ) (c : Dev nD) : (sched (F := F) m).payload (barCell c) 0 (5 : Hop) = iprop((∃ f, ((recvSlot 1 : Memref sig .tc .vmem S512x256 .bf16).view.loc (peer c 1 : Thread nD τ) ↦[(recvSlot 1 : Memref sig .tc .vmem S512x256 .bf16).view.set]{fullShare} f)) ∗ reached ER (recvCell (peer c 1) 1) 0) := by
  rw [payload_bar]; exact barPay_at c (peer c 1) 5 1 (by revert c; decide) (by decide)
theorem payload_bar_own6 (m : (ℓ : Loc nD τ sig) → Buf (Elt F) ℓ) (c : Dev nD) : (sched (F := F) m).payload (barCell c) 0 (6 : Hop) = iprop((∃ f, ((recvSlot 0 : Memref sig .tc .vmem S512x256 .bf16).view.loc (peer c 0 : Thread nD τ) ↦[(recvSlot 0 : Memref sig .tc .vmem S512x256 .bf16).view.set]{fullShare} f)) ∗ reached ER (recvCell (peer c 0) 0) 0) := by
  rw [payload_bar]; exact barPay_at c (peer c 0) 6 0 (by revert c; decide) (by decide)

/-! ## A seven-slot buffer held whole is its seven slots held apart -/

/-- Slots of different hops share no element: they differ in the leading coordinate. -/
theorem slotRect_disjoint (h h' : Hop) (hne : h ≠ h') : Disjoint (slotRect h).set (slotRect h').set := by
  refine Rect.unit_disjoint (s := S7x512x256) (0 : Fin 3) ?_
  show h.val + 1 ≤ h'.val ∨ h'.val + 1 ≤ h.val
  have := Fin.val_ne_of_ne hne; omega

/-- Every element lies in the slot named by its leading coordinate. -/
theorem mem_slotRect_self (i : S7x512x256.Idx) : i ∈ (slotRect (show Hop from i 0)).set := by
  rw [Rect.mem_set_unit]
  have h1 : (i 1).val < 512 := (i 1).isLt
  have h2 : (i 2).val < 256 := (i 2).isLt
  intro a
  fin_cases a
  · show (i 0).val ≤ (i 0).val ∧ (i 0).val < (i 0).val + 1; omega
  · show 0 ≤ (i 1).val ∧ (i 1).val < 0 + 512; omega
  · show 0 ≤ (i 2).val ∧ (i 2).val < 0 + 256; omega

theorem recvSlot_set (h : Hop) : (recvSlot h : Memref sig .tc .vmem S512x256 .bf16).view.set = (slotRect h).set := by
  simp only [Memref.view_squeeze, Memref.view_slice, Memref.view_whole, View.set_reshape, View.set_slice_whole]

theorem recvSlot_disjoint (h h' : Hop) (hne : h ≠ h') :
    Disjoint (recvSlot h : Memref sig .tc .vmem S512x256 .bf16).view.set (recvSlot h' : Memref sig .tc .vmem S512x256 .bf16).view.set := by
  rw [recvSlot_set, recvSlot_set]; exact slotRect_disjoint h h' hne

/-- The whole buffer's elements are those of its seven slots together. -/
theorem recv_cover : (recvM : Memref sig .tc .vmem S7x512x256 .bf16).view.set
    = (Finset.univ : Finset Hop).biUnion (fun h => (recvSlot h : Memref sig .tc .vmem S512x256 .bf16).view.set) := by
  refine (View.set_whole _).trans ?_
  ext i
  simp only [Finset.mem_univ, Finset.mem_biUnion, true_and, true_iff]
  exact ⟨(show Hop from i 0), by rw [recvSlot_set]; exact mem_slotRect_self i⟩

theorem recv_split (c : Dev nD) (f : Buf (Elt F) ((recvM : Memref sig .tc .vmem S7x512x256 .bf16).view.loc (c : Thread nD τ))) :
    held c recvM f ⊢ iprop(((recvSlot 0 : Memref sig .tc .vmem S512x256 .bf16).view.loc (c : Thread nD τ) ↦[(recvSlot 0 : Memref sig .tc .vmem S512x256 .bf16).view.set]{fullShare} f) ∗ ((recvSlot 1 : Memref sig .tc .vmem S512x256 .bf16).view.loc (c : Thread nD τ) ↦[(recvSlot 1 : Memref sig .tc .vmem S512x256 .bf16).view.set]{fullShare} f) ∗ ((recvSlot 2 : Memref sig .tc .vmem S512x256 .bf16).view.loc (c : Thread nD τ) ↦[(recvSlot 2 : Memref sig .tc .vmem S512x256 .bf16).view.set]{fullShare} f) ∗ ((recvSlot 3 : Memref sig .tc .vmem S512x256 .bf16).view.loc (c : Thread nD τ) ↦[(recvSlot 3 : Memref sig .tc .vmem S512x256 .bf16).view.set]{fullShare} f) ∗ ((recvSlot 4 : Memref sig .tc .vmem S512x256 .bf16).view.loc (c : Thread nD τ) ↦[(recvSlot 4 : Memref sig .tc .vmem S512x256 .bf16).view.set]{fullShare} f) ∗ ((recvSlot 5 : Memref sig .tc .vmem S512x256 .bf16).view.loc (c : Thread nD τ) ↦[(recvSlot 5 : Memref sig .tc .vmem S512x256 .bf16).view.set]{fullShare} f) ∗ ((recvSlot 6 : Memref sig .tc .vmem S512x256 .bf16).view.loc (c : Thread nD τ) ↦[(recvSlot 6 : Memref sig .tc .vmem S512x256 .bf16).view.set]{fullShare} f)) := by
  show (((recvM : Memref sig .tc .vmem S7x512x256 .bf16).view.loc (c : Thread nD τ) ↦[(recvM : Memref sig .tc .vmem S7x512x256 .bf16).view.set]{fullShare} f : sProp 𝕄)) ⊢ _
  rw [recv_cover, pointsTo_biUnion _ _ (fun t _ t' _ hne => recvSlot_disjoint t t' hne), bigSep_hop]

theorem recv_join (c : Dev nD) (f0 : Buf (Elt F) ((recvM : Memref sig .tc .vmem S7x512x256 .bf16).view.loc (c : Thread nD τ))) (f1 : Buf (Elt F) ((recvM : Memref sig .tc .vmem S7x512x256 .bf16).view.loc (c : Thread nD τ))) (f2 : Buf (Elt F) ((recvM : Memref sig .tc .vmem S7x512x256 .bf16).view.loc (c : Thread nD τ))) (f3 : Buf (Elt F) ((recvM : Memref sig .tc .vmem S7x512x256 .bf16).view.loc (c : Thread nD τ))) (f4 : Buf (Elt F) ((recvM : Memref sig .tc .vmem S7x512x256 .bf16).view.loc (c : Thread nD τ))) (f5 : Buf (Elt F) ((recvM : Memref sig .tc .vmem S7x512x256 .bf16).view.loc (c : Thread nD τ))) (f6 : Buf (Elt F) ((recvM : Memref sig .tc .vmem S7x512x256 .bf16).view.loc (c : Thread nD τ))) :
    iprop(((recvSlot 0 : Memref sig .tc .vmem S512x256 .bf16).view.loc (c : Thread nD τ) ↦[(recvSlot 0 : Memref sig .tc .vmem S512x256 .bf16).view.set]{fullShare} f0) ∗ ((recvSlot 1 : Memref sig .tc .vmem S512x256 .bf16).view.loc (c : Thread nD τ) ↦[(recvSlot 1 : Memref sig .tc .vmem S512x256 .bf16).view.set]{fullShare} f1) ∗ ((recvSlot 2 : Memref sig .tc .vmem S512x256 .bf16).view.loc (c : Thread nD τ) ↦[(recvSlot 2 : Memref sig .tc .vmem S512x256 .bf16).view.set]{fullShare} f2) ∗ ((recvSlot 3 : Memref sig .tc .vmem S512x256 .bf16).view.loc (c : Thread nD τ) ↦[(recvSlot 3 : Memref sig .tc .vmem S512x256 .bf16).view.set]{fullShare} f3) ∗ ((recvSlot 4 : Memref sig .tc .vmem S512x256 .bf16).view.loc (c : Thread nD τ) ↦[(recvSlot 4 : Memref sig .tc .vmem S512x256 .bf16).view.set]{fullShare} f4) ∗ ((recvSlot 5 : Memref sig .tc .vmem S512x256 .bf16).view.loc (c : Thread nD τ) ↦[(recvSlot 5 : Memref sig .tc .vmem S512x256 .bf16).view.set]{fullShare} f5) ∗ ((recvSlot 6 : Memref sig .tc .vmem S512x256 .bf16).view.loc (c : Thread nD τ) ↦[(recvSlot 6 : Memref sig .tc .vmem S512x256 .bf16).view.set]{fullShare} f6)) ⊢ iprop(∃ f, held c recvM f) := by
  refine (Entails.of_eq (bigSep_hop (F := F) (fun h : Hop => ((recvM : Memref sig .tc .vmem S7x512x256 .bf16).view.loc (c : Thread nD τ) ↦[(recvSlot h : Memref sig .tc .vmem S512x256 .bf16).view.set]{fullShare} (![f0, f1, f2, f3, f4, f5, f6] h)))).symm).trans ?_
  refine (pointsTo_biUnion_join _ _ _ f0 (fun t _ t' _ hne => recvSlot_disjoint t t' hne)).trans ?_
  rw [← recv_cover]
  iintro ⟨%g, -, H⟩
  iexists g
  iexact H

theorem commSlot_set (h : Hop) : (commSlot h : Memref sig .tc .vmem S512x256 .bf16).view.set = (slotRect h).set := by
  simp only [Memref.view_squeeze, Memref.view_slice, Memref.view_whole, View.set_reshape, View.set_slice_whole]

theorem commSlot_disjoint (h h' : Hop) (hne : h ≠ h') :
    Disjoint (commSlot h : Memref sig .tc .vmem S512x256 .bf16).view.set (commSlot h' : Memref sig .tc .vmem S512x256 .bf16).view.set := by
  rw [commSlot_set, commSlot_set]; exact slotRect_disjoint h h' hne

/-- The whole buffer's elements are those of its seven slots together. -/
theorem comm_cover : (commM : Memref sig .tc .vmem S7x512x256 .bf16).view.set
    = (Finset.univ : Finset Hop).biUnion (fun h => (commSlot h : Memref sig .tc .vmem S512x256 .bf16).view.set) := by
  refine (View.set_whole _).trans ?_
  ext i
  simp only [Finset.mem_univ, Finset.mem_biUnion, true_and, true_iff]
  exact ⟨(show Hop from i 0), by rw [commSlot_set]; exact mem_slotRect_self i⟩

theorem comm_split (c : Dev nD) (f : Buf (Elt F) ((commM : Memref sig .tc .vmem S7x512x256 .bf16).view.loc (c : Thread nD τ))) :
    held c commM f ⊢ iprop(((commSlot 0 : Memref sig .tc .vmem S512x256 .bf16).view.loc (c : Thread nD τ) ↦[(commSlot 0 : Memref sig .tc .vmem S512x256 .bf16).view.set]{fullShare} f) ∗ ((commSlot 1 : Memref sig .tc .vmem S512x256 .bf16).view.loc (c : Thread nD τ) ↦[(commSlot 1 : Memref sig .tc .vmem S512x256 .bf16).view.set]{fullShare} f) ∗ ((commSlot 2 : Memref sig .tc .vmem S512x256 .bf16).view.loc (c : Thread nD τ) ↦[(commSlot 2 : Memref sig .tc .vmem S512x256 .bf16).view.set]{fullShare} f) ∗ ((commSlot 3 : Memref sig .tc .vmem S512x256 .bf16).view.loc (c : Thread nD τ) ↦[(commSlot 3 : Memref sig .tc .vmem S512x256 .bf16).view.set]{fullShare} f) ∗ ((commSlot 4 : Memref sig .tc .vmem S512x256 .bf16).view.loc (c : Thread nD τ) ↦[(commSlot 4 : Memref sig .tc .vmem S512x256 .bf16).view.set]{fullShare} f) ∗ ((commSlot 5 : Memref sig .tc .vmem S512x256 .bf16).view.loc (c : Thread nD τ) ↦[(commSlot 5 : Memref sig .tc .vmem S512x256 .bf16).view.set]{fullShare} f) ∗ ((commSlot 6 : Memref sig .tc .vmem S512x256 .bf16).view.loc (c : Thread nD τ) ↦[(commSlot 6 : Memref sig .tc .vmem S512x256 .bf16).view.set]{fullShare} f)) := by
  show (((commM : Memref sig .tc .vmem S7x512x256 .bf16).view.loc (c : Thread nD τ) ↦[(commM : Memref sig .tc .vmem S7x512x256 .bf16).view.set]{fullShare} f : sProp 𝕄)) ⊢ _
  rw [comm_cover, pointsTo_biUnion _ _ (fun t _ t' _ hne => commSlot_disjoint t t' hne), bigSep_hop]

theorem comm_join (c : Dev nD) (f0 : Buf (Elt F) ((commM : Memref sig .tc .vmem S7x512x256 .bf16).view.loc (c : Thread nD τ))) (f1 : Buf (Elt F) ((commM : Memref sig .tc .vmem S7x512x256 .bf16).view.loc (c : Thread nD τ))) (f2 : Buf (Elt F) ((commM : Memref sig .tc .vmem S7x512x256 .bf16).view.loc (c : Thread nD τ))) (f3 : Buf (Elt F) ((commM : Memref sig .tc .vmem S7x512x256 .bf16).view.loc (c : Thread nD τ))) (f4 : Buf (Elt F) ((commM : Memref sig .tc .vmem S7x512x256 .bf16).view.loc (c : Thread nD τ))) (f5 : Buf (Elt F) ((commM : Memref sig .tc .vmem S7x512x256 .bf16).view.loc (c : Thread nD τ))) (f6 : Buf (Elt F) ((commM : Memref sig .tc .vmem S7x512x256 .bf16).view.loc (c : Thread nD τ))) :
    iprop(((commSlot 0 : Memref sig .tc .vmem S512x256 .bf16).view.loc (c : Thread nD τ) ↦[(commSlot 0 : Memref sig .tc .vmem S512x256 .bf16).view.set]{fullShare} f0) ∗ ((commSlot 1 : Memref sig .tc .vmem S512x256 .bf16).view.loc (c : Thread nD τ) ↦[(commSlot 1 : Memref sig .tc .vmem S512x256 .bf16).view.set]{fullShare} f1) ∗ ((commSlot 2 : Memref sig .tc .vmem S512x256 .bf16).view.loc (c : Thread nD τ) ↦[(commSlot 2 : Memref sig .tc .vmem S512x256 .bf16).view.set]{fullShare} f2) ∗ ((commSlot 3 : Memref sig .tc .vmem S512x256 .bf16).view.loc (c : Thread nD τ) ↦[(commSlot 3 : Memref sig .tc .vmem S512x256 .bf16).view.set]{fullShare} f3) ∗ ((commSlot 4 : Memref sig .tc .vmem S512x256 .bf16).view.loc (c : Thread nD τ) ↦[(commSlot 4 : Memref sig .tc .vmem S512x256 .bf16).view.set]{fullShare} f4) ∗ ((commSlot 5 : Memref sig .tc .vmem S512x256 .bf16).view.loc (c : Thread nD τ) ↦[(commSlot 5 : Memref sig .tc .vmem S512x256 .bf16).view.set]{fullShare} f5) ∗ ((commSlot 6 : Memref sig .tc .vmem S512x256 .bf16).view.loc (c : Thread nD τ) ↦[(commSlot 6 : Memref sig .tc .vmem S512x256 .bf16).view.set]{fullShare} f6)) ⊢ iprop(∃ f, held c commM f) := by
  refine (Entails.of_eq (bigSep_hop (F := F) (fun h : Hop => ((commM : Memref sig .tc .vmem S7x512x256 .bf16).view.loc (c : Thread nD τ) ↦[(commSlot h : Memref sig .tc .vmem S512x256 .bf16).view.set]{fullShare} (![f0, f1, f2, f3, f4, f5, f6] h)))).symm).trans ?_
  refine (pointsTo_biUnion_join _ _ _ f0 (fun t _ t' _ hne => commSlot_disjoint t t' hne)).trans ?_
  rw [← comm_cover]
  iintro ⟨%g, -, H⟩
  iexists g
  iexact H

/-- info: 'Cert.KernelIdeal.A2A.payload_bar_peer0' depends on axioms: [propext, Classical.choice, Quot.sound] -/
#guard_msgs in #print axioms payload_bar_peer0
/-- info: 'Cert.KernelIdeal.A2A.payload_bar_own6' depends on axioms: [propext, Classical.choice, Quot.sound] -/
#guard_msgs in #print axioms payload_bar_own6
/-- info: 'Cert.KernelIdeal.A2A.recv_split' depends on axioms: [propext, Classical.choice, Quot.sound] -/
#guard_msgs in #print axioms recv_split
/-- info: 'Cert.KernelIdeal.A2A.recv_join' depends on axioms: [propext, Classical.choice, Quot.sound] -/
#guard_msgs in #print axioms recv_join
/-- info: 'Cert.KernelIdeal.A2A.comm_split' depends on axioms: [propext, Classical.choice, Quot.sound] -/
#guard_msgs in #print axioms comm_split
/-- info: 'Cert.KernelIdeal.A2A.comm_join' depends on axioms: [propext, Classical.choice, Quot.sound] -/
#guard_msgs in #print axioms comm_join

end Cert.KernelIdeal.A2A

end
-- ==== Proof.Windows.lean ====
import proofs.«900533_g7700000000000534_dist_gemm_a2a_m4096_k4096_n2048_f32_relu_v7x_i8_1_alg».proof.Proof.Proto

set_option maxRecDepth 16384

noncomputable section

namespace Cert.KernelIdeal.A2A

open Cert.KernelIdeal Cert.KernelIdeal.Gen
open Idealize.ShloMosaic Idealize.ShloMosaic.TcCoe

/-! ## The column windows of w -/

/-- The elements under the column window of step j are those of its rectangle. -/
theorem wwin_set (c : Dev nD) (j : Fin 8) :
    ((Memref.whole main_arg1 : Memref sig .tc .hbm S4096x2048 .f32).slice (Rect.unit (s := S4096x2048) (k0_off1 c (BitVec.ofNat 32 (1 + j.val))) S4096x256.size (k0_off1_inb c j)) (fun _ => rfl)).view.set = (Rect.unit (s := S4096x2048) (k0_off1 c (BitVec.ofNat 32 (1 + j.val))) S4096x256.size (k0_off1_inb c j)).set := by
  simp only [Memref.view_slice, Memref.view_whole, View.set_slice_whole]

/-- The window of step j is columns 256 ((c + j + 1) % 8) and the 255 after: two different steps give different
    residues modulo 8, so their windows are apart along the columns. -/
theorem wwin_disjoint (c : Dev nD) (i j : Fin 8) (hij : i ≠ j) :
    Disjoint ((Memref.whole main_arg1 : Memref sig .tc .hbm S4096x2048 .f32).slice (Rect.unit (s := S4096x2048) (k0_off1 c (BitVec.ofNat 32 (1 + j.val))) S4096x256.size (k0_off1_inb c j)) (fun _ => rfl)).view.set
      ((Memref.whole main_arg1 : Memref sig .tc .hbm S4096x2048 .f32).slice (Rect.unit (s := S4096x2048) (k0_off1 c (BitVec.ofNat 32 (1 + i.val))) S4096x256.size (k0_off1_inb c i)) (fun _ => rfl)).view.set := by
  rw [wwin_set, wwin_set]
  refine Rect.unit_disjoint (s := S4096x2048) (1 : Fin 2) ?_
  rw [k0_off1_eq c j, k0_off1_eq c i]
  show 256 * ((c.val + j.val + 1) % 8) + 256 ≤ 256 * ((c.val + i.val + 1) % 8) ∨ 256 * ((c.val + i.val + 1) % 8) + 256 ≤ 256 * ((c.val + j.val + 1) % 8)
  have hc : c.val < 8 := c.isLt
  have hi := i.isLt
  have hj := j.isLt
  have hne := Fin.val_ne_of_ne hij
  omega

/-- info: 'Cert.KernelIdeal.A2A.wwin_disjoint' depends on axioms: [propext, Classical.choice, Quot.sound] -/
#guard_msgs in #print axioms wwin_disjoint

/-! ## The row windows of the result -/

/-- The elements under the row window of step r, and under the device's own row window, are those of their rectangles. -/
theorem owin_set (c : Dev nD) (r : Fin 7) :
    ((Memref.whole main_v1 : Memref sig .tc .hbm S4096x256 .f32).slice (Rect.unit (s := S4096x256) (k0_off3 c (BitVec.ofNat 32 (1 + r.val))) S512x256.size (k0_off3_inb c r)) (fun _ => rfl)).view.set = (Rect.unit (s := S4096x256) (k0_off3 c (BitVec.ofNat 32 (1 + r.val))) S512x256.size (k0_off3_inb c r)).set := by
  simp only [Memref.view_slice, Memref.view_whole, View.set_slice_whole]
theorem oown_set (c : Dev nD) :
    ((Memref.whole main_v1 : Memref sig .tc .hbm S4096x256 .f32).slice (Rect.unit (s := S4096x256) (k0_off2 c) S512x256.size (k0_off2_inb c)) (fun _ => rfl)).view.set = (Rect.unit (s := S4096x256) (k0_off2 c) S512x256.size (k0_off2_inb c)).set := by
  simp only [Memref.view_slice, Memref.view_whole, View.set_slice_whole]

/-- The window of step r is rows 512 ((c + 7 - r) % 8) and the 511 after: different steps, different residues. -/
theorem owin_disjoint (c : Dev nD) (r r' : Fin 7) (h : r ≠ r') :
    Disjoint ((Memref.whole main_v1 : Memref sig .tc .hbm S4096x256 .f32).slice (Rect.unit (s := S4096x256) (k0_off3 c (BitVec.ofNat 32 (1 + r'.val))) S512x256.size (k0_off3_inb c r')) (fun _ => rfl)).view.set
      ((Memref.whole main_v1 : Memref sig .tc .hbm S4096x256 .f32).slice (Rect.unit (s := S4096x256) (k0_off3 c (BitVec.ofNat 32 (1 + r.val))) S512x256.size (k0_off3_inb c r)) (fun _ => rfl)).view.set := by
  rw [owin_set, owin_set]
  refine Rect.unit_disjoint (s := S4096x256) (0 : Fin 2) ?_
  rw [k0_off3_eq c r', k0_off3_eq c r]
  show 512 * ((c.val + 7 - r'.val) % 8) + 512 ≤ 512 * ((c.val + 7 - r.val) % 8) ∨ 512 * ((c.val + 7 - r.val) % 8) + 512 ≤ 512 * ((c.val + 7 - r'.val) % 8)
  have hc : c.val < 8 := c.isLt
  have hr := r.isLt
  have hr' := r'.isLt
  have hne := Fin.val_ne_of_ne h
  omega

/-- The device's own window is rows 512 c and the 511 after; (c + 7 - r) % 8 is never c for r below 7. -/
theorem owin_own_disjoint (c : Dev nD) (r : Fin 7) :
    Disjoint ((Memref.whole main_v1 : Memref sig .tc .hbm S4096x256 .f32).slice (Rect.unit (s := S4096x256) (k0_off3 c (BitVec.ofNat 32 (1 + r.val))) S512x256.size (k0_off3_inb c r)) (fun _ => rfl)).view.set
      ((Memref.whole main_v1 : Memref sig .tc .hbm S4096x256 .f32).slice (Rect.unit (s := S4096x256) (k0_off2 c) S512x256.size (k0_off2_inb c)) (fun _ => rfl)).view.set := by
  rw [owin_set, oown_set]
  refine Rect.unit_disjoint (s := S4096x256) (0 : Fin 2) ?_
  rw [k0_off3_eq c r, k0_off2_eq c]
  show 512 * ((c.val + 7 - r.val) % 8) + 512 ≤ 512 * c.val ∨ 512 * c.val + 512 ≤ 512 * ((c.val + 7 - r.val) % 8)
  have hc : c.val < 8 := c.isLt
  have hr := r.isLt
  omega
theorem own_owin_disjoint (c : Dev nD) (r : Fin 7) :
    Disjoint ((Memref.whole main_v1 : Memref sig .tc .hbm S4096x256 .f32).slice (Rect.unit (s := S4096x256) (k0_off2 c) S512x256.size (k0_off2_inb c)) (fun _ => rfl)).view.set
      ((Memref.whole main_v1 : Memref sig .tc .hbm S4096x256 .f32).slice (Rect.unit (s := S4096x256) (k0_off3 c (BitVec.ofNat 32 (1 + r.val))) S512x256.size (k0_off3_inb c r)) (fun _ => rfl)).view.set := (owin_own_disjoint c r).symm

/-- Every element of the result lies in the own window or in the window of some step: row block s = row / 512 is
    the own block when s = c, and otherwise the block of step (c + 7 - s) % 8, which is below 7. -/
theorem owin_mem (c : Dev nD) (i : S4096x256.Idx) :
    i ∈ ((Memref.whole main_v1 : Memref sig .tc .hbm S4096x256 .f32).slice (Rect.unit (s := S4096x256) (k0_off2 c) S512x256.size (k0_off2_inb c)) (fun _ => rfl)).view.set
      ∨ ∃ r : Fin 7, i ∈ ((Memref.whole main_v1 : Memref sig .tc .hbm S4096x256 .f32).slice (Rect.unit (s := S4096x256) (k0_off3 c (BitVec.ofNat 32 (1 + r.val))) S512x256.size (k0_off3_inb c r)) (fun _ => rfl)).view.set := by
  have hc : c.val < 8 := c.isLt
  have h0 : (i 0).val < 4096 := (i 0).isLt
  have h1 : (i 1).val < 256 := (i 1).isLt
  by_cases hs : (i 0).val / 512 = c.val
  · left
    rw [oown_set, Rect.mem_set_unit, k0_off2_eq c]
    intro a
    fin_cases a
    · show 512 * c.val ≤ (i 0).val ∧ (i 0).val < 512 * c.val + 512; omega
    · show 0 ≤ (i 1).val ∧ (i 1).val < 0 + 256; omega
  · right
    refine ⟨⟨(c.val + 7 - (i 0).val / 512) % 8, by omega⟩, ?_⟩
    rw [owin_set, Rect.mem_set_unit, k0_off3_eq c]
    intro a
    fin_cases a
    · show 512 * ((c.val + 7 - (c.val + 7 - (i 0).val / 512) % 8) % 8) ≤ (i 0).val
        ∧ (i 0).val < 512 * ((c.val + 7 - (c.val + 7 - (i 0).val / 512) % 8) % 8) + 512
      omega
    · show 0 ≤ (i 1).val ∧ (i 1).val < 0 + 256; omega

/-- The whole result is its own window together with the windows of the seven steps. -/
theorem owin_cover (c : Dev nD) :
    (Memref.whole main_v1 : Memref sig .tc .hbm S4096x256 .f32).view.set
      = ((Memref.whole main_v1 : Memref sig .tc .hbm S4096x256 .f32).slice (Rect.unit (s := S4096x256) (k0_off2 c) S512x256.size (k0_off2_inb c)) (fun _ => rfl)).view.set
        ∪ (Finset.univ : Finset (Fin 7)).biUnion (fun r => ((Memref.whole main_v1 : Memref sig .tc .hbm S4096x256 .f32).slice (Rect.unit (s := S4096x256) (k0_off3 c (BitVec.ofNat 32 (1 + r.val))) S512x256.size (k0_off3_inb c r)) (fun _ => rfl)).view.set) := by
  refine (View.set_whole _).trans ?_
  ext i
  simp only [Finset.mem_univ, Finset.mem_union, Finset.mem_biUnion, true_and, true_iff]
  exact owin_mem c i

/-- info: 'Cert.KernelIdeal.A2A.owin_disjoint' depends on axioms: [propext, Classical.choice, Quot.sound] -/
#guard_msgs in #print axioms owin_disjoint
/-- info: 'Cert.KernelIdeal.A2A.own_owin_disjoint' depends on axioms: [propext, Classical.choice, Quot.sound] -/
#guard_msgs in #print axioms own_owin_disjoint
/-- info: 'Cert.KernelIdeal.A2A.owin_cover' depends on axioms: [propext, Classical.choice, Quot.sound] -/
#guard_msgs in #print axioms owin_cover

end Cert.KernelIdeal.A2A

end
-- ==== Proof.SlotVals.lean ====
import proofs.«900533_g7700000000000534_dist_gemm_a2a_m4096_k4096_n2048_f32_relu_v7x_i8_1_alg».proof.Proof.Slots

set_option maxRecDepth 16384

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ UU ℕ

/-! ## Reading through a view what was written through a reshaping of it, and the other way round -/

section Generic
variable {sg : RefSig} {κ : Kind} {sp : Space} {s s' : Shape} {e : EltTy} {Val : EltTy → Type}

/-- A reshaped view reads at y what the view itself reads at the index matched with y. -/
theorem read_reshape_apply (V : View sg κ sp s e) (hn : s'.numel = s.numel) (g : V.ty.Contents Val) (y : s'.Idx) :
    (V.reshape s' hn).read Val g y = V.read Val g (Shape.reshapeEquiv hn y) := rfl

/-- Written whole through the reshaped view and read through the view: the payload, cast to the view's shape. -/
theorem read_write_reshape (V : View sg κ sp s e) (hn : s'.numel = s.numel) (f : V.ty.Contents Val) (w : s'.Idx → Val e)
    (hc : s'.ShapeCasts s) :
    V.read Val ((V.reshape s' hn).write Val f w Finset.univ) = shapeCast s w hc := by
  funext x
  have key := read_reshape_apply V hn ((V.reshape s' hn).write Val f w Finset.univ) ((Shape.reshapeEquiv hn).symm x)
  rw [Equiv.apply_symm_apply, View.read_write_univ] at key
  rw [← key, Shape.reshapeEquiv_symm]
  rfl

/-- Written whole through the view and read through the reshaped view: the payload, cast to the new shape. -/
theorem read_reshape_write (V : View sg κ sp s e) (hn : s'.numel = s.numel) (f : V.ty.Contents Val) (w : s.Idx → Val e)
    (hc : s.ShapeCasts s') :
    (V.reshape s' hn).read Val (V.write Val f w Finset.univ) = shapeCast s' w hc := by
  funext y
  rw [read_reshape_apply, View.read_write_univ]
  rfl

end Generic

/-! ## The receive buffer: the block that landed in slot h, as the kernel loads it -/

theorem recv_load_landed (m : (ℓ : Loc nD τ sig) → Buf (Elt F) ℓ) (d : Dev nD) (h : Hop) :
    (recvM : Memref sig .tc .vmem S7x512x256 .bf16).view.readAt (Elt F) (slotRect h).toLoadRect (landedV m d h)
      = shapeCast S1x512x256 (sentBlk m (src d h) h) shapeCasts_S512x256_S1x512x256 :=
  read_write_reshape (Val := Elt F) ((recvM : Memref sig .tc .vmem S7x512x256 .bf16).view.slice (slotRect h)) _ _ _ _

/-- Casting a vector to another shape and back gives it again. -/
theorem shapeCast_back {α : Type} {s t : Shape} (b : s.Idx → α) (h : s.ShapeCasts t) (h' : t.ShapeCasts s) :
    shapeCast s (shapeCast t b h) h' = b :=
  funext fun i => congrArg b (by
    show Shape.reshapeEquiv _ (Shape.reshapeEquiv _ i) = i
    rw [Shape.reshapeEquiv_reshapeEquiv, Shape.reshapeEquiv_self])

/-! ## The send buffer: a block stored into slot h, read back through the slot -/

theorem comm_store_read (c : Dev nD) (h : Hop) (f : Buf (Elt F) ((commM : Memref sig .tc .vmem S7x512x256 .bf16).view.loc (c : Thread nD τ)))
    (b : Vec F S512x256 .bf16) :
    (commSlot h : Memref sig .tc .vmem S512x256 .bf16).view.read (Elt F) (((commM : Memref sig .tc .vmem S7x512x256 .bf16).access (slotRect h) : View sig .tc .vmem S1x512x256 .bf16).write (Elt F) f (shapeCast S1x512x256 b shapeCasts_S512x256_S1x512x256) Finset.univ) = b :=
  (read_reshape_write (Val := Elt F) ((commM : Memref sig .tc .vmem S7x512x256 .bf16).view.slice (slotRect h)) _ f _ shapeCasts_S1x512x256_S512x256).trans
    (shapeCast_back b shapeCasts_S512x256_S1x512x256 shapeCasts_S1x512x256_S512x256)

/-! ## The staging buffer of eight f32 slots -/

theorem stage_inb (j : Fin 8) : ∀ a, (![j.val, 0, 0] : Fin 3 → Nat) a + S1x512x256.size a ≤ S8x512x256.size a := by
  revert j; decide
/-- Slot j of the staging buffer, as a rectangle of it. -/
abbrev stageRect (j : Fin 8) : Rect S8x512x256 := Rect.unit (s := S8x512x256) ![j.val, 0, 0] S1x512x256.size (stage_inb j)
/-- Slot j of the staging buffer as a 512 by 256 memref. -/
abbrev stageSlot (j : Fin 8) : Memref sig .tc .vmem S512x256 .f32 :=
  (stM.slice (stageRect j) (fun _ => rfl)).squeeze S512x256 squeezes_S1x512x256_S512x256

/-- A 1 by 512 by 256 vector stored at slot j, read back through the slot's 512 by 256 view. -/
theorem stage_store_read (c : Dev nD) (j : Fin 8) (f : Buf (Elt F) ((stM : Memref sig .tc .vmem S8x512x256 .f32).view.loc (c : Thread nD τ)))
    (v : Vec F S1x512x256 .f32) :
    (stageSlot j : Memref sig .tc .vmem S512x256 .f32).view.read (Elt F) (((stM : Memref sig .tc .vmem S8x512x256 .f32).access (stageRect j) : View sig .tc .vmem S1x512x256 .f32).write (Elt F) f v Finset.univ)
      = shapeCast S512x256 v shapeCasts_S1x512x256_S512x256 :=
  read_reshape_write (Val := Elt F) ((stM : Memref sig .tc .vmem S8x512x256 .f32).view.slice (stageRect j)) _ f v _

/-- A 512 by 256 block written whole through slot j's view, read as the 1 by 512 by 256 vector a load of that slot gives. -/
theorem stage_load_written (c : Dev nD) (j : Fin 8) (f : Buf (Elt F) ((stM : Memref sig .tc .vmem S8x512x256 .f32).view.loc (c : Thread nD τ)))
    (b : Vec F S512x256 .f32) :
    (stM : Memref sig .tc .vmem S8x512x256 .f32).view.readAt (Elt F) (stageRect j).toLoadRect ((stageSlot j : Memref sig .tc .vmem S512x256 .f32).view.write (Elt F) f b Finset.univ)
      = shapeCast S1x512x256 b shapeCasts_S512x256_S1x512x256 :=
  read_write_reshape (Val := Elt F) ((stM : Memref sig .tc .vmem S8x512x256 .f32).view.slice (stageRect j)) _ f b _

/-- info: 'Cert.KernelIdeal.A2A.recv_load_landed' depends on axioms: [propext, Classical.choice, Quot.sound] -/
#guard_msgs in #print axioms recv_load_landed
/-- info: 'Cert.KernelIdeal.A2A.comm_store_read' depends on axioms: [propext, Classical.choice, Quot.sound] -/
#guard_msgs in #print axioms comm_store_read
/-- info: 'Cert.KernelIdeal.A2A.stage_store_read' depends on axioms: [propext, Classical.choice, Quot.sound] -/
#guard_msgs in #print axioms stage_store_read
/-- info: 'Cert.KernelIdeal.A2A.stage_load_written' depends on axioms: [propext, Classical.choice, Quot.sound] -/
#guard_msgs in #print axioms stage_load_written

end Cert.KernelIdeal.A2A

end
-- ==== Proof.SlotLoad.lean ====
import proofs.«900533_g7700000000000534_dist_gemm_a2a_m4096_k4096_n2048_f32_relu_v7x_i8_1_alg».proof.Proof.SlotVals

set_option maxRecDepth 16384

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ UU ℕ

/-! ## Loading a receive slot held by exactly its own elements -/

/-- A load of slot h of the receive buffer, from the points-to of that slot alone: the program goes on at what is read. -/
theorem wp_load_recv (c : Dev nD) (h : Hop) {hl : (recvM : Memref sig .tc .vmem S7x512x256 .bf16).view.LoadsAt (slotRect h).toLoadRect} {α : Type} {Q : α → sProp 𝕄} {kk : (((slotRect h).toLoadRect).shape.Idx → Elt F .bf16) → Prog (TpuEff nD τ sig (Elt F) Λ₀ .tc) α} (f : Buf (Elt F) ((recvSlot h : Memref sig .tc .vmem S512x256 .bf16).view.loc (c : Thread nD τ))) :
    slotPts c h f ⊢ iprop((slotPts c h f -∗ wp frame (wpE (defs₀ (F := F)) 𝒱₀ (c : Thread nD τ) none) Set.univ (kk ((recvM : Memref sig .tc .vmem S7x512x256 .bf16).view.readAt (Elt F) (slotRect h).toLoadRect f)) Q) -∗ wp frame (wpE (defs₀ (F := F)) 𝒱₀ (c : Thread nD τ) none) Set.univ (.op (.load (recvM : Memref sig .tc .vmem S7x512x256 .bf16) (slotRect h).toLoadRect hl) kk) Q) := by
  unfold slotPts
  exact wp_load_rect 𝒱₀ (c : Thread nD τ) none Set.univ (m := (recvM : Memref sig .tc .vmem S7x512x256 .bf16)) (r := slotRect h)
    (by rw [recvSlot_set]; exact (View.set_slice_whole _ _).subset)

/-! The same at the literal hop 2, with the buffer and the rectangle written out. -/

example (c : Dev nD) {α : Type} {Q : α → sProp 𝕄}
    {kk : (((Rect.unit (s := S7x512x256) ![2, 0, 0] S1x512x256.size inb_S7x512x256_S1x512x256_2_0_0).toLoadRect).shape.Idx → Elt F .bf16) → Prog (TpuEff nD τ sig (Elt F) Λ₀ .tc) α}
    (f : Buf (Elt F) ((recvSlot 2 : Memref sig .tc .vmem S512x256 .bf16).view.loc (c : Thread nD τ))) :
    slotPts c 2 f ⊢ iprop((slotPts c 2 f -∗ wp frame (wpE (defs₀ (F := F)) 𝒱₀ (c : Thread nD τ) none) Set.univ (kk ((Memref.whole cc0_scratch3 : Memref sig .tc .vmem S7x512x256 .bf16).view.readAt (Elt F) (Rect.unit (s := S7x512x256) ![2, 0, 0] S1x512x256.size inb_S7x512x256_S1x512x256_2_0_0).toLoadRect f)) Q)
      -∗ wp frame (wpE (defs₀ (F := F)) 𝒱₀ (c : Thread nD τ) none) Set.univ (.op (.load (Memref.whole cc0_scratch3 : Memref sig .tc .vmem S7x512x256 .bf16) (Rect.unit (s := S7x512x256) ![2, 0, 0] S1x512x256.size inb_S7x512x256_S1x512x256_2_0_0).toLoadRect (View.loadsAt_vmem h_S1x512x256)) kk) Q) :=
  wp_load_recv c 2 f

/-! ## Loading and storing a send slot held by exactly its own elements -/

/-- A load of slot h of the send buffer, from the points-to of that slot alone. -/
theorem wp_load_comm (c : Dev nD) (h : Hop) {hl : (commM : Memref sig .tc .vmem S7x512x256 .bf16).view.LoadsAt (slotRect h).toLoadRect} {α : Type} {Q : α → sProp 𝕄} {kk : (((slotRect h).toLoadRect).shape.Idx → Elt F .bf16) → Prog (TpuEff nD τ sig (Elt F) Λ₀ .tc) α} (f : Buf (Elt F) ((commSlot h : Memref sig .tc .vmem S512x256 .bf16).view.loc (c : Thread nD τ))) :
    commPts c h f ⊢ iprop((commPts c h f -∗ wp frame (wpE (defs₀ (F := F)) 𝒱₀ (c : Thread nD τ) none) Set.univ (kk ((commM : Memref sig .tc .vmem S7x512x256 .bf16).view.readAt (Elt F) (slotRect h).toLoadRect f)) Q) -∗ wp frame (wpE (defs₀ (F := F)) 𝒱₀ (c : Thread nD τ) none) Set.univ (.op (.load (commM : Memref sig .tc .vmem S7x512x256 .bf16) (slotRect h).toLoadRect hl) kk) Q) := by
  unfold commPts
  exact wp_load_rect 𝒱₀ (c : Thread nD τ) none Set.univ (m := (commM : Memref sig .tc .vmem S7x512x256 .bf16)) (r := slotRect h)
    (by rw [commSlot_set]; exact (View.set_slice_whole _ _).subset)

/-- A store of a whole block into slot h of the send buffer, from the points-to of that slot alone: the slot then holds
    the old contents overwritten through the slot's rectangle. -/
theorem wp_store_comm (c : Dev nD) (h : Hop)
    {hs : ((commM : Memref sig .tc .vmem S7x512x256 .bf16).access (slotRect h)).Stores (Finset.univ : Finset (slotRect h).shape.Idx)}
    {hx : (Finset.univ : Finset (slotRect h).shape.Idx) = Finset.univ ∨ ∀ a, (slotRect h).stride a = 1}
    {α : Type} {Q : α → sProp 𝕄} {kk : PUnit → Prog (TpuEff nD τ sig (Elt F) Λ₀ .tc) α} (f : Buf (Elt F) ((commSlot h : Memref sig .tc .vmem S512x256 .bf16).view.loc (c : Thread nD τ))) (v : Vec F S1x512x256 .bf16) :
    commPts c h f ⊢ iprop((commPts c h (((commM : Memref sig .tc .vmem S7x512x256 .bf16).access (slotRect h) : View sig .tc .vmem S1x512x256 .bf16).write (Elt F) f v Finset.univ) -∗ wp frame (wpE (defs₀ (F := F)) 𝒱₀ (c : Thread nD τ) none) Set.univ (kk ⟨⟩) Q) -∗ wp frame (wpE (defs₀ (F := F)) 𝒱₀ (c : Thread nD τ) none) Set.univ (.op (.store (commM : Memref sig .tc .vmem S7x512x256 .bf16) (slotRect h) v Finset.univ hs hx) kk) Q) := by
  unfold commPts
  exact wp_store 𝒱₀ (c : Thread nD τ) none Set.univ (m := (commM : Memref sig .tc .vmem S7x512x256 .bf16)) (r := slotRect h) (Mk := Finset.univ)
    (by rw [commSlot_set]; exact (View.set_slice_whole _ _).subset)

/-! The same two at the literal hop 2, with the buffer and the rectangle written out. -/

example (c : Dev nD) {α : Type} {Q : α → sProp 𝕄}
    {kk : (((Rect.unit (s := S7x512x256) ![2, 0, 0] S1x512x256.size inb_S7x512x256_S1x512x256_2_0_0).toLoadRect).shape.Idx → Elt F .bf16) → Prog (TpuEff nD τ sig (Elt F) Λ₀ .tc) α}
    (f : Buf (Elt F) ((commSlot 2 : Memref sig .tc .vmem S512x256 .bf16).view.loc (c : Thread nD τ))) :
    commPts c 2 f ⊢ iprop((commPts c 2 f -∗ wp frame (wpE (defs₀ (F := F)) 𝒱₀ (c : Thread nD τ) none) Set.univ (kk ((Memref.whole cc0_scratch2 : Memref sig .tc .vmem S7x512x256 .bf16).view.readAt (Elt F) (Rect.unit (s := S7x512x256) ![2, 0, 0] S1x512x256.size inb_S7x512x256_S1x512x256_2_0_0).toLoadRect f)) Q)
      -∗ wp frame (wpE (defs₀ (F := F)) 𝒱₀ (c : Thread nD τ) none) Set.univ (.op (.load (Memref.whole cc0_scratch2 : Memref sig .tc .vmem S7x512x256 .bf16) (Rect.unit (s := S7x512x256) ![2, 0, 0] S1x512x256.size inb_S7x512x256_S1x512x256_2_0_0).toLoadRect (View.loadsAt_vmem h_S1x512x256)) kk) Q) :=
  wp_load_comm c 2 f

example (c : Dev nD) (harg5 : (Memref.whole cc0_scratch2 : Memref sig .tc .vmem S7x512x256 .bf16).IsWhole) {α : Type} {Q : α → sProp 𝕄}
    {kk : PUnit → Prog (TpuEff nD τ sig (Elt F) Λ₀ .tc) α}
    (f : Buf (Elt F) ((commSlot 2 : Memref sig .tc .vmem S512x256 .bf16).view.loc (c : Thread nD τ))) (v : Vec F S1x512x256 .bf16) :
    commPts c 2 f ⊢ iprop((commPts c 2 (((Memref.whole cc0_scratch2 : Memref sig .tc .vmem S7x512x256 .bf16).access (Rect.unit (s := S7x512x256) ![2, 0, 0] S1x512x256.size inb_S7x512x256_S1x512x256_2_0_0) : View sig .tc .vmem S1x512x256 .bf16).write (Elt F) f v Finset.univ) -∗ wp frame (wpE (defs₀ (F := F)) 𝒱₀ (c : Thread nD τ) none) Set.univ (kk ⟨⟩) Q)
      -∗ wp frame (wpE (defs₀ (F := F)) 𝒱₀ (c : Thread nD τ) none) Set.univ (.op (.store (Memref.whole cc0_scratch2 : Memref sig .tc .vmem S7x512x256 .bf16) (Rect.unit (s := S7x512x256) ![2, 0, 0] S1x512x256.size inb_S7x512x256_S1x512x256_2_0_0) v Finset.univ (View.stores_vmem h_S1x512x256 (harg5.storeExact_slice rfl _ packedbf16_S7x512x256_S1x512x256_2_0_0) (fun _ => rfl)) (.inl rfl)) kk) Q) :=
  wp_store_comm c 2 f v

/-- info: 'Cert.KernelIdeal.A2A.wp_load_recv' depends on axioms: [propext, Classical.choice, Quot.sound] -/
#guard_msgs in #print axioms wp_load_recv
/-- info: 'Cert.KernelIdeal.A2A.wp_load_comm' depends on axioms: [propext, Classical.choice, Quot.sound] -/
#guard_msgs in #print axioms wp_load_comm
/-- info: 'Cert.KernelIdeal.A2A.wp_store_comm' depends on axioms: [propext, Classical.choice, Quot.sound] -/
#guard_msgs in #print axioms wp_store_comm

end Cert.KernelIdeal.A2A

end
-- ==== Proof.Sems.lean ====
import proofs.«900533_g7700000000000534_dist_gemm_a2a_m4096_k4096_n2048_f32_relu_v7x_i8_1_alg».proof.Proof.Tables

set_option maxRecDepth 16384

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ UU ℕ

/-! ## The thirty transfer semaphores of a device: sixteen local, seven send, seven receive -/

theorem locSem_injective : Function.Injective locSem := by decide
theorem sendS_injective : Function.Injective sendS := by decide
theorem recvS_injective : Function.Injective recvS := by decide

/-- The semaphores of the local transfers, of the sends and of the receives, as sets. -/
def locSet : Finset (DmaSem sig) := Finset.univ.map ⟨locSem, locSem_injective⟩
def sendSet : Finset (DmaSem sig) := Finset.univ.map ⟨sendS, sendS_injective⟩
def recvSet : Finset (DmaSem sig) := Finset.univ.map ⟨recvS, recvS_injective⟩

/-- Numbers 0 to 7 and 22 to 29, 8 to 14, 15 to 21: together all thirty, and no number twice. -/
theorem dmaSems_split : (Finset.univ : Finset (DmaSem sig)) = locSet ∪ (sendSet ∪ recvSet) := by decide
theorem loc_disjoint : Disjoint locSet (sendSet ∪ recvSet) := by decide
theorem send_disjoint : Disjoint sendSet recvSet := by decide

/-- All thirty at zero is the sixteen local ones, the seven send ones and the seven receive ones at zero. -/
theorem allSems0_eq (c : Dev nD) : (allSems0 c : sProp 𝕄)
    = iprop(locSems0 c ∗ bigSep Finset.univ (fun h : Hop => (semVal (sendCell c h) 0 : sProp 𝕄)) ∗ bigSep Finset.univ (fun h : Hop => (semVal (recvCell c h) 0 : sProp 𝕄))) := by
  unfold allSems0 locSems0
  rw [dmaSems_split, bigSep_union loc_disjoint, bigSep_union send_disjoint]
  unfold locSet sendSet recvSet
  rw [bigSep_map, bigSep_map, bigSep_map]
  rfl

theorem allSems0_intro (c : Dev nD) : iprop(locSems0 c ∗ bigSep Finset.univ (fun h : Hop => (semVal (sendCell c h) 0 : sProp 𝕄)) ∗ bigSep Finset.univ (fun h : Hop => (semVal (recvCell c h) 0 : sProp 𝕄))) ⊢ (allSems0 c : sProp 𝕄) :=
  Entails.of_eq (allSems0_eq c).symm

/-- info: 'Cert.KernelIdeal.A2A.allSems0_intro' depends on axioms: [propext, Classical.choice, Quot.sound] -/
#guard_msgs in #print axioms allSems0_intro

end Cert.KernelIdeal.A2A

end
-- ==== Proof.Rejoin.lean ====
import proofs.«900533_g7700000000000534_dist_gemm_a2a_m4096_k4096_n2048_f32_relu_v7x_i8_1_alg».proof.Proof.Inv
import proofs.«900533_g7700000000000534_dist_gemm_a2a_m4096_k4096_n2048_f32_relu_v7x_i8_1_alg».proof.Proof.Windows

set_option maxRecDepth 16384

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ UU ℕ

/-! ## Putting a buffer back together from pieces carved out one after another -/

/-- Six pieces, each inside what the earlier ones left, and the rest, all at the same contents: the whole. -/
theorem rejoin6 {ℓ : Loc nD τ sig} {q : PosShare TreeShare} {S w1 w2 w3 w4 w5 w6 : Finset (Idx ℓ)} (f : Buf (Elt F) ℓ)
    (h1 : w1 ⊆ S) (h2 : w2 ⊆ S \ w1) (h3 : w3 ⊆ (S \ w1) \ w2) (h4 : w4 ⊆ ((S \ w1) \ w2) \ w3)
    (h5 : w5 ⊆ (((S \ w1) \ w2) \ w3) \ w4) (h6 : w6 ⊆ ((((S \ w1) \ w2) \ w3) \ w4) \ w5) :
    iprop((ℓ ↦[(((((S \ w1) \ w2) \ w3) \ w4) \ w5) \ w6]{q} f) ∗ (ℓ ↦[w1]{q} f) ∗ (ℓ ↦[w2]{q} f) ∗ (ℓ ↦[w3]{q} f) ∗ (ℓ ↦[w4]{q} f)
        ∗ (ℓ ↦[w5]{q} f) ∗ (ℓ ↦[w6]{q} f))
      ⊢ (ℓ ↦[S]{q} f : sProp 𝕄) := by
  iintro ⟨H, H1, H2, H3, H4, H5, H6⟩
  iapply (pointsTo_split_subset (q := q) (f := f) h1).2
  isplitl [H1]; · iexact H1
  iapply (pointsTo_split_subset (q := q) (f := f) h2).2
  isplitl [H2]; · iexact H2
  iapply (pointsTo_split_subset (q := q) (f := f) h3).2
  isplitl [H3]; · iexact H3
  iapply (pointsTo_split_subset (q := q) (f := f) h4).2
  isplitl [H4]; · iexact H4
  iapply (pointsTo_split_subset (q := q) (f := f) h5).2
  isplitl [H5]; · iexact H5
  iapply (pointsTo_split_subset (q := q) (f := f) h6).2
  isplitl [H6]; · iexact H6
  iexact H

/-! ## The argument w, whole again -/

/-- The column windows of steps 1 to 6 lie in w and are pairwise apart, so each lies in what the earlier ones left;
    with the rest, all at the contents f, they are w whole at f. -/
theorem w_rejoin (c : Dev nD) (f : Buf (Elt F) ((wM : Memref sig .tc .hbm S4096x2048 .f32).view.loc (c : Thread nD τ))) :
    iprop(((wM : Memref sig .tc .hbm S4096x2048 .f32).view.loc (c : Thread nD τ) ↦[(((((((wM : Memref sig .tc .hbm S4096x2048 .f32).view.set \ ((Memref.whole main_arg1 : Memref sig .tc .hbm S4096x2048 .f32).slice (Rect.unit (s := S4096x2048) (k0_off1 c 1#32) S4096x256.size (k0_off1_inb c 0)) (fun _ => rfl)).view.set) \ ((Memref.whole main_arg1 : Memref sig .tc .hbm S4096x2048 .f32).slice (Rect.unit (s := S4096x2048) (k0_off1 c 2#32) S4096x256.size (k0_off1_inb c 1)) (fun _ => rfl)).view.set) \ ((Memref.whole main_arg1 : Memref sig .tc .hbm S4096x2048 .f32).slice (Rect.unit (s := S4096x2048) (k0_off1 c 3#32) S4096x256.size (k0_off1_inb c 2)) (fun _ => rfl)).view.set) \ ((Memref.whole main_arg1 : Memref sig .tc .hbm S4096x2048 .f32).slice (Rect.unit (s := S4096x2048) (k0_off1 c 4#32) S4096x256.size (k0_off1_inb c 3)) (fun _ => rfl)).view.set) \ ((Memref.whole main_arg1 : Memref sig .tc .hbm S4096x2048 .f32).slice (Rect.unit (s := S4096x2048) (k0_off1 c 5#32) S4096x256.size (k0_off1_inb c 4)) (fun _ => rfl)).view.set) \ ((Memref.whole main_arg1 : Memref sig .tc .hbm S4096x2048 .f32).slice (Rect.unit (s := S4096x2048) (k0_off1 c 6#32) S4096x256.size (k0_off1_inb c 5)) (fun _ => rfl)).view.set)]{fullShare} f) ∗ ((wM : Memref sig .tc .hbm S4096x2048 .f32).view.loc (c : Thread nD τ) ↦[((Memref.whole main_arg1 : Memref sig .tc .hbm S4096x2048 .f32).slice (Rect.unit (s := S4096x2048) (k0_off1 c 1#32) S4096x256.size (k0_off1_inb c 0)) (fun _ => rfl)).view.set]{fullShare} f) ∗ ((wM : Memref sig .tc .hbm S4096x2048 .f32).view.loc (c : Thread nD τ) ↦[((Memref.whole main_arg1 : Memref sig .tc .hbm S4096x2048 .f32).slice (Rect.unit (s := S4096x2048) (k0_off1 c 2#32) S4096x256.size (k0_off1_inb c 1)) (fun _ => rfl)).view.set]{fullShare} f) ∗ ((wM : Memref sig .tc .hbm S4096x2048 .f32).view.loc (c : Thread nD τ) ↦[((Memref.whole main_arg1 : Memref sig .tc .hbm S4096x2048 .f32).slice (Rect.unit (s := S4096x2048) (k0_off1 c 3#32) S4096x256.size (k0_off1_inb c 2)) (fun _ => rfl)).view.set]{fullShare} f) ∗ ((wM : Memref sig .tc .hbm S4096x2048 .f32).view.loc (c : Thread nD τ) ↦[((Memref.whole main_arg1 : Memref sig .tc .hbm S4096x2048 .f32).slice (Rect.unit (s := S4096x2048) (k0_off1 c 4#32) S4096x256.size (k0_off1_inb c 3)) (fun _ => rfl)).view.set]{fullShare} f) ∗ ((wM : Memref sig .tc .hbm S4096x2048 .f32).view.loc (c : Thread nD τ) ↦[((Memref.whole main_arg1 : Memref sig .tc .hbm S4096x2048 .f32).slice (Rect.unit (s := S4096x2048) (k0_off1 c 5#32) S4096x256.size (k0_off1_inb c 4)) (fun _ => rfl)).view.set]{fullShare} f) ∗ ((wM : Memref sig .tc .hbm S4096x2048 .f32).view.loc (c : Thread nD τ) ↦[((Memref.whole main_arg1 : Memref sig .tc .hbm S4096x2048 .f32).slice (Rect.unit (s := S4096x2048) (k0_off1 c 6#32) S4096x256.size (k0_off1_inb c 5)) (fun _ => rfl)).view.set]{fullShare} f))
      ⊢ (held c wM f : sProp 𝕄) := by
  have hS : (wM : Memref sig .tc .hbm S4096x2048 .f32).view.set = Finset.univ := View.set_whole _
  have hsub : ∀ j : Fin 8, ((Memref.whole main_arg1 : Memref sig .tc .hbm S4096x2048 .f32).slice (Rect.unit (s := S4096x2048) (k0_off1 c (BitVec.ofNat 32 (1 + j.val))) S4096x256.size (k0_off1_inb c j)) (fun _ => rfl)).view.set
      ⊆ (wM : Memref sig .tc .hbm S4096x2048 .f32).view.set := fun j => by
    rw [hS]; exact Finset.subset_univ _
  exact rejoin6 f (hsub 0)
    ((Finset.subset_sdiff.mpr ⟨hsub 1, wwin_disjoint c 0 1 (by decide)⟩))
    ((Finset.subset_sdiff.mpr ⟨(Finset.subset_sdiff.mpr ⟨hsub 2, wwin_disjoint c 0 2 (by decide)⟩), wwin_disjoint c 1 2 (by decide)⟩))
    ((Finset.subset_sdiff.mpr ⟨(Finset.subset_sdiff.mpr ⟨(Finset.subset_sdiff.mpr ⟨hsub 3, wwin_disjoint c 0 3 (by decide)⟩), wwin_disjoint c 1 3 (by decide)⟩), wwin_disjoint c 2 3 (by decide)⟩))
    ((Finset.subset_sdiff.mpr ⟨(Finset.subset_sdiff.mpr ⟨(Finset.subset_sdiff.mpr ⟨(Finset.subset_sdiff.mpr ⟨hsub 4, wwin_disjoint c 0 4 (by decide)⟩), wwin_disjoint c 1 4 (by decide)⟩), wwin_disjoint c 2 4 (by decide)⟩), wwin_disjoint c 3 4 (by decide)⟩))
    ((Finset.subset_sdiff.mpr ⟨(Finset.subset_sdiff.mpr ⟨(Finset.subset_sdiff.mpr ⟨(Finset.subset_sdiff.mpr ⟨(Finset.subset_sdiff.mpr ⟨hsub 5, wwin_disjoint c 0 5 (by decide)⟩), wwin_disjoint c 1 5 (by decide)⟩), wwin_disjoint c 2 5 (by decide)⟩), wwin_disjoint c 3 5 (by decide)⟩), wwin_disjoint c 4 5 (by decide)⟩))

/-- info: 'Cert.KernelIdeal.A2A.w_rejoin' depends on axioms: [propext, Classical.choice, Quot.sound] -/
#guard_msgs in #print axioms w_rejoin

/-- The same with each piece at contents of its own that agree, where the piece is held, with one contents G. -/
theorem rejoin6_congr {ℓ : Loc nD τ sig} {q : PosShare TreeShare} {S w1 w2 w3 w4 w5 w6 : Finset (Idx ℓ)} (G f0 f1 f2 f3 f4 f5 f6 : Buf (Elt F) ℓ)
    (h1 : w1 ⊆ S) (h2 : w2 ⊆ S \ w1) (h3 : w3 ⊆ (S \ w1) \ w2) (h4 : w4 ⊆ ((S \ w1) \ w2) \ w3)
    (h5 : w5 ⊆ (((S \ w1) \ w2) \ w3) \ w4) (h6 : w6 ⊆ ((((S \ w1) \ w2) \ w3) \ w4) \ w5)
    (e0 : ∀ i ∈ (((((S \ w1) \ w2) \ w3) \ w4) \ w5) \ w6, f0 i = G i) (e1 : ∀ i ∈ w1, f1 i = G i) (e2 : ∀ i ∈ w2, f2 i = G i)
    (e3 : ∀ i ∈ w3, f3 i = G i) (e4 : ∀ i ∈ w4, f4 i = G i) (e5 : ∀ i ∈ w5, f5 i = G i) (e6 : ∀ i ∈ w6, f6 i = G i) :
    iprop((ℓ ↦[(((((S \ w1) \ w2) \ w3) \ w4) \ w5) \ w6]{q} f0) ∗ (ℓ ↦[w1]{q} f1) ∗ (ℓ ↦[w2]{q} f2) ∗ (ℓ ↦[w3]{q} f3) ∗ (ℓ ↦[w4]{q} f4)
        ∗ (ℓ ↦[w5]{q} f5) ∗ (ℓ ↦[w6]{q} f6))
      ⊢ (ℓ ↦[S]{q} G : sProp 𝕄) := by
  rw [pointsTo_congr e0, pointsTo_congr e1, pointsTo_congr e2, pointsTo_congr e3, pointsTo_congr e4, pointsTo_congr e5, pointsTo_congr e6]
  exact rejoin6 G h1 h2 h3 h4 h5 h6

/-! ## The result, whole -/

/-- The device's own row window and the row windows of steps 1 to 5 lie in the result and are pairwise apart; pieces
    that each agree with G where they are held are the result whole at G. -/
theorem out_rejoin (c : Dev nD) (G f7 f0 f1 f2 f3 f4 f5 : Buf (Elt F) ((oM : Memref sig .tc .hbm S4096x256 .f32).view.loc (c : Thread nD τ)))
    (h7 : ∀ i ∈ (((((((oM : Memref sig .tc .hbm S4096x256 .f32).view.set \ ((Memref.whole main_v1 : Memref sig .tc .hbm S4096x256 .f32).slice (Rect.unit (s := S4096x256) (k0_off2 c) S512x256.size (k0_off2_inb c)) (fun _ => rfl)).view.set) \ ((Memref.whole main_v1 : Memref sig .tc .hbm S4096x256 .f32).slice (Rect.unit (s := S4096x256) (k0_off3 c 1#32) S512x256.size (k0_off3_inb c 0)) (fun _ => rfl)).view.set) \ ((Memref.whole main_v1 : Memref sig .tc .hbm S4096x256 .f32).slice (Rect.unit (s := S4096x256) (k0_off3 c 2#32) S512x256.size (k0_off3_inb c 1)) (fun _ => rfl)).view.set) \ ((Memref.whole main_v1 : Memref sig .tc .hbm S4096x256 .f32).slice (Rect.unit (s := S4096x256) (k0_off3 c 3#32) S512x256.size (k0_off3_inb c 2)) (fun _ => rfl)).view.set) \ ((Memref.whole main_v1 : Memref sig .tc .hbm S4096x256 .f32).slice (Rect.unit (s := S4096x256) (k0_off3 c 4#32) S512x256.size (k0_off3_inb c 3)) (fun _ => rfl)).view.set) \ ((Memref.whole main_v1 : Memref sig .tc .hbm S4096x256 .f32).slice (Rect.unit (s := S4096x256) (k0_off3 c 5#32) S512x256.size (k0_off3_inb c 4)) (fun _ => rfl)).view.set), f7 i = G i) (h0 : ∀ i ∈ ((Memref.whole main_v1 : Memref sig .tc .hbm S4096x256 .f32).slice (Rect.unit (s := S4096x256) (k0_off2 c) S512x256.size (k0_off2_inb c)) (fun _ => rfl)).view.set, f0 i = G i)
    (h1 : ∀ i ∈ ((Memref.whole main_v1 : Memref sig .tc .hbm S4096x256 .f32).slice (Rect.unit (s := S4096x256) (k0_off3 c 1#32) S512x256.size (k0_off3_inb c 0)) (fun _ => rfl)).view.set, f1 i = G i) (h2 : ∀ i ∈ ((Memref.whole main_v1 : Memref sig .tc .hbm S4096x256 .f32).slice (Rect.unit (s := S4096x256) (k0_off3 c 2#32) S512x256.size (k0_off3_inb c 1)) (fun _ => rfl)).view.set, f2 i = G i) (h3 : ∀ i ∈ ((Memref.whole main_v1 : Memref sig .tc .hbm S4096x256 .f32).slice (Rect.unit (s := S4096x256) (k0_off3 c 3#32) S512x256.size (k0_off3_inb c 2)) (fun _ => rfl)).view.set, f3 i = G i) (h4 : ∀ i ∈ ((Memref.whole main_v1 : Memref sig .tc .hbm S4096x256 .f32).slice (Rect.unit (s := S4096x256) (k0_off3 c 4#32) S512x256.size (k0_off3_inb c 3)) (fun _ => rfl)).view.set, f4 i = G i) (h5 : ∀ i ∈ ((Memref.whole main_v1 : Memref sig .tc .hbm S4096x256 .f32).slice (Rect.unit (s := S4096x256) (k0_off3 c 5#32) S512x256.size (k0_off3_inb c 4)) (fun _ => rfl)).view.set, f5 i = G i) :
    iprop(((oM : Memref sig .tc .hbm S4096x256 .f32).view.loc (c : Thread nD τ) ↦[(((((((oM : Memref sig .tc .hbm S4096x256 .f32).view.set \ ((Memref.whole main_v1 : Memref sig .tc .hbm S4096x256 .f32).slice (Rect.unit (s := S4096x256) (k0_off2 c) S512x256.size (k0_off2_inb c)) (fun _ => rfl)).view.set) \ ((Memref.whole main_v1 : Memref sig .tc .hbm S4096x256 .f32).slice (Rect.unit (s := S4096x256) (k0_off3 c 1#32) S512x256.size (k0_off3_inb c 0)) (fun _ => rfl)).view.set) \ ((Memref.whole main_v1 : Memref sig .tc .hbm S4096x256 .f32).slice (Rect.unit (s := S4096x256) (k0_off3 c 2#32) S512x256.size (k0_off3_inb c 1)) (fun _ => rfl)).view.set) \ ((Memref.whole main_v1 : Memref sig .tc .hbm S4096x256 .f32).slice (Rect.unit (s := S4096x256) (k0_off3 c 3#32) S512x256.size (k0_off3_inb c 2)) (fun _ => rfl)).view.set) \ ((Memref.whole main_v1 : Memref sig .tc .hbm S4096x256 .f32).slice (Rect.unit (s := S4096x256) (k0_off3 c 4#32) S512x256.size (k0_off3_inb c 3)) (fun _ => rfl)).view.set) \ ((Memref.whole main_v1 : Memref sig .tc .hbm S4096x256 .f32).slice (Rect.unit (s := S4096x256) (k0_off3 c 5#32) S512x256.size (k0_off3_inb c 4)) (fun _ => rfl)).view.set)]{fullShare} f7) ∗ ((oM : Memref sig .tc .hbm S4096x256 .f32).view.loc (c : Thread nD τ) ↦[((Memref.whole main_v1 : Memref sig .tc .hbm S4096x256 .f32).slice (Rect.unit (s := S4096x256) (k0_off2 c) S512x256.size (k0_off2_inb c)) (fun _ => rfl)).view.set]{fullShare} f0) ∗ ((oM : Memref sig .tc .hbm S4096x256 .f32).view.loc (c : Thread nD τ) ↦[((Memref.whole main_v1 : Memref sig .tc .hbm S4096x256 .f32).slice (Rect.unit (s := S4096x256) (k0_off3 c 1#32) S512x256.size (k0_off3_inb c 0)) (fun _ => rfl)).view.set]{fullShare} f1) ∗ ((oM : Memref sig .tc .hbm S4096x256 .f32).view.loc (c : Thread nD τ) ↦[((Memref.whole main_v1 : Memref sig .tc .hbm S4096x256 .f32).slice (Rect.unit (s := S4096x256) (k0_off3 c 2#32) S512x256.size (k0_off3_inb c 1)) (fun _ => rfl)).view.set]{fullShare} f2) ∗ ((oM : Memref sig .tc .hbm S4096x256 .f32).view.loc (c : Thread nD τ) ↦[((Memref.whole main_v1 : Memref sig .tc .hbm S4096x256 .f32).slice (Rect.unit (s := S4096x256) (k0_off3 c 3#32) S512x256.size (k0_off3_inb c 2)) (fun _ => rfl)).view.set]{fullShare} f3) ∗ ((oM : Memref sig .tc .hbm S4096x256 .f32).view.loc (c : Thread nD τ) ↦[((Memref.whole main_v1 : Memref sig .tc .hbm S4096x256 .f32).slice (Rect.unit (s := S4096x256) (k0_off3 c 4#32) S512x256.size (k0_off3_inb c 3)) (fun _ => rfl)).view.set]{fullShare} f4) ∗ ((oM : Memref sig .tc .hbm S4096x256 .f32).view.loc (c : Thread nD τ) ↦[((Memref.whole main_v1 : Memref sig .tc .hbm S4096x256 .f32).slice (Rect.unit (s := S4096x256) (k0_off3 c 5#32) S512x256.size (k0_off3_inb c 4)) (fun _ => rfl)).view.set]{fullShare} f5))
      ⊢ (held c oM G : sProp 𝕄) := by
  have hS : (oM : Memref sig .tc .hbm S4096x256 .f32).view.set = Finset.univ := View.set_whole _
  have hsubO : ((Memref.whole main_v1 : Memref sig .tc .hbm S4096x256 .f32).slice (Rect.unit (s := S4096x256) (k0_off2 c) S512x256.size (k0_off2_inb c)) (fun _ => rfl)).view.set ⊆ (oM : Memref sig .tc .hbm S4096x256 .f32).view.set := by
    rw [hS]; exact Finset.subset_univ _
  have hsubR : ∀ r : Fin 7, ((Memref.whole main_v1 : Memref sig .tc .hbm S4096x256 .f32).slice (Rect.unit (s := S4096x256) (k0_off3 c (BitVec.ofNat 32 (1 + r.val))) S512x256.size (k0_off3_inb c r)) (fun _ => rfl)).view.set
      ⊆ (oM : Memref sig .tc .hbm S4096x256 .f32).view.set := fun r => by
    rw [hS]; exact Finset.subset_univ _
  exact rejoin6_congr G f7 f0 f1 f2 f3 f4 f5 hsubO
    (Finset.subset_sdiff.mpr ⟨hsubR 0, owin_own_disjoint c 0⟩)
    (Finset.subset_sdiff.mpr ⟨(Finset.subset_sdiff.mpr ⟨hsubR 1, owin_own_disjoint c 1⟩), owin_disjoint c 0 1 (by decide)⟩)
    (Finset.subset_sdiff.mpr ⟨(Finset.subset_sdiff.mpr ⟨(Finset.subset_sdiff.mpr ⟨hsubR 2, owin_own_disjoint c 2⟩), owin_disjoint c 0 2 (by decide)⟩), owin_disjoint c 1 2 (by decide)⟩)
    (Finset.subset_sdiff.mpr ⟨(Finset.subset_sdiff.mpr ⟨(Finset.subset_sdiff.mpr ⟨(Finset.subset_sdiff.mpr ⟨hsubR 3, owin_own_disjoint c 3⟩), owin_disjoint c 0 3 (by decide)⟩), owin_disjoint c 1 3 (by decide)⟩), owin_disjoint c 2 3 (by decide)⟩)
    (Finset.subset_sdiff.mpr ⟨(Finset.subset_sdiff.mpr ⟨(Finset.subset_sdiff.mpr ⟨(Finset.subset_sdiff.mpr ⟨(Finset.subset_sdiff.mpr ⟨hsubR 4, owin_own_disjoint c 4⟩), owin_disjoint c 0 4 (by decide)⟩), owin_disjoint c 1 4 (by decide)⟩), owin_disjoint c 2 4 (by decide)⟩), owin_disjoint c 3 4 (by decide)⟩)
    h7 h0 h1 h2 h3 h4 h5

/-- info: 'Cert.KernelIdeal.A2A.out_rejoin' depends on axioms: [propext, Classical.choice, Quot.sound] -/
#guard_msgs in #print axioms out_rejoin

end Cert.KernelIdeal.A2A

end
-- ==== Proof.SentVals.lean ====
import proofs.«900533_g7700000000000534_dist_gemm_a2a_m4096_k4096_n2048_f32_relu_v7x_i8_1_alg».proof.Proof.SlotVals

set_option maxRecDepth 16384

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ UU ℕ

/-! ## What is stored into a send slot -/

/-- The block of x and the column tile w, rounded to bf16, in the 1 by 512 by 256 shape it is stored in. -/
def sentPay (x : Vec F S512x4096 .f32) (w : Vec F S1x4096x256 .f32) : FVec F S1x512x256 .bf16 :=
  shapeCast S1x512x256 (truncf .bf16 (blkF x w) bitsLt_bf16_f32) shapeCasts_S512x256_S1x512x256

theorem pay_hop0 (x : Vec F S512x4096 .f32) (w : Vec F S1x4096x256 .f32) : k0_pay1 x w = sentPay x w := rfl
theorem pay_hop1 (x : Vec F S512x4096 .f32) (w : Vec F S1x4096x256 .f32) : k0_pay2 x w = sentPay x w := rfl
theorem pay_hop2 (x : Vec F S512x4096 .f32) (w : Vec F S1x4096x256 .f32) : k0_pay4 (k0_pay3 x w) = sentPay x w := rfl
theorem pay_hop3 (x : Vec F S512x4096 .f32) (w : Vec F S1x4096x256 .f32) : k0_pay5 x w = sentPay x w := rfl
theorem pay_hop4 (x : Vec F S512x4096 .f32) (w : Vec F S1x4096x256 .f32) : k0_pay6 x w = sentPay x w := rfl
theorem pay_hop5 (x : Vec F S512x4096 .f32) (w : Vec F S1x4096x256 .f32) : k0_pay7 x w = sentPay x w := rfl
theorem pay_hop6 (x : Vec F S512x4096 .f32) (w : Vec F S1x4096x256 .f32) : k0_pay8 x w = sentPay x w := rfl

/-- A stored send slot reads back, through the slot's 512 by 256 view, as the rounded block. -/
theorem sent_read (c : Dev nD) (h : Hop) (f : Buf (Elt F) ((commM : Memref sig .tc .vmem S7x512x256 .bf16).view.loc (c : Thread nD τ))) (x : Vec F S512x4096 .f32) (w : Vec F S1x4096x256 .f32) :
    (commSlot h : Memref sig .tc .vmem S512x256 .bf16).view.read (Elt F) (View.write (Elt F) ((commM : Memref sig .tc .vmem S7x512x256 .bf16).access (slotRect h)) f (sentPay x w) Finset.univ) = truncf .bf16 (blkF x w) bitsLt_bf16_f32 :=
  comm_store_read c h f (truncf .bf16 (blkF x w) bitsLt_bf16_f32)

/-! ## What is stored into the staging buffer: a received block widened, and the own block -/

/-- A vector in the 1 by 512 by 256 shape, cast to 512 by 256, widened, and cast back. -/
def gotPay (u : Vec F S1x512x256 .bf16) : FVec F S1x512x256 .f32 :=
  shapeCast S1x512x256 (extf .f32 (shapeCast S512x256 u shapeCasts_S1x512x256_S512x256) bitsLt_bf16_f32) shapeCasts_S512x256_S1x512x256

theorem gotPay_cast (v : Vec F S512x256 .bf16) :
    gotPay (shapeCast S1x512x256 v shapeCasts_S512x256_S1x512x256) = shapeCast S1x512x256 (extf .f32 v bitsLt_bf16_f32) shapeCasts_S512x256_S1x512x256 := by
  unfold gotPay
  rw [shapeCast_back v shapeCasts_S512x256_S1x512x256 shapeCasts_S1x512x256_S512x256]

theorem got_hop0 (v : Vec F S512x256 .bf16) : k0_pay10 (shapeCast S1x512x256 v shapeCasts_S512x256_S1x512x256) = shapeCast S1x512x256 (extf .f32 v bitsLt_bf16_f32) shapeCasts_S512x256_S1x512x256 := gotPay_cast v
theorem got_hop1 (v : Vec F S512x256 .bf16) : k0_pay11 (shapeCast S1x512x256 v shapeCasts_S512x256_S1x512x256) = shapeCast S1x512x256 (extf .f32 v bitsLt_bf16_f32) shapeCasts_S512x256_S1x512x256 := gotPay_cast v
theorem got_hop2 (v : Vec F S512x256 .bf16) : k0_pay12 (shapeCast S1x512x256 v shapeCasts_S512x256_S1x512x256) = shapeCast S1x512x256 (extf .f32 v bitsLt_bf16_f32) shapeCasts_S512x256_S1x512x256 := gotPay_cast v
theorem got_hop3 (v : Vec F S512x256 .bf16) : k0_pay13 (shapeCast S1x512x256 v shapeCasts_S512x256_S1x512x256) = shapeCast S1x512x256 (extf .f32 v bitsLt_bf16_f32) shapeCasts_S512x256_S1x512x256 := gotPay_cast v
theorem got_hop4 (v : Vec F S512x256 .bf16) : k0_pay14 (shapeCast S1x512x256 v shapeCasts_S512x256_S1x512x256) = shapeCast S1x512x256 (extf .f32 v bitsLt_bf16_f32) shapeCasts_S512x256_S1x512x256 := gotPay_cast v
theorem got_hop5 (v : Vec F S512x256 .bf16) : k0_pay15 (shapeCast S1x512x256 v shapeCasts_S512x256_S1x512x256) = shapeCast S1x512x256 (extf .f32 v bitsLt_bf16_f32) shapeCasts_S512x256_S1x512x256 := gotPay_cast v
theorem got_hop6 (v : Vec F S512x256 .bf16) : k0_pay16 (shapeCast S1x512x256 v shapeCasts_S512x256_S1x512x256) = shapeCast S1x512x256 (extf .f32 v bitsLt_bf16_f32) shapeCasts_S512x256_S1x512x256 := gotPay_cast v

theorem own_pay (x : Vec F S512x4096 .f32) (w : Vec F S1x4096x256 .f32) : k0_pay9 x w = shapeCast S1x512x256 (blkF x w) shapeCasts_S512x256_S1x512x256 := rfl

/-- info: 'Cert.KernelIdeal.A2A.pay_hop2' depends on axioms: [propext, Classical.choice, Quot.sound] -/
#guard_msgs in #print axioms pay_hop2
/-- info: 'Cert.KernelIdeal.A2A.sent_read' depends on axioms: [propext, Classical.choice, Quot.sound] -/
#guard_msgs in #print axioms sent_read
/-- info: 'Cert.KernelIdeal.A2A.got_hop6' depends on axioms: [propext, Classical.choice, Quot.sound] -/
#guard_msgs in #print axioms got_hop6
/-- info: 'Cert.KernelIdeal.A2A.own_pay' depends on axioms: [propext, Classical.choice, Quot.sound] -/
#guard_msgs in #print axioms own_pay

end Cert.KernelIdeal.A2A

end
-- ==== Proof.WVals.lean ====
import proofs.«900533_g7700000000000534_dist_gemm_a2a_m4096_k4096_n2048_f32_relu_v7x_i8_1_alg».proof.Proof.Inv
import proofs.«900533_g7700000000000534_dist_gemm_a2a_m4096_k4096_n2048_f32_relu_v7x_i8_1_alg».proof.Proof.Windows
import proofs.«900533_g7700000000000534_dist_gemm_a2a_m4096_k4096_n2048_f32_relu_v7x_i8_1_alg».proof.Proof.SlotVals

set_option maxRecDepth 16384

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ UU ℕ

/-! ## What a column window of w copies out -/

/-- Two windows of w at equal offsets read the same. -/
theorem wwin_read_congr {off off' : Fin 2 → Nat} (h : off = off')
    (inb : ∀ a, off a + S4096x256.size a ≤ S4096x2048.size a) (inb' : ∀ a, off' a + S4096x256.size a ≤ S4096x2048.size a)
    (f : Vec F S4096x2048 .f32) :
    ((Memref.whole main_arg1 : Memref sig .tc .hbm S4096x2048 .f32).slice (Rect.unit (s := S4096x2048) off S4096x256.size inb) (fun _ => rfl) : Memref sig .tc .hbm S4096x256 .f32).view.read (Elt F) f
      = ((Memref.whole main_arg1 : Memref sig .tc .hbm S4096x2048 .f32).slice (Rect.unit (s := S4096x2048) off' S4096x256.size inb') (fun _ => rfl) : Memref sig .tc .hbm S4096x256 .f32).view.read (Elt F) f := by
  subst h; rfl

/-- The window of step j starts at column 256 ((c + j + 1) % 8): what its copy carries is that device's column tile. -/
theorem dmaW_eq (m : (ℓ : Loc nD τ sig) → Buf (Elt F) ℓ) (c : Dev nD) (j : Fin 8) :
    ReadAs.same.apply (((Memref.whole main_arg1 : Memref sig .tc .hbm S4096x2048 .f32).slice (Rect.unit (s := S4096x2048) (k0_off1 c (BitVec.ofNat 32 (1 + j.val))) S4096x256.size (k0_off1_inb c j)) (fun _ => rfl)).view.read (Elt F) (wOf m c))
      = wCol m c ⟨(c.val + j.val + 1) % 8, Nat.mod_lt _ (by decide)⟩ := by
  rw [ReadAs.apply_same]
  unfold wCol
  exact wwin_read_congr (k0_off1_eq c j) _ _ _

/-- For a step below 7 that device is the peer of the hop with the same number; step 7 is the device's own tile. -/
theorem dmaW_peer (m : (ℓ : Loc nD τ sig) → Buf (Elt F) ℓ) (c : Dev nD) (h : Hop) (j : Fin 8) (hj : j.val = h.val) :
    ReadAs.same.apply (((Memref.whole main_arg1 : Memref sig .tc .hbm S4096x2048 .f32).slice (Rect.unit (s := S4096x2048) (k0_off1 c (BitVec.ofNat 32 (1 + j.val))) S4096x256.size (k0_off1_inb c j)) (fun _ => rfl)).view.read (Elt F) (wOf m c))
      = wCol m c (peer c h) := by
  rw [dmaW_eq]
  exact congrArg (wCol m c) (Fin.ext (by show (c.val + j.val + 1) % 8 = (c.val + h.val + 1) % 8; rw [hj]))
theorem dmaW_own (m : (ℓ : Loc nD τ sig) → Buf (Elt F) ℓ) (c : Dev nD) :
    ReadAs.same.apply (((Memref.whole main_arg1 : Memref sig .tc .hbm S4096x2048 .f32).slice (Rect.unit (s := S4096x2048) (k0_off1 c (BitVec.ofNat 32 (1 + (7 : Fin 8).val))) S4096x256.size (k0_off1_inb c (7 : Fin 8))) (fun _ => rfl)).view.read (Elt F) (wOf m c))
      = wCol m c c := by
  rw [dmaW_eq]
  exact congrArg (wCol m c) (Fin.ext (by show (c.val + 7 + 1) % 8 = c.val; have : c.val < 8 := c.isLt; omega))

/-- info: 'Cert.KernelIdeal.A2A.dmaW_peer' depends on axioms: [propext, Classical.choice, Quot.sound] -/
#guard_msgs in #print axioms dmaW_peer
/-- info: 'Cert.KernelIdeal.A2A.dmaW_own' depends on axioms: [propext, Classical.choice, Quot.sound] -/
#guard_msgs in #print axioms dmaW_own

/-! ## The four slots of the column-tile buffer -/

theorem wt_inb (s : Fin 4) : ∀ a, (![s.val, 0, 0] : Fin 3 → Nat) a + S1x4096x256.size a ≤ S4x4096x256.size a := by
  revert s; decide
/-- Slot s of the column-tile buffer, as a rectangle of it. -/
abbrev wtRect (s : Fin 4) : Rect S4x4096x256 := Rect.unit (s := S4x4096x256) ![s.val, 0, 0] S1x4096x256.size (wt_inb s)
/-- Slot s as a 4096 by 256 memref: what a transfer into it sees. -/
abbrev wtSlot (s : Fin 4) : Memref sig .tc .vmem S4096x256 .f32 :=
  (wtM.slice (wtRect s) (fun _ => rfl)).squeeze S4096x256 squeezes_S1x4096x256_S4096x256

theorem wtSlot_set (s : Fin 4) : (wtSlot s : Memref sig .tc .vmem S4096x256 .f32).view.set = (wtRect s).set := by
  simp only [Memref.view_squeeze, Memref.view_slice, Memref.view_whole, View.set_reshape, View.set_slice_whole]

/-- Different slots differ in the leading coordinate. -/
theorem wtRect_disjoint (s s' : Fin 4) (hne : s ≠ s') : Disjoint (wtRect s).set (wtRect s').set := by
  refine Rect.unit_disjoint (s := S4x4096x256) (0 : Fin 3) ?_
  show s.val + 1 ≤ s'.val ∨ s'.val + 1 ≤ s.val
  have := Fin.val_ne_of_ne hne; omega

/-- A 4096 by 256 tile written whole through slot s, loaded back as the slot's 1 by 4096 by 256 vector. -/
theorem wt_read_same (c : Dev nD) (s : Fin 4) (g : Buf (Elt F) ((wtM : Memref sig .tc .vmem S4x4096x256 .f32).view.loc (c : Thread nD τ)))
    (v : Vec F S4096x256 .f32) :
    (wtM : Memref sig .tc .vmem S4x4096x256 .f32).view.readAt (Elt F) (wtRect s).toLoadRect ((wtSlot s : Memref sig .tc .vmem S4096x256 .f32).view.write (Elt F) g v Finset.univ)
      = shapeCast S1x4096x256 v shapeCasts_S4096x256_S1x4096x256 :=
  read_write_reshape (Val := Elt F) ((wtM : Memref sig .tc .vmem S4x4096x256 .f32).view.slice (wtRect s)) _ g v _

/-- A write through another slot leaves what slot s loads as it was. -/
theorem wt_read_other (c : Dev nD) (s s' : Fin 4) (hne : s ≠ s') (g : Buf (Elt F) ((wtM : Memref sig .tc .vmem S4x4096x256 .f32).view.loc (c : Thread nD τ)))
    (v : Vec F S4096x256 .f32) :
    (wtM : Memref sig .tc .vmem S4x4096x256 .f32).view.readAt (Elt F) (wtRect s).toLoadRect ((wtSlot s' : Memref sig .tc .vmem S4096x256 .f32).view.write (Elt F) g v Finset.univ)
      = (wtM : Memref sig .tc .vmem S4x4096x256 .f32).view.readAt (Elt F) (wtRect s).toLoadRect g := by
  refine View.readAt_congr fun i hi => View.write_of_not_mem _ _ _ fun hmem => ?_
  rw [View.setOn_univ, wtSlot_set] at hmem
  obtain ⟨y, hy, rfl⟩ := Finset.mem_map.mp hi
  exact Finset.disjoint_left.mp (wtRect_disjoint s s' hne) hy hmem

/-! ## The column tile a load finds after the copy of a step has landed -/

theorem wtile_loaded (m : (ℓ : Loc nD τ sig) → Buf (Elt F) ℓ) (c : Dev nD) (s : Fin 4) (j : Fin 8)
    (g : Buf (Elt F) ((wtM : Memref sig .tc .vmem S4x4096x256 .f32).view.loc (c : Thread nD τ))) :
    (wtM : Memref sig .tc .vmem S4x4096x256 .f32).view.readAt (Elt F) (wtRect s).toLoadRect
        ((wtSlot s : Memref sig .tc .vmem S4096x256 .f32).view.write (Elt F) g
          (ReadAs.same.apply (((Memref.whole main_arg1 : Memref sig .tc .hbm S4096x2048 .f32).slice (Rect.unit (s := S4096x2048) (k0_off1 c (BitVec.ofNat 32 (1 + j.val))) S4096x256.size (k0_off1_inb c j)) (fun _ => rfl)).view.read (Elt F) (wOf m c))) Finset.univ)
      = wTile m c ⟨(c.val + j.val + 1) % 8, Nat.mod_lt _ (by decide)⟩ := by
  rw [dmaW_eq, wt_read_same]; rfl
theorem wtile_loaded_peer (m : (ℓ : Loc nD τ sig) → Buf (Elt F) ℓ) (c : Dev nD) (s : Fin 4) (h : Hop) (j : Fin 8) (hj : j.val = h.val)
    (g : Buf (Elt F) ((wtM : Memref sig .tc .vmem S4x4096x256 .f32).view.loc (c : Thread nD τ))) :
    (wtM : Memref sig .tc .vmem S4x4096x256 .f32).view.readAt (Elt F) (wtRect s).toLoadRect
        ((wtSlot s : Memref sig .tc .vmem S4096x256 .f32).view.write (Elt F) g
          (ReadAs.same.apply (((Memref.whole main_arg1 : Memref sig .tc .hbm S4096x2048 .f32).slice (Rect.unit (s := S4096x2048) (k0_off1 c (BitVec.ofNat 32 (1 + j.val))) S4096x256.size (k0_off1_inb c j)) (fun _ => rfl)).view.read (Elt F) (wOf m c))) Finset.univ)
      = wTile m c (peer c h) := by
  rw [dmaW_peer m c h j hj, wt_read_same]; rfl
theorem wtile_loaded_own (m : (ℓ : Loc nD τ sig) → Buf (Elt F) ℓ) (c : Dev nD) (s : Fin 4)
    (g : Buf (Elt F) ((wtM : Memref sig .tc .vmem S4x4096x256 .f32).view.loc (c : Thread nD τ))) :
    (wtM : Memref sig .tc .vmem S4x4096x256 .f32).view.readAt (Elt F) (wtRect s).toLoadRect
        ((wtSlot s : Memref sig .tc .vmem S4096x256 .f32).view.write (Elt F) g
          (ReadAs.same.apply (((Memref.whole main_arg1 : Memref sig .tc .hbm S4096x2048 .f32).slice (Rect.unit (s := S4096x2048) (k0_off1 c (BitVec.ofNat 32 (1 + (7 : Fin 8).val))) S4096x256.size (k0_off1_inb c (7 : Fin 8))) (fun _ => rfl)).view.read (Elt F) (wOf m c))) Finset.univ)
      = wTile m c c := by
  rw [dmaW_own, wt_read_same]; rfl

/-- info: 'Cert.KernelIdeal.A2A.wt_read_other' depends on axioms: [propext, Classical.choice, Quot.sound] -/
#guard_msgs in #print axioms wt_read_other
/-- info: 'Cert.KernelIdeal.A2A.wtile_loaded_peer' depends on axioms: [propext, Classical.choice, Quot.sound] -/
#guard_msgs in #print axioms wtile_loaded_peer
/-- info: 'Cert.KernelIdeal.A2A.wtile_loaded_own' depends on axioms: [propext, Classical.choice, Quot.sound] -/
#guard_msgs in #print axioms wtile_loaded_own

end Cert.KernelIdeal.A2A

end
-- ==== Proof.XVals.lean ====
import proofs.«900533_g7700000000000534_dist_gemm_a2a_m4096_k4096_n2048_f32_relu_v7x_i8_1_alg».proof.Proof.Inv
import Idealize.ShloMosaic.Lib.Pipeline.Value
import Idealize.ShloMosaic.Lib.Pipeline.FrameBody
import Idealize.ShloMosaic.Lib.Exec.Geometry

set_option maxRecDepth 16384

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ UU ℕ

/-! ## The rows a device loads are its rows of x -/

theorem zero2 : (![0, 0] : Fin 2 → Nat) = fun _ => 0 := funext fun a => by fin_cases a <;> rfl

/-- An index whose row lies in the 128 rows from k on lies in the chunk at row k. -/
theorem mem_chunk (k : ℕ) (inb : ∀ a, (![k, 0] : Fin 2 → Nat) a + S128x4096.size a ≤ S512x4096.size a) (y : S512x4096.Idx)
    (h0 : k ≤ (y 0).val) (h1 : (y 0).val < k + 128) : y ∈ (Rect.unit (s := S512x4096) ![k, 0] S128x4096.size inb).set := by
  rw [Rect.mem_set_unit]
  have h2 : (y 1).val < 4096 := (y 1).isLt
  intro a
  fin_cases a
  · show k ≤ (y 0).val ∧ (y 0).val < k + 128; exact ⟨h0, h1⟩
  · show 0 ≤ (y 1).val ∧ (y 1).val < 0 + 4096; omega

/-- The four chunk copies, last first: each chunk of the staging buffer holds the same rows of the device's x. -/
def xPieces (m : (ℓ : Loc nD τ sig) → Buf (Elt F) ℓ) (c : Dev nD) : List (View.Piece (Elt F) S512x4096 .f32) :=
  [⟨Rect.unit (s := S512x4096) ![384, 0] S128x4096.size inb_S512x4096_S128x4096_384_0, ReadAs.same.apply (View.read (Elt F) ((Memref.whole main_arg0 : Memref sig .tc .hbm S512x4096 .f32).slice (Rect.unit (s := S512x4096) ![384, 0] S128x4096.size inb_S512x4096_S128x4096_384_0) (fun _ => rfl)).view (xOf m c))⟩,
   ⟨Rect.unit (s := S512x4096) ![256, 0] S128x4096.size inb_S512x4096_S128x4096_256_0, ReadAs.same.apply (View.read (Elt F) ((Memref.whole main_arg0 : Memref sig .tc .hbm S512x4096 .f32).slice (Rect.unit (s := S512x4096) ![256, 0] S128x4096.size inb_S512x4096_S128x4096_256_0) (fun _ => rfl)).view (xOf m c))⟩,
   ⟨Rect.unit (s := S512x4096) ![128, 0] S128x4096.size inb_S512x4096_S128x4096_128_0, ReadAs.same.apply (View.read (Elt F) ((Memref.whole main_arg0 : Memref sig .tc .hbm S512x4096 .f32).slice (Rect.unit (s := S512x4096) ![128, 0] S128x4096.size inb_S512x4096_S128x4096_128_0) (fun _ => rfl)).view (xOf m c))⟩,
   ⟨Rect.unit (s := S512x4096) ![0, 0] S128x4096.size inb_S512x4096_S128x4096_0_0, ReadAs.same.apply (View.read (Elt F) ((Memref.whole main_arg0 : Memref sig .tc .hbm S512x4096 .f32).slice (Rect.unit (s := S512x4096) ![0, 0] S128x4096.size inb_S512x4096_S128x4096_0_0) (fun _ => rfl)).view (xOf m c))⟩]

theorem xPieces_cover (m : (ℓ : Loc nD τ sig) → Buf (Elt F) ℓ) (c : Dev nD) (y : S512x4096.Idx) : ∃ p ∈ xPieces m c, y ∈ p.1.set := by
  have h0 : (y 0).val < 512 := (y 0).isLt
  unfold xPieces
  by_cases a3 : 384 ≤ (y 0).val
  · exact ⟨_, List.mem_cons_self, mem_chunk 384 inb_S512x4096_S128x4096_384_0 y a3 (by omega)⟩
  by_cases a2 : 256 ≤ (y 0).val
  · exact ⟨_, List.mem_cons_of_mem _ List.mem_cons_self, mem_chunk 256 inb_S512x4096_S128x4096_256_0 y a2 (by omega)⟩
  by_cases a1 : 128 ≤ (y 0).val
  · exact ⟨_, List.mem_cons_of_mem _ (List.mem_cons_of_mem _ List.mem_cons_self), mem_chunk 128 inb_S512x4096_S128x4096_128_0 y a1 (by omega)⟩
  · exact ⟨_, List.mem_cons_of_mem _ (List.mem_cons_of_mem _ (List.mem_cons_of_mem _ List.mem_cons_self)), mem_chunk 0 inb_S512x4096_S128x4096_0_0 y (Nat.zero_le _) (by omega)⟩

theorem xPieces_val (m : (ℓ : Loc nD τ sig) → Buf (Elt F) ℓ) (c : Dev nD) :
    ∀ p ∈ xPieces m c, ∀ x : p.1.shape.Idx, p.2 x = xOf m c (p.1.emb x) := by
  intro p hp
  unfold xPieces at hp
  simp only [List.mem_cons, List.not_mem_nil, or_false] at hp
  rcases hp with rfl | rfl | rfl | rfl <;> intro x <;> rfl

/-- What the whole-buffer load of the staging buffer reads once the four chunks have been copied in. -/
theorem x_loaded (m : (ℓ : Loc nD τ sig) → Buf (Elt F) ℓ) (c : Dev nD) :
    (xsM : Memref sig .tc .vmem S512x4096 .f32).view.readCov
      [⟨Rect.unit (s := S512x4096) ![384, 0] S128x4096.size inb_S512x4096_S128x4096_384_0, ReadAs.same.apply (View.read (Elt F) ((Memref.whole main_arg0 : Memref sig .tc .hbm S512x4096 .f32).slice (Rect.unit (s := S512x4096) ![384, 0] S128x4096.size inb_S512x4096_S128x4096_384_0) (fun _ => rfl)).view (xOf m c))⟩,
       ⟨Rect.unit (s := S512x4096) ![256, 0] S128x4096.size inb_S512x4096_S128x4096_256_0, ReadAs.same.apply (View.read (Elt F) ((Memref.whole main_arg0 : Memref sig .tc .hbm S512x4096 .f32).slice (Rect.unit (s := S512x4096) ![256, 0] S128x4096.size inb_S512x4096_S128x4096_256_0) (fun _ => rfl)).view (xOf m c))⟩,
       ⟨Rect.unit (s := S512x4096) ![128, 0] S128x4096.size inb_S512x4096_S128x4096_128_0, ReadAs.same.apply (View.read (Elt F) ((Memref.whole main_arg0 : Memref sig .tc .hbm S512x4096 .f32).slice (Rect.unit (s := S512x4096) ![128, 0] S128x4096.size inb_S512x4096_S128x4096_128_0) (fun _ => rfl)).view (xOf m c))⟩,
       ⟨Rect.unit (s := S512x4096) ![0, 0] S128x4096.size inb_S512x4096_S128x4096_0_0, ReadAs.same.apply (View.read (Elt F) ((Memref.whole main_arg0 : Memref sig .tc .hbm S512x4096 .f32).slice (Rect.unit (s := S512x4096) ![0, 0] S128x4096.size inb_S512x4096_S128x4096_0_0) (fun _ => rfl)).view (xOf m c))⟩]
      (Rect.unit (s := S512x4096) ![0, 0] S512x4096.size inb_S512x4096_S512x4096_0_0).toLoadRect = xOf m c := by
  show (xsM : Memref sig .tc .vmem S512x4096 .f32).view.readCov (xPieces m c) (Rect.unit (s := S512x4096) ![0, 0] S512x4096.size inb_S512x4096_S512x4096_0_0).toLoadRect = xOf m c
  rw [View.readCov_eq_canon_ld _ _ _ (xPieces_cover m c), View.ld_unit_zero zero2]
  funext y
  exact View.canon_apply_of_pieces (xOf m c) (xPieces m c) (xPieces_val m c) y (xPieces_cover m c y)

/-- info: 'Cert.KernelIdeal.A2A.x_loaded' depends on axioms: [propext, Classical.choice, Quot.sound] -/
#guard_msgs in #print axioms x_loaded

end Cert.KernelIdeal.A2A

end
-- ==== Proof.OutVals.lean ====
import proofs.«900533_g7700000000000534_dist_gemm_a2a_m4096_k4096_n2048_f32_relu_v7x_i8_1_alg».proof.Proof.Inv
import proofs.«900533_g7700000000000534_dist_gemm_a2a_m4096_k4096_n2048_f32_relu_v7x_i8_1_alg».proof.Proof.Windows
import Idealize.ShloMosaic.Lib.Pipeline.Value

set_option maxRecDepth 16384

noncomputable section

namespace Cert.KernelIdeal.A2A

open Cert.KernelIdeal Cert.KernelIdeal.Gen
open Idealize.ShloMosaic Idealize.ShloMosaic.TcCoe

variable {F : FTy → Type} [FloatOps F] [∀ e, Nonempty (Elt F e)]

variable (m : (ℓ : Loc nD τ sig) → Buf (Elt F) ℓ)

/-! ## One whole write through a row window of the result -/

/-- A whole write of a 512 by 256 block through the window of the result at rows 512 q and the 511 after, read at an
    index: the block at the index's place inside the window when the index's row block is q, what was there otherwise. -/
theorem write_row (off : Fin 2 → ℕ) (inb : ∀ a, off a + S512x256.size a ≤ S4096x256.size a) (q : ℕ) (hoff : off = ![512 * q, 0])
    (f : S4096x256.Idx → Elt F .f32) (w : S512x256.Idx → Elt F .f32) (i : S4096x256.Idx) :
    ((Memref.whole main_v1 : Memref sig .tc .hbm S4096x256 .f32).slice (Rect.unit (s := S4096x256) off S512x256.size inb) (fun _ => rfl) : Memref sig .tc .hbm S512x256 .f32).view.write (Elt F) f w Finset.univ i
      = if (i 0).val / 512 = q then w (ValueIdx.ix2 ⟨(i 0).val % 512, Nat.mod_lt _ (by decide)⟩ (i 1)) else f i := by
  have e : ((Memref.whole main_v1 : Memref sig .tc .hbm S4096x256 .f32).slice (Rect.unit (s := S4096x256) off S512x256.size inb) (fun _ => rfl) : Memref sig .tc .hbm S512x256 .f32).view.write (Elt F) f w Finset.univ
      = updateSlice (s := S4096x256) (u := S512x256) f w off ⟨rfl, inb⟩ :=
    View.write_whole_slice_unit main_v1 off S512x256.size inb f w
  rw [e]
  subst hoff
  unfold updateSlice
  have h1 : (i 1).val < 256 := (i 1).isLt
  by_cases hq : (i 0).val / 512 = q
  · have hin : ∀ a : Fin S4096x256.rank, (![512 * q, 0] : Fin 2 → ℕ) a ≤ (i a).val ∧ (i a).val < (![512 * q, 0] : Fin 2 → ℕ) a + S512x256.size (a.cast rfl) := by
      intro a
      fin_cases a
      · show 512 * q ≤ (i 0).val ∧ (i 0).val < 512 * q + 512; omega
      · show 0 ≤ (i 1).val ∧ (i 1).val < 0 + 256; omega
    rw [if_pos hq]
    refine (dif_pos hin).trans ?_
    congr 1
    funext a
    fin_cases a
    · apply Fin.ext
      show (i 0).val - 512 * q = (i 0).val % 512
      omega
    · apply Fin.ext
      show (i 1).val - 0 = (i 1).val
      omega
  · rw [if_neg hq]
    refine dif_neg (fun hin => hq ?_)
    have h0 := hin (0 : Fin 2)
    change 512 * q ≤ (i 0).val ∧ (i 0).val < 512 * q + 512 at h0
    omega

/-! ## A chain of tests, first hit wins -/

theorem chain_pos {β : Type} (p : Fin 7 → Prop) [DecidablePred p] (f : Fin 7 → β) (d : β) (r : Fin 7) (hr : p r) (hu : ∀ r', p r' → r' = r) :
    ∀ l : List (Fin 7), r ∈ l → l.foldr (fun r' acc => if p r' then f r' else acc) d = f r
  | [], h => absurd h List.not_mem_nil
  | a :: l, h => by
    show (if p a then f a else l.foldr (fun r' acc => if p r' then f r' else acc) d) = f r
    by_cases ha : p a
    · rw [if_pos ha, hu a ha]
    · rw [if_neg ha]
      exact chain_pos p f d r hr hu l ((List.mem_cons.mp h).resolve_left (fun e => ha (e ▸ hr)))

theorem chain_neg {β : Type} (p : Fin 7 → Prop) [DecidablePred p] (f : Fin 7 → β) (d : β) (hn : ∀ r, ¬ p r) :
    ∀ l : List (Fin 7), l.foldr (fun r' acc => if p r' then f r' else acc) d = d
  | [] => rfl
  | a :: l => by
    show (if p a then f a else l.foldr (fun r' acc => if p r' then f r' else acc) d) = d
    rw [if_neg (hn a)]
    exact chain_neg p f d hn l

/-! ## The result after the eight writes -/

/-- The result array after the device's own block and then the seven received blocks, hop 0 first, have been written
    through their row windows over the contents g. -/
def outFinal (c : Dev nD) (g : Buf (Elt F) ((oM : Memref sig .tc .hbm S4096x256 .f32).view.loc (c : Thread nD τ)))
    (bo : Vec F S512x256 .f32) (b : Hop → Vec F S512x256 .f32) : Buf (Elt F) ((oM : Memref sig .tc .hbm S4096x256 .f32).view.loc (c : Thread nD τ)) :=
  ((Memref.whole main_v1 : Memref sig .tc .hbm S4096x256 .f32).slice (Rect.unit (s := S4096x256) (k0_off3 c (BitVec.ofNat 32 (1 + (6 : Fin 7).val))) S512x256.size (k0_off3_inb c 6)) (fun _ => rfl) : Memref sig .tc .hbm S512x256 .f32).view.write (Elt F)
      (((Memref.whole main_v1 : Memref sig .tc .hbm S4096x256 .f32).slice (Rect.unit (s := S4096x256) (k0_off3 c (BitVec.ofNat 32 (1 + (5 : Fin 7).val))) S512x256.size (k0_off3_inb c 5)) (fun _ => rfl) : Memref sig .tc .hbm S512x256 .f32).view.write (Elt F)
      (((Memref.whole main_v1 : Memref sig .tc .hbm S4096x256 .f32).slice (Rect.unit (s := S4096x256) (k0_off3 c (BitVec.ofNat 32 (1 + (4 : Fin 7).val))) S512x256.size (k0_off3_inb c 4)) (fun _ => rfl) : Memref sig .tc .hbm S512x256 .f32).view.write (Elt F)
      (((Memref.whole main_v1 : Memref sig .tc .hbm S4096x256 .f32).slice (Rect.unit (s := S4096x256) (k0_off3 c (BitVec.ofNat 32 (1 + (3 : Fin 7).val))) S512x256.size (k0_off3_inb c 3)) (fun _ => rfl) : Memref sig .tc .hbm S512x256 .f32).view.write (Elt F)
      (((Memref.whole main_v1 : Memref sig .tc .hbm S4096x256 .f32).slice (Rect.unit (s := S4096x256) (k0_off3 c (BitVec.ofNat 32 (1 + (2 : Fin 7).val))) S512x256.size (k0_off3_inb c 2)) (fun _ => rfl) : Memref sig .tc .hbm S512x256 .f32).view.write (Elt F)
      (((Memref.whole main_v1 : Memref sig .tc .hbm S4096x256 .f32).slice (Rect.unit (s := S4096x256) (k0_off3 c (BitVec.ofNat 32 (1 + (1 : Fin 7).val))) S512x256.size (k0_off3_inb c 1)) (fun _ => rfl) : Memref sig .tc .hbm S512x256 .f32).view.write (Elt F)
      (((Memref.whole main_v1 : Memref sig .tc .hbm S4096x256 .f32).slice (Rect.unit (s := S4096x256) (k0_off3 c (BitVec.ofNat 32 (1 + (0 : Fin 7).val))) S512x256.size (k0_off3_inb c 0)) (fun _ => rfl) : Memref sig .tc .hbm S512x256 .f32).view.write (Elt F)
      (((Memref.whole main_v1 : Memref sig .tc .hbm S4096x256 .f32).slice (Rect.unit (s := S4096x256) (k0_off2 c) S512x256.size (k0_off2_inb c)) (fun _ => rfl) : Memref sig .tc .hbm S512x256 .f32).view.write (Elt F) g bo Finset.univ)
      (b 0) Finset.univ)
      (b 1) Finset.univ)
      (b 2) Finset.univ)
      (b 3) Finset.univ)
      (b 4) Finset.univ)
      (b 5) Finset.univ)
      (b 6) Finset.univ

/-- Read at an index: the block of the hop whose window holds the index's row block, the own block for the device's own
    row block. -/
theorem outFinal_apply (c : Dev nD) (g : Buf (Elt F) ((oM : Memref sig .tc .hbm S4096x256 .f32).view.loc (c : Thread nD τ)))
    (bo : Vec F S512x256 .f32) (b : Hop → Vec F S512x256 .f32) (i : S4096x256.Idx) :
    outFinal c g bo b i
      = ([6, 5, 4, 3, 2, 1, 0] : List (Fin 7)).foldr
          (fun r' acc => if (i 0).val / 512 = (c.val + 7 - r'.val) % 8 then b r' (ValueIdx.ix2 ⟨(i 0).val % 512, Nat.mod_lt _ (by decide)⟩ (i 1)) else acc)
          (if (i 0).val / 512 = c.val then bo (ValueIdx.ix2 ⟨(i 0).val % 512, Nat.mod_lt _ (by decide)⟩ (i 1)) else g i) := by
  unfold outFinal
  rw [write_row _ _ _ (k0_off3_eq c 6), write_row _ _ _ (k0_off3_eq c 5), write_row _ _ _ (k0_off3_eq c 4), write_row _ _ _ (k0_off3_eq c 3),
    write_row _ _ _ (k0_off3_eq c 2), write_row _ _ _ (k0_off3_eq c 1), write_row _ _ _ (k0_off3_eq c 0), write_row _ _ _ (k0_off2_eq c)]
  rfl

/-- The eight writes leave the result at outV. -/
theorem out_final (c : Dev nD) (g : Buf (Elt F) ((oM : Memref sig .tc .hbm S4096x256 .f32).view.loc (c : Thread nD τ)))
    (bo : Vec F S512x256 .f32) (b : Hop → Vec F S512x256 .f32) (ho : bo = ownBlk m c) (hb : ∀ r : Hop, b r = gotBlk m c r) :
    outFinal c g bo b = outV m c := by
  funext i
  rw [outFinal_apply]
  have hρ : (i 0).val / 512 < 8 := Nat.div_lt_of_lt_mul (i 0).isLt
  show _ = rowBlk m c ⟨(i 0).val / 512, hρ⟩ (ValueIdx.ix2 ⟨(i 0).val % 512, Nat.mod_lt _ (by decide)⟩ (i 1))
  unfold rowBlk
  have hall : ∀ r : Fin 7, r ∈ ([6, 5, 4, 3, 2, 1, 0] : List (Fin 7)) := by decide
  have hc : c.val < 8 := c.isLt
  by_cases hs : (⟨(i 0).val / 512, hρ⟩ : Dev nD) = c
  · have hv : (i 0).val / 512 = c.val := congrArg Fin.val hs
    have hn : ∀ r : Fin 7, ¬ ((i 0).val / 512 = (c.val + 7 - r.val) % 8) := fun r hr => by
      have := r.isLt
      omega
    rw [if_pos hs]
    refine (chain_neg (fun r' : Fin 7 => (i 0).val / 512 = (c.val + 7 - r'.val) % 8) (fun r' => b r' (ValueIdx.ix2 ⟨(i 0).val % 512, Nat.mod_lt _ (by decide)⟩ (i 1))) _ hn _).trans ?_
    rw [if_pos hv, ho]
  · have hsrc : src c (hopTo c ⟨(i 0).val / 512, hρ⟩) = ⟨(i 0).val / 512, hρ⟩ := src_hopTo c _ hs
    have hr : (i 0).val / 512 = (c.val + 7 - (hopTo c ⟨(i 0).val / 512, hρ⟩).val) % 8 := (congrArg Fin.val hsrc).symm
    have hu : ∀ r' : Fin 7, (i 0).val / 512 = (c.val + 7 - r'.val) % 8 → r' = hopTo c ⟨(i 0).val / 512, hρ⟩ := fun r' h' => by
      have e : src c r' = ⟨(i 0).val / 512, hρ⟩ := Fin.ext h'.symm
      rw [← e, hopTo_src]
    rw [if_neg hs]
    refine (chain_pos (fun r' : Fin 7 => (i 0).val / 512 = (c.val + 7 - r'.val) % 8) (fun r' => b r' (ValueIdx.ix2 ⟨(i 0).val % 512, Nat.mod_lt _ (by decide)⟩ (i 1))) _
      (hopTo c ⟨(i 0).val / 512, hρ⟩) hr hu _ (hall _)).trans ?_
    rw [hb]

/-- info: 'Cert.KernelIdeal.A2A.out_final' depends on axioms: [propext, Classical.choice, Quot.sound] -/
#guard_msgs in #print axioms out_final

end Cert.KernelIdeal.A2A

end
-- ==== Proof.SendFacts.lean ====
import proofs.«900533_g7700000000000534_dist_gemm_a2a_m4096_k4096_n2048_f32_relu_v7x_i8_1_alg».proof.Proof.SentVals
import proofs.«900533_g7700000000000534_dist_gemm_a2a_m4096_k4096_n2048_f32_relu_v7x_i8_1_alg».proof.Proof.WVals
import proofs.«900533_g7700000000000534_dist_gemm_a2a_m4096_k4096_n2048_f32_relu_v7x_i8_1_alg».proof.Proof.XVals

set_option maxRecDepth 16384

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ UU ℕ

/-! ## What a send slot holds once the block of a hop is stored -/

/-- The send slot of hop h, stored with the rounded block of rows x and column tile w, reads back as the block device c
    sends at hop h, once x is the device's rows and w the column tile of the hop's peer. -/
theorem sent_fact (m : (ℓ : Loc nD τ sig) → Buf (Elt F) ℓ) (c : Dev nD) (h : Hop)
    (f : Buf (Elt F) ((commM : Memref sig .tc .vmem S7x512x256 .bf16).view.loc (c : Thread nD τ)))
    (x : Vec F S512x4096 .f32) (w : Vec F S1x4096x256 .f32) (hx : x = xOf m c) (hw : w = wTile m c (peer c h)) :
    (commSlot h : Memref sig .tc .vmem S512x256 .bf16).view.read (Elt F)
        (View.write (Elt F) ((commM : Memref sig .tc .vmem S7x512x256 .bf16).access (slotRect h)) f (sentPay x w) Finset.univ)
      = sentBlk m c h := by
  subst hx; subst hw
  unfold sentBlk
  exact sent_read c h f _ _

/-- info: 'Cert.KernelIdeal.A2A.sent_fact' depends on axioms: [propext, Classical.choice, Quot.sound] -/
#guard_msgs in #print axioms sent_fact

end Cert.KernelIdeal.A2A

end
-- ==== Proof.OutJoin.lean ====
import proofs.«900533_g7700000000000534_dist_gemm_a2a_m4096_k4096_n2048_f32_relu_v7x_i8_1_alg».proof.Proof.OutVals
import proofs.«900533_g7700000000000534_dist_gemm_a2a_m4096_k4096_n2048_f32_relu_v7x_i8_1_alg».proof.Proof.Rejoin

set_option maxRecDepth 16384

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ UU ℕ

variable (m : (ℓ : Loc nD τ sig) → Buf (Elt F) ℓ)

/-! ## Row blocks of the windows, and the result's value there -/

/-- An index in the window of step r has row block (c + 7 - r) % 8; one in the own window has row block c. -/
theorem win_row (c : Dev nD) (r : Fin 7) (i : S4096x256.Idx)
    (hi : i ∈ ((Memref.whole main_v1 : Memref sig .tc .hbm S4096x256 .f32).slice (Rect.unit (s := S4096x256) (k0_off3 c (BitVec.ofNat 32 (1 + r.val))) S512x256.size (k0_off3_inb c r)) (fun _ => rfl) : Memref sig .tc .hbm S512x256 .f32).view.set) : (i 0).val / 512 = (c.val + 7 - r.val) % 8 := by
  rw [owin_set, Rect.mem_set_unit, k0_off3_eq c r] at hi
  have h0 := hi (0 : Fin 2)
  change 512 * ((c.val + 7 - r.val) % 8) ≤ (i 0).val ∧ (i 0).val < 512 * ((c.val + 7 - r.val) % 8) + 512 at h0
  omega
theorem own_row (c : Dev nD) (i : S4096x256.Idx)
    (hi : i ∈ ((Memref.whole main_v1 : Memref sig .tc .hbm S4096x256 .f32).slice (Rect.unit (s := S4096x256) (k0_off2 c) S512x256.size (k0_off2_inb c)) (fun _ => rfl) : Memref sig .tc .hbm S512x256 .f32).view.set) : (i 0).val / 512 = c.val := by
  rw [oown_set, Rect.mem_set_unit, k0_off2_eq c] at hi
  have h0 := hi (0 : Fin 2)
  change 512 * c.val ≤ (i 0).val ∧ (i 0).val < 512 * c.val + 512 at h0
  omega

/-- The result's value at an index of row block (c + 7 - r) % 8, and at one of row block c. -/
theorem outV_at_win (c : Dev nD) (r : Fin 7) (i : S4096x256.Idx) (hρ : (i 0).val / 512 = (c.val + 7 - r.val) % 8) :
    outV m c i = gotBlk m c r (ValueIdx.ix2 ⟨(i 0).val % 512, Nat.mod_lt _ (by decide)⟩ (i 1)) := by
  have hlt : (i 0).val / 512 < 8 := Nat.div_lt_of_lt_mul (i 0).isLt
  show rowBlk m c ⟨(i 0).val / 512, hlt⟩ (ValueIdx.ix2 ⟨(i 0).val % 512, Nat.mod_lt _ (by decide)⟩ (i 1)) = _
  have hs : (⟨(i 0).val / 512, hlt⟩ : Dev nD) = src c r := Fin.ext hρ
  rw [hs]
  unfold rowBlk
  rw [if_neg (src_ne c r), hopTo_src]
theorem outV_at_own (c : Dev nD) (i : S4096x256.Idx) (hρ : (i 0).val / 512 = c.val) :
    outV m c i = ownBlk m c (ValueIdx.ix2 ⟨(i 0).val % 512, Nat.mod_lt _ (by decide)⟩ (i 1)) := by
  have hlt : (i 0).val / 512 < 8 := Nat.div_lt_of_lt_mul (i 0).isLt
  show rowBlk m c ⟨(i 0).val / 512, hlt⟩ (ValueIdx.ix2 ⟨(i 0).val % 512, Nat.mod_lt _ (by decide)⟩ (i 1)) = _
  have hs : (⟨(i 0).val / 512, hlt⟩ : Dev nD) = c := Fin.ext hρ
  rw [hs]
  unfold rowBlk
  rw [if_pos rfl]

/-- Different steps, different row blocks. -/
theorem q_inj (c : Dev nD) (r r' : Fin 7) (h : (c.val + 7 - r.val) % 8 = (c.val + 7 - r'.val) % 8) : r = r' := by
  have hc : c.val < 8 := c.isLt
  have h1 := r.isLt
  have h2 := r'.isLt
  apply Fin.ext
  omega

theorem five_or_six : ∀ r : Fin 7, r ≠ 0 → r ≠ 1 → r ≠ 2 → r ≠ 3 → r ≠ 4 → r = 5 ∨ r = 6 := by decide

/-! ## The seven pieces agree with the result's value on their own elements -/

/-- Inside the own window, the array with the own block written whole through it holds the result's value. -/
theorem own_fact (c : Dev nD) (g : Buf (Elt F) ((oM : Memref sig .tc .hbm S4096x256 .f32).view.loc (c : Thread nD τ)))
    (bo : Vec F S512x256 .f32) (ho : bo = ownBlk m c) :
    ∀ i ∈ ((Memref.whole main_v1 : Memref sig .tc .hbm S4096x256 .f32).slice (Rect.unit (s := S4096x256) (k0_off2 c) S512x256.size (k0_off2_inb c)) (fun _ => rfl) : Memref sig .tc .hbm S512x256 .f32).view.set,
      ((Memref.whole main_v1 : Memref sig .tc .hbm S4096x256 .f32).slice (Rect.unit (s := S4096x256) (k0_off2 c) S512x256.size (k0_off2_inb c)) (fun _ => rfl) : Memref sig .tc .hbm S512x256 .f32).view.write (Elt F) g bo Finset.univ i = outV m c i := by
  intro i hi
  have hρ := own_row c i hi
  rw [write_row _ _ _ (k0_off2_eq c), if_pos hρ, outV_at_own m c i hρ, ho]

/-- Inside the window of step r, the array with that step's block written whole through it holds the result's value,
    whatever lay underneath. -/
theorem win_fact (c : Dev nD) (r : Fin 7) (g : Buf (Elt F) ((oM : Memref sig .tc .hbm S4096x256 .f32).view.loc (c : Thread nD τ)))
    (br : Vec F S512x256 .f32) (hb : br = gotBlk m c ⟨r.val, r.isLt⟩) :
    ∀ i ∈ ((Memref.whole main_v1 : Memref sig .tc .hbm S4096x256 .f32).slice (Rect.unit (s := S4096x256) (k0_off3 c (BitVec.ofNat 32 (1 + r.val))) S512x256.size (k0_off3_inb c r)) (fun _ => rfl) : Memref sig .tc .hbm S512x256 .f32).view.set,
      ((Memref.whole main_v1 : Memref sig .tc .hbm S4096x256 .f32).slice (Rect.unit (s := S4096x256) (k0_off3 c (BitVec.ofNat 32 (1 + r.val))) S512x256.size (k0_off3_inb c r)) (fun _ => rfl) : Memref sig .tc .hbm S512x256 .f32).view.write (Elt F) g br Finset.univ i = outV m c i := by
  intro i hi
  have hρ := win_row c r i hi
  rw [write_row _ _ _ (k0_off3_eq c r), if_pos hρ, outV_at_win m c r i hρ, hb]

/-- What is left of the array once the own window and the windows of steps 0 to 4 are taken out lies in the windows of
    steps 5 and 6; with both their blocks written whole, step 5 first, it holds the result's value there. -/
theorem rest_fact (c : Dev nD) (g : Buf (Elt F) ((oM : Memref sig .tc .hbm S4096x256 .f32).view.loc (c : Thread nD τ)))
    (b5 b6 : Vec F S512x256 .f32) (h5 : b5 = gotBlk m c 5) (h6 : b6 = gotBlk m c 6) :
    ∀ i ∈ (((((((oM : Memref sig .tc .hbm S4096x256 .f32).view.set \ ((Memref.whole main_v1 : Memref sig .tc .hbm S4096x256 .f32).slice (Rect.unit (s := S4096x256) (k0_off2 c) S512x256.size (k0_off2_inb c)) (fun _ => rfl)).view.set) \ ((Memref.whole main_v1 : Memref sig .tc .hbm S4096x256 .f32).slice (Rect.unit (s := S4096x256) (k0_off3 c 1#32) S512x256.size (k0_off3_inb c 0)) (fun _ => rfl)).view.set) \ ((Memref.whole main_v1 : Memref sig .tc .hbm S4096x256 .f32).slice (Rect.unit (s := S4096x256) (k0_off3 c 2#32) S512x256.size (k0_off3_inb c 1)) (fun _ => rfl)).view.set) \ ((Memref.whole main_v1 : Memref sig .tc .hbm S4096x256 .f32).slice (Rect.unit (s := S4096x256) (k0_off3 c 3#32) S512x256.size (k0_off3_inb c 2)) (fun _ => rfl)).view.set) \ ((Memref.whole main_v1 : Memref sig .tc .hbm S4096x256 .f32).slice (Rect.unit (s := S4096x256) (k0_off3 c 4#32) S512x256.size (k0_off3_inb c 3)) (fun _ => rfl)).view.set) \ ((Memref.whole main_v1 : Memref sig .tc .hbm S4096x256 .f32).slice (Rect.unit (s := S4096x256) (k0_off3 c 5#32) S512x256.size (k0_off3_inb c 4)) (fun _ => rfl)).view.set),
      ((Memref.whole main_v1 : Memref sig .tc .hbm S4096x256 .f32).slice (Rect.unit (s := S4096x256) (k0_off3 c (BitVec.ofNat 32 (1 + (6 : Fin 7).val))) S512x256.size (k0_off3_inb c 6)) (fun _ => rfl) : Memref sig .tc .hbm S512x256 .f32).view.write (Elt F)
        (((Memref.whole main_v1 : Memref sig .tc .hbm S4096x256 .f32).slice (Rect.unit (s := S4096x256) (k0_off3 c (BitVec.ofNat 32 (1 + (5 : Fin 7).val))) S512x256.size (k0_off3_inb c 5)) (fun _ => rfl) : Memref sig .tc .hbm S512x256 .f32).view.write (Elt F) g b5 Finset.univ) b6 Finset.univ i = outV m c i := by
  intro i hi
  obtain ⟨hi4, hn4⟩ := Finset.mem_sdiff.mp hi
  obtain ⟨hi3, hn3⟩ := Finset.mem_sdiff.mp hi4
  obtain ⟨hi2, hn2⟩ := Finset.mem_sdiff.mp hi3
  obtain ⟨hi1, hn1⟩ := Finset.mem_sdiff.mp hi2
  obtain ⟨hi0, hn0⟩ := Finset.mem_sdiff.mp hi1
  obtain ⟨-, hnown⟩ := Finset.mem_sdiff.mp hi0
  rcases owin_mem c i with hown | ⟨r, hr⟩
  · exact absurd hown hnown
  · have e0 : r ≠ 0 := fun e => hn0 (by subst e; exact hr)
    have e1 : r ≠ 1 := fun e => hn1 (by subst e; exact hr)
    have e2 : r ≠ 2 := fun e => hn2 (by subst e; exact hr)
    have e3 : r ≠ 3 := fun e => hn3 (by subst e; exact hr)
    have e4 : r ≠ 4 := fun e => hn4 (by subst e; exact hr)
    rcases five_or_six r e0 e1 e2 e3 e4 with rfl | rfl
    · have hρ := win_row c 5 i hr
      have hne : ¬ ((i 0).val / 512 = (c.val + 7 - (6 : Fin 7).val) % 8) := fun e =>
        absurd (q_inj c 5 6 (hρ.symm.trans e)) (by decide)
      rw [write_row _ _ _ (k0_off3_eq c 6), if_neg hne, write_row _ _ _ (k0_off3_eq c 5), if_pos hρ, outV_at_win m c 5 i hρ, h5]
    · have hρ := win_row c 6 i hr
      rw [write_row _ _ _ (k0_off3_eq c 6), if_pos hρ, outV_at_win m c 6 i hρ, h6]

/-- info: 'Cert.KernelIdeal.A2A.own_fact' depends on axioms: [propext, Classical.choice, Quot.sound] -/
#guard_msgs in #print axioms own_fact
/-- info: 'Cert.KernelIdeal.A2A.win_fact' depends on axioms: [propext, Classical.choice, Quot.sound] -/
#guard_msgs in #print axioms win_fact
/-- info: 'Cert.KernelIdeal.A2A.rest_fact' depends on axioms: [propext, Classical.choice, Quot.sound] -/
#guard_msgs in #print axioms rest_fact

end Cert.KernelIdeal.A2A

end
-- ==== Proof.OutBlocks.lean ====
import proofs.«900533_g7700000000000534_dist_gemm_a2a_m4096_k4096_n2048_f32_relu_v7x_i8_1_alg».proof.Proof.SentVals
import proofs.«900533_g7700000000000534_dist_gemm_a2a_m4096_k4096_n2048_f32_relu_v7x_i8_1_alg».proof.Proof.WVals
import proofs.«900533_g7700000000000534_dist_gemm_a2a_m4096_k4096_n2048_f32_relu_v7x_i8_1_alg».proof.Proof.XVals

set_option maxRecDepth 16384

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ UU ℕ

/-! ## What the result copies read out of the staging buffer -/

/-- Slot j of the staging buffer, read through its 512 by 256 view right after a 1 by 512 by 256 vector was stored there,
    whatever was stored before: that vector, cast. -/
theorem stage_read_cons (c : Dev nD) (j : Fin 8) (fst : Buf (Elt F) ((stM : Memref sig .tc .vmem S8x512x256 .f32).view.loc (c : Thread nD τ))) (v : Vec F S1x512x256 .f32) (L : List (View.Piece (Elt F) S8x512x256 .f32)) :
    ReadAs.same.apply (View.read (Elt F) (stageSlot j : Memref sig .tc .vmem S512x256 .f32).view
      ((stM : Memref sig .tc .vmem S8x512x256 .f32).view.writes (Elt F) fst (⟨stageRect j, v⟩ :: L)))
      = shapeCast S512x256 v shapeCasts_S1x512x256_S512x256 :=
  stage_store_read c j ((stM : Memref sig .tc .vmem S8x512x256 .f32).view.writes (Elt F) fst L) v

/-- A received block: loaded from slot h of the receive buffer, widened by a payload that casts, widens and casts back,
    stored into slot j of the staging buffer and read from there, it is the block of hop h. -/
theorem got_dma (m : (ℓ : Loc nD τ sig) → Buf (Elt F) ℓ) (c : Dev nD) (h : Hop) (j : Fin 8)
    (pay : Vec F S1x512x256 .bf16 → FVec F S1x512x256 .f32)
    (hpay : ∀ v : Vec F S512x256 .bf16, pay (shapeCast S1x512x256 v shapeCasts_S512x256_S1x512x256) = shapeCast S1x512x256 (extf .f32 v bitsLt_bf16_f32) shapeCasts_S512x256_S1x512x256)
    (u : Vec F S1x512x256 .bf16)
    (hu : u = (recvM : Memref sig .tc .vmem S7x512x256 .bf16).view.readAt (Elt F) (slotRect h).toLoadRect (landedV m c h))
    (fst : Buf (Elt F) ((stM : Memref sig .tc .vmem S8x512x256 .f32).view.loc (c : Thread nD τ))) (L : List (View.Piece (Elt F) S8x512x256 .f32)) :
    ReadAs.same.apply (View.read (Elt F) (stageSlot j : Memref sig .tc .vmem S512x256 .f32).view
      ((stM : Memref sig .tc .vmem S8x512x256 .f32).view.writes (Elt F) fst (⟨stageRect j, pay u⟩ :: L)))
      = gotBlk m c h := by
  rw [stage_read_cons, hu, recv_load_landed, hpay, shapeCast_back]
  rfl

theorem got_dma0 (m : (ℓ : Loc nD τ sig) → Buf (Elt F) ℓ) (c : Dev nD) (u : Vec F S1x512x256 .bf16)
    (hu : u = (recvM : Memref sig .tc .vmem S7x512x256 .bf16).view.readAt (Elt F) (slotRect 0).toLoadRect (landedV m c 0))
    (fst : Buf (Elt F) ((stM : Memref sig .tc .vmem S8x512x256 .f32).view.loc (c : Thread nD τ))) (L : List (View.Piece (Elt F) S8x512x256 .f32)) :
    ReadAs.same.apply (View.read (Elt F) (((Memref.whole cc0_scratch4 : Memref sig .tc .vmem S8x512x256 .f32).slice (Rect.unit (s := S8x512x256) ![0, 0, 0] S1x512x256.size inb_S8x512x256_S1x512x256_0_0_0) (fun _ => rfl)).squeeze S512x256 squeezes_S1x512x256_S512x256).view
      ((stM : Memref sig .tc .vmem S8x512x256 .f32).view.writes (Elt F) fst (⟨Rect.unit (s := S8x512x256) ![0, 0, 0] S1x512x256.size inb_S8x512x256_S1x512x256_0_0_0, k0_pay10 u⟩ :: L)))
      = gotBlk m c 0 :=
  got_dma m c 0 0 k0_pay10 got_hop0 u hu fst L

theorem got_dma1 (m : (ℓ : Loc nD τ sig) → Buf (Elt F) ℓ) (c : Dev nD) (u : Vec F S1x512x256 .bf16)
    (hu : u = (recvM : Memref sig .tc .vmem S7x512x256 .bf16).view.readAt (Elt F) (slotRect 1).toLoadRect (landedV m c 1))
    (fst : Buf (Elt F) ((stM : Memref sig .tc .vmem S8x512x256 .f32).view.loc (c : Thread nD τ))) (L : List (View.Piece (Elt F) S8x512x256 .f32)) :
    ReadAs.same.apply (View.read (Elt F) (((Memref.whole cc0_scratch4 : Memref sig .tc .vmem S8x512x256 .f32).slice (Rect.unit (s := S8x512x256) ![1, 0, 0] S1x512x256.size inb_S8x512x256_S1x512x256_1_0_0) (fun _ => rfl)).squeeze S512x256 squeezes_S1x512x256_S512x256).view
      ((stM : Memref sig .tc .vmem S8x512x256 .f32).view.writes (Elt F) fst (⟨Rect.unit (s := S8x512x256) ![1, 0, 0] S1x512x256.size inb_S8x512x256_S1x512x256_1_0_0, k0_pay11 u⟩ :: L)))
      = gotBlk m c 1 :=
  got_dma m c 1 1 k0_pay11 got_hop1 u hu fst L

theorem got_dma2 (m : (ℓ : Loc nD τ sig) → Buf (Elt F) ℓ) (c : Dev nD) (u : Vec F S1x512x256 .bf16)
    (hu : u = (recvM : Memref sig .tc .vmem S7x512x256 .bf16).view.readAt (Elt F) (slotRect 2).toLoadRect (landedV m c 2))
    (fst : Buf (Elt F) ((stM : Memref sig .tc .vmem S8x512x256 .f32).view.loc (c : Thread nD τ))) (L : List (View.Piece (Elt F) S8x512x256 .f32)) :
    ReadAs.same.apply (View.read (Elt F) (((Memref.whole cc0_scratch4 : Memref sig .tc .vmem S8x512x256 .f32).slice (Rect.unit (s := S8x512x256) ![2, 0, 0] S1x512x256.size inb_S8x512x256_S1x512x256_2_0_0) (fun _ => rfl)).squeeze S512x256 squeezes_S1x512x256_S512x256).view
      ((stM : Memref sig .tc .vmem S8x512x256 .f32).view.writes (Elt F) fst (⟨Rect.unit (s := S8x512x256) ![2, 0, 0] S1x512x256.size inb_S8x512x256_S1x512x256_2_0_0, k0_pay12 u⟩ :: L)))
      = gotBlk m c 2 :=
  got_dma m c 2 2 k0_pay12 got_hop2 u hu fst L

theorem got_dma3 (m : (ℓ : Loc nD τ sig) → Buf (Elt F) ℓ) (c : Dev nD) (u : Vec F S1x512x256 .bf16)
    (hu : u = (recvM : Memref sig .tc .vmem S7x512x256 .bf16).view.readAt (Elt F) (slotRect 3).toLoadRect (landedV m c 3))
    (fst : Buf (Elt F) ((stM : Memref sig .tc .vmem S8x512x256 .f32).view.loc (c : Thread nD τ))) (L : List (View.Piece (Elt F) S8x512x256 .f32)) :
    ReadAs.same.apply (View.read (Elt F) (((Memref.whole cc0_scratch4 : Memref sig .tc .vmem S8x512x256 .f32).slice (Rect.unit (s := S8x512x256) ![3, 0, 0] S1x512x256.size inb_S8x512x256_S1x512x256_3_0_0) (fun _ => rfl)).squeeze S512x256 squeezes_S1x512x256_S512x256).view
      ((stM : Memref sig .tc .vmem S8x512x256 .f32).view.writes (Elt F) fst (⟨Rect.unit (s := S8x512x256) ![3, 0, 0] S1x512x256.size inb_S8x512x256_S1x512x256_3_0_0, k0_pay13 u⟩ :: L)))
      = gotBlk m c 3 :=
  got_dma m c 3 3 k0_pay13 got_hop3 u hu fst L

theorem got_dma4 (m : (ℓ : Loc nD τ sig) → Buf (Elt F) ℓ) (c : Dev nD) (u : Vec F S1x512x256 .bf16)
    (hu : u = (recvM : Memref sig .tc .vmem S7x512x256 .bf16).view.readAt (Elt F) (slotRect 4).toLoadRect (landedV m c 4))
    (fst : Buf (Elt F) ((stM : Memref sig .tc .vmem S8x512x256 .f32).view.loc (c : Thread nD τ))) (L : List (View.Piece (Elt F) S8x512x256 .f32)) :
    ReadAs.same.apply (View.read (Elt F) (((Memref.whole cc0_scratch4 : Memref sig .tc .vmem S8x512x256 .f32).slice (Rect.unit (s := S8x512x256) ![4, 0, 0] S1x512x256.size inb_S8x512x256_S1x512x256_4_0_0) (fun _ => rfl)).squeeze S512x256 squeezes_S1x512x256_S512x256).view
      ((stM : Memref sig .tc .vmem S8x512x256 .f32).view.writes (Elt F) fst (⟨Rect.unit (s := S8x512x256) ![4, 0, 0] S1x512x256.size inb_S8x512x256_S1x512x256_4_0_0, k0_pay14 u⟩ :: L)))
      = gotBlk m c 4 :=
  got_dma m c 4 4 k0_pay14 got_hop4 u hu fst L

theorem got_dma5 (m : (ℓ : Loc nD τ sig) → Buf (Elt F) ℓ) (c : Dev nD) (u : Vec F S1x512x256 .bf16)
    (hu : u = (recvM : Memref sig .tc .vmem S7x512x256 .bf16).view.readAt (Elt F) (slotRect 5).toLoadRect (landedV m c 5))
    (fst : Buf (Elt F) ((stM : Memref sig .tc .vmem S8x512x256 .f32).view.loc (c : Thread nD τ))) (L : List (View.Piece (Elt F) S8x512x256 .f32)) :
    ReadAs.same.apply (View.read (Elt F) (((Memref.whole cc0_scratch4 : Memref sig .tc .vmem S8x512x256 .f32).slice (Rect.unit (s := S8x512x256) ![5, 0, 0] S1x512x256.size inb_S8x512x256_S1x512x256_5_0_0) (fun _ => rfl)).squeeze S512x256 squeezes_S1x512x256_S512x256).view
      ((stM : Memref sig .tc .vmem S8x512x256 .f32).view.writes (Elt F) fst (⟨Rect.unit (s := S8x512x256) ![5, 0, 0] S1x512x256.size inb_S8x512x256_S1x512x256_5_0_0, k0_pay15 u⟩ :: L)))
      = gotBlk m c 5 :=
  got_dma m c 5 5 k0_pay15 got_hop5 u hu fst L

theorem got_dma6 (m : (ℓ : Loc nD τ sig) → Buf (Elt F) ℓ) (c : Dev nD) (u : Vec F S1x512x256 .bf16)
    (hu : u = (recvM : Memref sig .tc .vmem S7x512x256 .bf16).view.readAt (Elt F) (slotRect 6).toLoadRect (landedV m c 6))
    (fst : Buf (Elt F) ((stM : Memref sig .tc .vmem S8x512x256 .f32).view.loc (c : Thread nD τ))) (L : List (View.Piece (Elt F) S8x512x256 .f32)) :
    ReadAs.same.apply (View.read (Elt F) (((Memref.whole cc0_scratch4 : Memref sig .tc .vmem S8x512x256 .f32).slice (Rect.unit (s := S8x512x256) ![6, 0, 0] S1x512x256.size inb_S8x512x256_S1x512x256_6_0_0) (fun _ => rfl)).squeeze S512x256 squeezes_S1x512x256_S512x256).view
      ((stM : Memref sig .tc .vmem S8x512x256 .f32).view.writes (Elt F) fst (⟨Rect.unit (s := S8x512x256) ![6, 0, 0] S1x512x256.size inb_S8x512x256_S1x512x256_6_0_0, k0_pay16 u⟩ :: L)))
      = gotBlk m c 6 :=
  got_dma m c 6 6 k0_pay16 got_hop6 u hu fst L

/-- The own block: computed from the loaded rows and the loaded own tile, stored into slot 7 and read from there. -/
theorem own_dma (m : (ℓ : Loc nD τ sig) → Buf (Elt F) ℓ) (c : Dev nD) (x : Vec F S512x4096 .f32) (hx : x = xOf m c)
    (w : Vec F S1x4096x256 .f32) (hw : w = wTile m c c)
    (fst : Buf (Elt F) ((stM : Memref sig .tc .vmem S8x512x256 .f32).view.loc (c : Thread nD τ))) (L : List (View.Piece (Elt F) S8x512x256 .f32)) :
    ReadAs.same.apply (View.read (Elt F) (((Memref.whole cc0_scratch4 : Memref sig .tc .vmem S8x512x256 .f32).slice (Rect.unit (s := S8x512x256) ![7, 0, 0] S1x512x256.size inb_S8x512x256_S1x512x256_7_0_0) (fun _ => rfl)).squeeze S512x256 squeezes_S1x512x256_S512x256).view
      ((stM : Memref sig .tc .vmem S8x512x256 .f32).view.writes (Elt F) fst (⟨Rect.unit (s := S8x512x256) ![7, 0, 0] S1x512x256.size inb_S8x512x256_S1x512x256_7_0_0, k0_pay9 x w⟩ :: L)))
      = ownBlk m c := by
  refine (stage_read_cons c 7 fst (k0_pay9 x w) L).trans ?_
  rw [own_pay, shapeCast_back, hx, hw]
  rfl

/-- info: 'Cert.KernelIdeal.A2A.got_dma0' depends on axioms: [propext, Classical.choice, Quot.sound] -/
#guard_msgs in #print axioms got_dma0
/-- info: 'Cert.KernelIdeal.A2A.got_dma6' depends on axioms: [propext, Classical.choice, Quot.sound] -/
#guard_msgs in #print axioms got_dma6
/-- info: 'Cert.KernelIdeal.A2A.own_dma' depends on axioms: [propext, Classical.choice, Quot.sound] -/
#guard_msgs in #print axioms own_dma

end Cert.KernelIdeal.A2A

end
-- ==== Proof.Body.lean ====
/-
  One device's body of the all-to-all matrix product, at a symbolic device c of the ring of eight: from the body's
  precondition (its ghost state, what it owes, its buffers) to its postcondition (the arguments as they were, the
  result array at outV, every own semaphore at zero, nothing owed).

  The order of events on device c. It signals every other device's barrier cell, each signal handing over the receive
  slot that device will write. It copies its rows of x in four chunks and the column tiles of w, four slots deep. For
  each hop h it multiplies its rows by the tile of peer c h, takes the positive part, rounds to bf16 into send slot h,
  and (after the barrier round, which hands it every peer's receive slot) sends that slot into slot h of peer c h's
  receive buffer. Its own block goes to rows 512 c of the result. Each received slot h, from src c h, is widened to
  f32 and copied to rows 512 (src c h). At the end the fourteen send and receive cells close and every window rejoins
  its array. The values: what is sent at hop h is sentBlk m c h, so what lands in slot h is sentBlk m (src c h) h, and
  the result's row block s is ownBlk m c for s = c and gotBlk m c (hopTo c s) otherwise, i.e. outV m c.
-/
import proofs.«900533_g7700000000000534_dist_gemm_a2a_m4096_k4096_n2048_f32_relu_v7x_i8_1_alg».proof.Proof.Rules
import proofs.«900533_g7700000000000534_dist_gemm_a2a_m4096_k4096_n2048_f32_relu_v7x_i8_1_alg».proof.Proof.Slots
import proofs.«900533_g7700000000000534_dist_gemm_a2a_m4096_k4096_n2048_f32_relu_v7x_i8_1_alg».proof.Proof.Windows
import proofs.«900533_g7700000000000534_dist_gemm_a2a_m4096_k4096_n2048_f32_relu_v7x_i8_1_alg».proof.Proof.SlotLoad
import proofs.«900533_g7700000000000534_dist_gemm_a2a_m4096_k4096_n2048_f32_relu_v7x_i8_1_alg».proof.Proof.Sems
import proofs.«900533_g7700000000000534_dist_gemm_a2a_m4096_k4096_n2048_f32_relu_v7x_i8_1_alg».proof.Proof.Rejoin
import proofs.«900533_g7700000000000534_dist_gemm_a2a_m4096_k4096_n2048_f32_relu_v7x_i8_1_alg».proof.Proof.SentVals
import proofs.«900533_g7700000000000534_dist_gemm_a2a_m4096_k4096_n2048_f32_relu_v7x_i8_1_alg».proof.Proof.WVals
import proofs.«900533_g7700000000000534_dist_gemm_a2a_m4096_k4096_n2048_f32_relu_v7x_i8_1_alg».proof.Proof.XVals
import proofs.«900533_g7700000000000534_dist_gemm_a2a_m4096_k4096_n2048_f32_relu_v7x_i8_1_alg».proof.Proof.OutVals
import proofs.«900533_g7700000000000534_dist_gemm_a2a_m4096_k4096_n2048_f32_relu_v7x_i8_1_alg».proof.Proof.SendFacts
import proofs.«900533_g7700000000000534_dist_gemm_a2a_m4096_k4096_n2048_f32_relu_v7x_i8_1_alg».proof.Proof.OutJoin
import proofs.«900533_g7700000000000534_dist_gemm_a2a_m4096_k4096_n2048_f32_relu_v7x_i8_1_alg».proof.Proof.OutBlocks
import proofs.«900533_g7700000000000534_dist_gemm_a2a_m4096_k4096_n2048_f32_relu_v7x_i8_1_alg».proof.Proof.Gen.KernelIdeal.Points

set_option maxRecDepth 16384

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ UU ℕ

variable (m : (ℓ : Loc nD τ sig) → Buf (Elt F) ℓ) (ρ : Dev nD → PrngReg)

open Idealize.ShloMosaic.Tactic

theorem bigSep_fin16' (Φ : Fin 16 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ

attribute [local sl_rounds] duties_bar duties_send duties_recv amount_bar amount_send amount_recv expect_bar expect_send expect_recv payload_send payload_recv

/-! ## The printed device chains are the ring's peers -/
theorem dev1_eq (c : Dev nD) : (⟨k0_dev1 c, k0_dev1_lt c⟩ : Dev nD) = peer c 0 := Fin.ext ((k0_dev1_eq c).trans (by simp [peer]))
theorem dev2_eq (c : Dev nD) : (⟨k0_dev2 c, k0_dev2_lt c⟩ : Dev nD) = peer c 1 := Fin.ext ((k0_dev2_eq c).trans (by simp [peer]))
theorem dev3_eq (c : Dev nD) : (⟨k0_dev3 c, k0_dev3_lt c⟩ : Dev nD) = peer c 2 := Fin.ext ((k0_dev3_eq c).trans (by simp [peer]))
theorem dev4_eq (c : Dev nD) : (⟨k0_dev4 c, k0_dev4_lt c⟩ : Dev nD) = peer c 3 := Fin.ext ((k0_dev4_eq c).trans (by simp [peer]))
theorem dev5_eq (c : Dev nD) : (⟨k0_dev5 c, k0_dev5_lt c⟩ : Dev nD) = peer c 4 := Fin.ext ((k0_dev5_eq c).trans (by simp [peer]))
theorem dev6_eq (c : Dev nD) : (⟨k0_dev6 c, k0_dev6_lt c⟩ : Dev nD) = peer c 5 := Fin.ext ((k0_dev6_eq c).trans (by simp [peer]))
theorem dev7_eq (c : Dev nD) : (⟨k0_dev7 c, k0_dev7_lt c⟩ : Dev nD) = peer c 6 := Fin.ext ((k0_dev7_eq c).trans (by simp [peer]))
theorem dev8_eq (c : Dev nD) : (⟨k0_dev8 c, k0_dev8_lt c⟩ : Dev nD) = peer c 0 := Fin.ext ((k0_dev8_eq c).trans (by simp [peer]))
theorem dev9_eq (c : Dev nD) : (⟨k0_dev9 c, k0_dev9_lt c⟩ : Dev nD) = peer c 1 := Fin.ext ((k0_dev9_eq c).trans (by simp [peer]))
theorem dev10_eq (c : Dev nD) : (⟨k0_dev10 c, k0_dev10_lt c⟩ : Dev nD) = peer c 2 := Fin.ext ((k0_dev10_eq c).trans (by simp [peer]))
theorem dev11_eq (c : Dev nD) : (⟨k0_dev11 c, k0_dev11_lt c⟩ : Dev nD) = peer c 3 := Fin.ext ((k0_dev11_eq c).trans (by simp [peer]))
theorem dev12_eq (c : Dev nD) : (⟨k0_dev12 c, k0_dev12_lt c⟩ : Dev nD) = peer c 4 := Fin.ext ((k0_dev12_eq c).trans (by simp [peer]))
theorem dev13_eq (c : Dev nD) : (⟨k0_dev13 c, k0_dev13_lt c⟩ : Dev nD) = peer c 5 := Fin.ext ((k0_dev13_eq c).trans (by simp [peer]))
theorem dev14_eq (c : Dev nD) : (⟨k0_dev14 c, k0_dev14_lt c⟩ : Dev nD) = peer c 6 := Fin.ext ((k0_dev14_eq c).trans (by simp [peer]))
attribute [local sl_canon] dev1_eq dev2_eq dev3_eq dev4_eq dev5_eq dev6_eq dev7_eq dev8_eq dev9_eq dev10_eq dev11_eq dev12_eq dev13_eq dev14_eq

/-! ## What is owed after the signals is receive credits of peers only: waits below them are allowed -/
def OnlyRecv (c : Dev nD) (O : CellTallies nD τ sig Unit) : Prop := ∀ g u, 0 < O g u → ∃ h : Hop, g = recvCell (peer c h) h
theorem onlyRecv_tally (c : Dev nD) (h : Hop) : OnlyRecv c (tallyAt (recvCell (peer c h) h) () N) := fun g u hp => ⟨h, tallyAt_pos hp⟩
theorem onlyRecv_add {c : Dev nD} {A B : CellTallies nD τ sig Unit} (ha : OnlyRecv c A) (hb : OnlyRecv c B) : OnlyRecv c (A + B) := fun g u hp => by
  rw [Pi.add_apply, Finsupp.add_apply] at hp
  rcases (by omega : 0 < A g u ∨ 0 < B g u) with h | h
  · exact ha g u h
  · exact hb g u h
theorem not_isRecv_of_val (c : Dev nD) (q : DmaSem sig) (hq : q.val < 15 ∨ 22 ≤ q.val) : ¬ IsRecv (((c : Thread nD τ), SemLoc.dma q) : GSem nD τ sig) := by
  rintro ⟨-, h, hh⟩
  have h1 : q = recvS h := by injection hh
  have h2 : q.val = 15 + h.val := by rw [h1]; rfl
  have := h.isLt
  omega
theorem mayWait_loc (c : Dev nD) (q : DmaSem sig) (hq : q.val < 15 ∨ 22 ≤ q.val) (O : CellTallies nD τ sig Unit) (hO : OnlyRecv c O) :
    (levAts L lv : sProp 𝕄) ⊢ MayWait (c : Thread nD τ) (.dma q) () O :=
  mayWait_local c q (not_isRecv_of_val c q hq) O (fun g u hp => Or.inr (hO g u hp))

/-- The seven payloads of a device's barrier round, each the receive slot of the peer it will write and that peer's
    receive cell at round 0. -/
theorem bar_payloads (c : Dev nD) : bigSep Finset.univ (fun d : Hop => (sched (F := F) m).payload (barCell c) 0 d)
    = iprop(((∃ f, ((recvSlot 6 : Memref sig .tc .vmem S512x256 .bf16).view.loc (peer c 6 : Thread nD τ) ↦[(recvSlot 6 : Memref sig .tc .vmem S512x256 .bf16).view.set]{fullShare} f)) ∗ reached ER (recvCell (peer c 6) 6) 0) ∗ ((∃ f, ((recvSlot 5 : Memref sig .tc .vmem S512x256 .bf16).view.loc (peer c 5 : Thread nD τ) ↦[(recvSlot 5 : Memref sig .tc .vmem S512x256 .bf16).view.set]{fullShare} f)) ∗ reached ER (recvCell (peer c 5) 5) 0) ∗ ((∃ f, ((recvSlot 4 : Memref sig .tc .vmem S512x256 .bf16).view.loc (peer c 4 : Thread nD τ) ↦[(recvSlot 4 : Memref sig .tc .vmem S512x256 .bf16).view.set]{fullShare} f)) ∗ reached ER (recvCell (peer c 4) 4) 0) ∗ ((∃ f, ((recvSlot 3 : Memref sig .tc .vmem S512x256 .bf16).view.loc (peer c 3 : Thread nD τ) ↦[(recvSlot 3 : Memref sig .tc .vmem S512x256 .bf16).view.set]{fullShare} f)) ∗ reached ER (recvCell (peer c 3) 3) 0) ∗ ((∃ f, ((recvSlot 2 : Memref sig .tc .vmem S512x256 .bf16).view.loc (peer c 2 : Thread nD τ) ↦[(recvSlot 2 : Memref sig .tc .vmem S512x256 .bf16).view.set]{fullShare} f)) ∗ reached ER (recvCell (peer c 2) 2) 0) ∗ ((∃ f, ((recvSlot 1 : Memref sig .tc .vmem S512x256 .bf16).view.loc (peer c 1 : Thread nD τ) ↦[(recvSlot 1 : Memref sig .tc .vmem S512x256 .bf16).view.set]{fullShare} f)) ∗ reached ER (recvCell (peer c 1) 1) 0) ∗ ((∃ f, ((recvSlot 0 : Memref sig .tc .vmem S512x256 .bf16).view.loc (peer c 0 : Thread nD τ) ↦[(recvSlot 0 : Memref sig .tc .vmem S512x256 .bf16).view.set]{fullShare} f)) ∗ reached ER (recvCell (peer c 0) 0) 0)) := by
  rw [bigSep_hop, payload_bar_own0 m c, payload_bar_own1 m c, payload_bar_own2 m c, payload_bar_own3 m c, payload_bar_own4 m c, payload_bar_own5 m c, payload_bar_own6 m c]

/-- The receive and send payloads, spelt as the slots' points-to. -/
theorem recvPay_pts (c : Dev nD) (h : Hop) : recvPay m c h = (((recvSlot h : Memref sig .tc .vmem S512x256 .bf16).view.loc (c : Thread nD τ) ↦[(recvSlot h : Memref sig .tc .vmem S512x256 .bf16).view.set]{fullShare} landedV m c h) : sProp 𝕄) := rfl
theorem sendPay_pts (c : Dev nD) (h : Hop) : sendPay m c h = (((commSlot h : Memref sig .tc .vmem S512x256 .bf16).view.loc (c : Thread nD τ) ↦[(commSlot h : Memref sig .tc .vmem S512x256 .bf16).view.set]{fullShare} commV m c h) : sProp 𝕄) := rfl
attribute [local sl_rounds] recvPay_pts sendPay_pts

/-- The last debt, written as a sum with nothing before it. -/
theorem owes_zero_add (c : Dev nD) (t : CellTallies nD τ sig Unit) (W : Waits sig Unit) :
    (owes (c : Thread nD τ) t W : sProp 𝕄) ⊢ owes (c : Thread nD τ) (0 + t) W := by
  rw [zero_add]

variable (K : Dev nD × Fin 15 → ℕ)

set_option maxHeartbeats 8000000 in
theorem sound_body (c : Dev nD) (Kt : PUnit → sProp 𝕄) :
    iprop(bodyPre m K c ∗ (bodyPost m c -∗ Kt ⟨⟩))
      ⊢ wp frame (wpE (defs₀ (F := F)) 𝒱₀ (c : Thread nD τ) none) Set.univ (bodyAt0 (F := F) t0_0) Kt := by
  unfold bodyPre ghost invs scratches locSems0 O₀
  simp only [bigSep_hop, bigSep_fin16']
  iintro ⟨⟨⟨⟨#IB, ⟨#IS0, #IS1, #IS2, #IS3, #IS4, #IS5, #IS6⟩, ⟨#IR0, #IR1, #IR2, #IR3, #IR4, #IR5, #IR6⟩, ⟨#IBP0, #IBP1, #IBP2, #IBP3, #IBP4, #IBP5, #IBP6⟩, ⟨#IRP0, #IRP1, #IRP2, #IRP3, #IRP4, #IRP5, #IRP6⟩⟩, HatB, ⟨HatS0, HatS1, HatS2, HatS3, HatS4, HatS5, HatS6⟩, ⟨HatR0, HatR1, HatR2, HatR3, HatR4, HatR5, HatR6⟩, ⟨#HrBP0, #HrBP1, #HrBP2, #HrBP3, #HrBP4, #HrBP5, #HrBP6⟩, ⟨#HrS0, #HrS1, #HrS2, #HrS3, #HrS4, #HrS5, #HrS6⟩, ⟨#HrR0, #HrR1, #HrR2, #HrR3, #HrR4, #HrR5, #HrR6⟩, ⟨HtBP0, HtBP1, HtBP2, HtBP3, HtBP4, HtBP5, HtBP6⟩, ⟨HtRP0, HtRP1, HtRP2, HtRP3, HtRP4, HtRP5, HtRP6⟩, ⟨HtS0, HtS1, HtS2, HtS3, HtS4, HtS5, HtS6⟩⟩, HcB, ⟨HcR0, HcR1, HcR2, HcR3, HcR4, HcR5, HcR6⟩, #Hlev, ⟨%W, HO⟩, ⟨Hl0, Hl1, Hl2, Hl3, Hl4, Hl5, Hl6, Hl7, Hl8, Hl9, Hl10, Hl11, Hl12, Hl13, Hl14, Hl15⟩, HX, HW, ⟨%fo, Hout⟩, ⟨%fxs, Hxs⟩, ⟨%fwt, Hwt⟩, ⟨%fcm, Hcm⟩, ⟨%frv, Hrv⟩, ⟨%fst, Hst⟩⟩, Hk⟩
  ihave Hsl := (recv_split c frv) $$ Hrv
  icases Hsl with ⟨Hr0, Hr1, Hr2, Hr3, Hr4, Hr5, Hr6⟩
  ihave Hcl := (comm_split c fcm) $$ Hcm
  icases Hcl with ⟨Hc0, Hc1, Hc2, Hc3, Hc4, Hc5, Hc6⟩
  unfold bodyAt0
  sl_unfold [cc0_body]
  have hW1_2 : Disjoint ((Memref.whole main_arg1 : Memref sig .tc .hbm S4096x2048 .f32).slice (Rect.unit (s := S4096x2048) (k0_off1 c 2#32) S4096x256.size (k0_off1_inb c 1)) (fun _ => rfl)).view.set ((Memref.whole main_arg1 : Memref sig .tc .hbm S4096x2048 .f32).slice (Rect.unit (s := S4096x2048) (k0_off1 c 1#32) S4096x256.size (k0_off1_inb c 0)) (fun _ => rfl)).view.set := wwin_disjoint c 0 1 (by decide)
  have hW1_3 : Disjoint ((Memref.whole main_arg1 : Memref sig .tc .hbm S4096x2048 .f32).slice (Rect.unit (s := S4096x2048) (k0_off1 c 3#32) S4096x256.size (k0_off1_inb c 2)) (fun _ => rfl)).view.set ((Memref.whole main_arg1 : Memref sig .tc .hbm S4096x2048 .f32).slice (Rect.unit (s := S4096x2048) (k0_off1 c 1#32) S4096x256.size (k0_off1_inb c 0)) (fun _ => rfl)).view.set := wwin_disjoint c 0 2 (by decide)
  have hW1_4 : Disjoint ((Memref.whole main_arg1 : Memref sig .tc .hbm S4096x2048 .f32).slice (Rect.unit (s := S4096x2048) (k0_off1 c 4#32) S4096x256.size (k0_off1_inb c 3)) (fun _ => rfl)).view.set ((Memref.whole main_arg1 : Memref sig .tc .hbm S4096x2048 .f32).slice (Rect.unit (s := S4096x2048) (k0_off1 c 1#32) S4096x256.size (k0_off1_inb c 0)) (fun _ => rfl)).view.set := wwin_disjoint c 0 3 (by decide)
  have hW1_5 : Disjoint ((Memref.whole main_arg1 : Memref sig .tc .hbm S4096x2048 .f32).slice (Rect.unit (s := S4096x2048) (k0_off1 c 5#32) S4096x256.size (k0_off1_inb c 4)) (fun _ => rfl)).view.set ((Memref.whole main_arg1 : Memref sig .tc .hbm S4096x2048 .f32).slice (Rect.unit (s := S4096x2048) (k0_off1 c 1#32) S4096x256.size (k0_off1_inb c 0)) (fun _ => rfl)).view.set := wwin_disjoint c 0 4 (by decide)
  have hW1_6 : Disjoint ((Memref.whole main_arg1 : Memref sig .tc .hbm S4096x2048 .f32).slice (Rect.unit (s := S4096x2048) (k0_off1 c 6#32) S4096x256.size (k0_off1_inb c 5)) (fun _ => rfl)).view.set ((Memref.whole main_arg1 : Memref sig .tc .hbm S4096x2048 .f32).slice (Rect.unit (s := S4096x2048) (k0_off1 c 1#32) S4096x256.size (k0_off1_inb c 0)) (fun _ => rfl)).view.set := wwin_disjoint c 0 5 (by decide)
  have hW1_7 : Disjoint ((Memref.whole main_arg1 : Memref sig .tc .hbm S4096x2048 .f32).slice (Rect.unit (s := S4096x2048) (k0_off1 c 7#32) S4096x256.size (k0_off1_inb c 6)) (fun _ => rfl)).view.set ((Memref.whole main_arg1 : Memref sig .tc .hbm S4096x2048 .f32).slice (Rect.unit (s := S4096x2048) (k0_off1 c 1#32) S4096x256.size (k0_off1_inb c 0)) (fun _ => rfl)).view.set := wwin_disjoint c 0 6 (by decide)
  have hW1_8 : Disjoint ((Memref.whole main_arg1 : Memref sig .tc .hbm S4096x2048 .f32).slice (Rect.unit (s := S4096x2048) (k0_off1 c 8#32) S4096x256.size (k0_off1_inb c 7)) (fun _ => rfl)).view.set ((Memref.whole main_arg1 : Memref sig .tc .hbm S4096x2048 .f32).slice (Rect.unit (s := S4096x2048) (k0_off1 c 1#32) S4096x256.size (k0_off1_inb c 0)) (fun _ => rfl)).view.set := wwin_disjoint c 0 7 (by decide)
  have hW2_3 : Disjoint ((Memref.whole main_arg1 : Memref sig .tc .hbm S4096x2048 .f32).slice (Rect.unit (s := S4096x2048) (k0_off1 c 3#32) S4096x256.size (k0_off1_inb c 2)) (fun _ => rfl)).view.set ((Memref.whole main_arg1 : Memref sig .tc .hbm S4096x2048 .f32).slice (Rect.unit (s := S4096x2048) (k0_off1 c 2#32) S4096x256.size (k0_off1_inb c 1)) (fun _ => rfl)).view.set := wwin_disjoint c 1 2 (by decide)
  have hW2_4 : Disjoint ((Memref.whole main_arg1 : Memref sig .tc .hbm S4096x2048 .f32).slice (Rect.unit (s := S4096x2048) (k0_off1 c 4#32) S4096x256.size (k0_off1_inb c 3)) (fun _ => rfl)).view.set ((Memref.whole main_arg1 : Memref sig .tc .hbm S4096x2048 .f32).slice (Rect.unit (s := S4096x2048) (k0_off1 c 2#32) S4096x256.size (k0_off1_inb c 1)) (fun _ => rfl)).view.set := wwin_disjoint c 1 3 (by decide)
  have hW2_5 : Disjoint ((Memref.whole main_arg1 : Memref sig .tc .hbm S4096x2048 .f32).slice (Rect.unit (s := S4096x2048) (k0_off1 c 5#32) S4096x256.size (k0_off1_inb c 4)) (fun _ => rfl)).view.set ((Memref.whole main_arg1 : Memref sig .tc .hbm S4096x2048 .f32).slice (Rect.unit (s := S4096x2048) (k0_off1 c 2#32) S4096x256.size (k0_off1_inb c 1)) (fun _ => rfl)).view.set := wwin_disjoint c 1 4 (by decide)
  have hW2_6 : Disjoint ((Memref.whole main_arg1 : Memref sig .tc .hbm S4096x2048 .f32).slice (Rect.unit (s := S4096x2048) (k0_off1 c 6#32) S4096x256.size (k0_off1_inb c 5)) (fun _ => rfl)).view.set ((Memref.whole main_arg1 : Memref sig .tc .hbm S4096x2048 .f32).slice (Rect.unit (s := S4096x2048) (k0_off1 c 2#32) S4096x256.size (k0_off1_inb c 1)) (fun _ => rfl)).view.set := wwin_disjoint c 1 5 (by decide)
  have hW2_7 : Disjoint ((Memref.whole main_arg1 : Memref sig .tc .hbm S4096x2048 .f32).slice (Rect.unit (s := S4096x2048) (k0_off1 c 7#32) S4096x256.size (k0_off1_inb c 6)) (fun _ => rfl)).view.set ((Memref.whole main_arg1 : Memref sig .tc .hbm S4096x2048 .f32).slice (Rect.unit (s := S4096x2048) (k0_off1 c 2#32) S4096x256.size (k0_off1_inb c 1)) (fun _ => rfl)).view.set := wwin_disjoint c 1 6 (by decide)
  have hW2_8 : Disjoint ((Memref.whole main_arg1 : Memref sig .tc .hbm S4096x2048 .f32).slice (Rect.unit (s := S4096x2048) (k0_off1 c 8#32) S4096x256.size (k0_off1_inb c 7)) (fun _ => rfl)).view.set ((Memref.whole main_arg1 : Memref sig .tc .hbm S4096x2048 .f32).slice (Rect.unit (s := S4096x2048) (k0_off1 c 2#32) S4096x256.size (k0_off1_inb c 1)) (fun _ => rfl)).view.set := wwin_disjoint c 1 7 (by decide)
  have hW3_4 : Disjoint ((Memref.whole main_arg1 : Memref sig .tc .hbm S4096x2048 .f32).slice (Rect.unit (s := S4096x2048) (k0_off1 c 4#32) S4096x256.size (k0_off1_inb c 3)) (fun _ => rfl)).view.set ((Memref.whole main_arg1 : Memref sig .tc .hbm S4096x2048 .f32).slice (Rect.unit (s := S4096x2048) (k0_off1 c 3#32) S4096x256.size (k0_off1_inb c 2)) (fun _ => rfl)).view.set := wwin_disjoint c 2 3 (by decide)
  have hW3_5 : Disjoint ((Memref.whole main_arg1 : Memref sig .tc .hbm S4096x2048 .f32).slice (Rect.unit (s := S4096x2048) (k0_off1 c 5#32) S4096x256.size (k0_off1_inb c 4)) (fun _ => rfl)).view.set ((Memref.whole main_arg1 : Memref sig .tc .hbm S4096x2048 .f32).slice (Rect.unit (s := S4096x2048) (k0_off1 c 3#32) S4096x256.size (k0_off1_inb c 2)) (fun _ => rfl)).view.set := wwin_disjoint c 2 4 (by decide)
  have hW3_6 : Disjoint ((Memref.whole main_arg1 : Memref sig .tc .hbm S4096x2048 .f32).slice (Rect.unit (s := S4096x2048) (k0_off1 c 6#32) S4096x256.size (k0_off1_inb c 5)) (fun _ => rfl)).view.set ((Memref.whole main_arg1 : Memref sig .tc .hbm S4096x2048 .f32).slice (Rect.unit (s := S4096x2048) (k0_off1 c 3#32) S4096x256.size (k0_off1_inb c 2)) (fun _ => rfl)).view.set := wwin_disjoint c 2 5 (by decide)
  have hW3_7 : Disjoint ((Memref.whole main_arg1 : Memref sig .tc .hbm S4096x2048 .f32).slice (Rect.unit (s := S4096x2048) (k0_off1 c 7#32) S4096x256.size (k0_off1_inb c 6)) (fun _ => rfl)).view.set ((Memref.whole main_arg1 : Memref sig .tc .hbm S4096x2048 .f32).slice (Rect.unit (s := S4096x2048) (k0_off1 c 3#32) S4096x256.size (k0_off1_inb c 2)) (fun _ => rfl)).view.set := wwin_disjoint c 2 6 (by decide)
  have hW3_8 : Disjoint ((Memref.whole main_arg1 : Memref sig .tc .hbm S4096x2048 .f32).slice (Rect.unit (s := S4096x2048) (k0_off1 c 8#32) S4096x256.size (k0_off1_inb c 7)) (fun _ => rfl)).view.set ((Memref.whole main_arg1 : Memref sig .tc .hbm S4096x2048 .f32).slice (Rect.unit (s := S4096x2048) (k0_off1 c 3#32) S4096x256.size (k0_off1_inb c 2)) (fun _ => rfl)).view.set := wwin_disjoint c 2 7 (by decide)
  have hW4_5 : Disjoint ((Memref.whole main_arg1 : Memref sig .tc .hbm S4096x2048 .f32).slice (Rect.unit (s := S4096x2048) (k0_off1 c 5#32) S4096x256.size (k0_off1_inb c 4)) (fun _ => rfl)).view.set ((Memref.whole main_arg1 : Memref sig .tc .hbm S4096x2048 .f32).slice (Rect.unit (s := S4096x2048) (k0_off1 c 4#32) S4096x256.size (k0_off1_inb c 3)) (fun _ => rfl)).view.set := wwin_disjoint c 3 4 (by decide)
  have hW4_6 : Disjoint ((Memref.whole main_arg1 : Memref sig .tc .hbm S4096x2048 .f32).slice (Rect.unit (s := S4096x2048) (k0_off1 c 6#32) S4096x256.size (k0_off1_inb c 5)) (fun _ => rfl)).view.set ((Memref.whole main_arg1 : Memref sig .tc .hbm S4096x2048 .f32).slice (Rect.unit (s := S4096x2048) (k0_off1 c 4#32) S4096x256.size (k0_off1_inb c 3)) (fun _ => rfl)).view.set := wwin_disjoint c 3 5 (by decide)
  have hW4_7 : Disjoint ((Memref.whole main_arg1 : Memref sig .tc .hbm S4096x2048 .f32).slice (Rect.unit (s := S4096x2048) (k0_off1 c 7#32) S4096x256.size (k0_off1_inb c 6)) (fun _ => rfl)).view.set ((Memref.whole main_arg1 : Memref sig .tc .hbm S4096x2048 .f32).slice (Rect.unit (s := S4096x2048) (k0_off1 c 4#32) S4096x256.size (k0_off1_inb c 3)) (fun _ => rfl)).view.set := wwin_disjoint c 3 6 (by decide)
  have hW4_8 : Disjoint ((Memref.whole main_arg1 : Memref sig .tc .hbm S4096x2048 .f32).slice (Rect.unit (s := S4096x2048) (k0_off1 c 8#32) S4096x256.size (k0_off1_inb c 7)) (fun _ => rfl)).view.set ((Memref.whole main_arg1 : Memref sig .tc .hbm S4096x2048 .f32).slice (Rect.unit (s := S4096x2048) (k0_off1 c 4#32) S4096x256.size (k0_off1_inb c 3)) (fun _ => rfl)).view.set := wwin_disjoint c 3 7 (by decide)
  have hW5_6 : Disjoint ((Memref.whole main_arg1 : Memref sig .tc .hbm S4096x2048 .f32).slice (Rect.unit (s := S4096x2048) (k0_off1 c 6#32) S4096x256.size (k0_off1_inb c 5)) (fun _ => rfl)).view.set ((Memref.whole main_arg1 : Memref sig .tc .hbm S4096x2048 .f32).slice (Rect.unit (s := S4096x2048) (k0_off1 c 5#32) S4096x256.size (k0_off1_inb c 4)) (fun _ => rfl)).view.set := wwin_disjoint c 4 5 (by decide)
  have hW5_7 : Disjoint ((Memref.whole main_arg1 : Memref sig .tc .hbm S4096x2048 .f32).slice (Rect.unit (s := S4096x2048) (k0_off1 c 7#32) S4096x256.size (k0_off1_inb c 6)) (fun _ => rfl)).view.set ((Memref.whole main_arg1 : Memref sig .tc .hbm S4096x2048 .f32).slice (Rect.unit (s := S4096x2048) (k0_off1 c 5#32) S4096x256.size (k0_off1_inb c 4)) (fun _ => rfl)).view.set := wwin_disjoint c 4 6 (by decide)
  have hW5_8 : Disjoint ((Memref.whole main_arg1 : Memref sig .tc .hbm S4096x2048 .f32).slice (Rect.unit (s := S4096x2048) (k0_off1 c 8#32) S4096x256.size (k0_off1_inb c 7)) (fun _ => rfl)).view.set ((Memref.whole main_arg1 : Memref sig .tc .hbm S4096x2048 .f32).slice (Rect.unit (s := S4096x2048) (k0_off1 c 5#32) S4096x256.size (k0_off1_inb c 4)) (fun _ => rfl)).view.set := wwin_disjoint c 4 7 (by decide)
  have hW6_7 : Disjoint ((Memref.whole main_arg1 : Memref sig .tc .hbm S4096x2048 .f32).slice (Rect.unit (s := S4096x2048) (k0_off1 c 7#32) S4096x256.size (k0_off1_inb c 6)) (fun _ => rfl)).view.set ((Memref.whole main_arg1 : Memref sig .tc .hbm S4096x2048 .f32).slice (Rect.unit (s := S4096x2048) (k0_off1 c 6#32) S4096x256.size (k0_off1_inb c 5)) (fun _ => rfl)).view.set := wwin_disjoint c 5 6 (by decide)
  have hW6_8 : Disjoint ((Memref.whole main_arg1 : Memref sig .tc .hbm S4096x2048 .f32).slice (Rect.unit (s := S4096x2048) (k0_off1 c 8#32) S4096x256.size (k0_off1_inb c 7)) (fun _ => rfl)).view.set ((Memref.whole main_arg1 : Memref sig .tc .hbm S4096x2048 .f32).slice (Rect.unit (s := S4096x2048) (k0_off1 c 6#32) S4096x256.size (k0_off1_inb c 5)) (fun _ => rfl)).view.set := wwin_disjoint c 5 7 (by decide)
  have hW7_8 : Disjoint ((Memref.whole main_arg1 : Memref sig .tc .hbm S4096x2048 .f32).slice (Rect.unit (s := S4096x2048) (k0_off1 c 8#32) S4096x256.size (k0_off1_inb c 7)) (fun _ => rfl)).view.set ((Memref.whole main_arg1 : Memref sig .tc .hbm S4096x2048 .f32).slice (Rect.unit (s := S4096x2048) (k0_off1 c 7#32) S4096x256.size (k0_off1_inb c 6)) (fun _ => rfl)).view.set := wwin_disjoint c 6 7 (by decide)
  have hOo0 : Disjoint ((Memref.whole main_v1 : Memref sig .tc .hbm S4096x256 .f32).slice (Rect.unit (s := S4096x256) (k0_off3 c 1#32) S512x256.size (k0_off3_inb c 0)) (fun _ => rfl)).view.set ((Memref.whole main_v1 : Memref sig .tc .hbm S4096x256 .f32).slice (Rect.unit (s := S4096x256) (k0_off2 c) S512x256.size (k0_off2_inb c)) (fun _ => rfl)).view.set := owin_own_disjoint c 0
  have hO0_1 : Disjoint ((Memref.whole main_v1 : Memref sig .tc .hbm S4096x256 .f32).slice (Rect.unit (s := S4096x256) (k0_off3 c 2#32) S512x256.size (k0_off3_inb c 1)) (fun _ => rfl)).view.set ((Memref.whole main_v1 : Memref sig .tc .hbm S4096x256 .f32).slice (Rect.unit (s := S4096x256) (k0_off3 c 1#32) S512x256.size (k0_off3_inb c 0)) (fun _ => rfl)).view.set := owin_disjoint c 0 1 (by decide)
  have hO0_2 : Disjoint ((Memref.whole main_v1 : Memref sig .tc .hbm S4096x256 .f32).slice (Rect.unit (s := S4096x256) (k0_off3 c 3#32) S512x256.size (k0_off3_inb c 2)) (fun _ => rfl)).view.set ((Memref.whole main_v1 : Memref sig .tc .hbm S4096x256 .f32).slice (Rect.unit (s := S4096x256) (k0_off3 c 1#32) S512x256.size (k0_off3_inb c 0)) (fun _ => rfl)).view.set := owin_disjoint c 0 2 (by decide)
  have hO0_3 : Disjoint ((Memref.whole main_v1 : Memref sig .tc .hbm S4096x256 .f32).slice (Rect.unit (s := S4096x256) (k0_off3 c 4#32) S512x256.size (k0_off3_inb c 3)) (fun _ => rfl)).view.set ((Memref.whole main_v1 : Memref sig .tc .hbm S4096x256 .f32).slice (Rect.unit (s := S4096x256) (k0_off3 c 1#32) S512x256.size (k0_off3_inb c 0)) (fun _ => rfl)).view.set := owin_disjoint c 0 3 (by decide)
  have hO0_4 : Disjoint ((Memref.whole main_v1 : Memref sig .tc .hbm S4096x256 .f32).slice (Rect.unit (s := S4096x256) (k0_off3 c 5#32) S512x256.size (k0_off3_inb c 4)) (fun _ => rfl)).view.set ((Memref.whole main_v1 : Memref sig .tc .hbm S4096x256 .f32).slice (Rect.unit (s := S4096x256) (k0_off3 c 1#32) S512x256.size (k0_off3_inb c 0)) (fun _ => rfl)).view.set := owin_disjoint c 0 4 (by decide)
  have hO0_5 : Disjoint ((Memref.whole main_v1 : Memref sig .tc .hbm S4096x256 .f32).slice (Rect.unit (s := S4096x256) (k0_off3 c 6#32) S512x256.size (k0_off3_inb c 5)) (fun _ => rfl)).view.set ((Memref.whole main_v1 : Memref sig .tc .hbm S4096x256 .f32).slice (Rect.unit (s := S4096x256) (k0_off3 c 1#32) S512x256.size (k0_off3_inb c 0)) (fun _ => rfl)).view.set := owin_disjoint c 0 5 (by decide)
  have hO0_6 : Disjoint ((Memref.whole main_v1 : Memref sig .tc .hbm S4096x256 .f32).slice (Rect.unit (s := S4096x256) (k0_off3 c 7#32) S512x256.size (k0_off3_inb c 6)) (fun _ => rfl)).view.set ((Memref.whole main_v1 : Memref sig .tc .hbm S4096x256 .f32).slice (Rect.unit (s := S4096x256) (k0_off3 c 1#32) S512x256.size (k0_off3_inb c 0)) (fun _ => rfl)).view.set := owin_disjoint c 0 6 (by decide)
  have hOo1 : Disjoint ((Memref.whole main_v1 : Memref sig .tc .hbm S4096x256 .f32).slice (Rect.unit (s := S4096x256) (k0_off3 c 2#32) S512x256.size (k0_off3_inb c 1)) (fun _ => rfl)).view.set ((Memref.whole main_v1 : Memref sig .tc .hbm S4096x256 .f32).slice (Rect.unit (s := S4096x256) (k0_off2 c) S512x256.size (k0_off2_inb c)) (fun _ => rfl)).view.set := owin_own_disjoint c 1
  have hO1_2 : Disjoint ((Memref.whole main_v1 : Memref sig .tc .hbm S4096x256 .f32).slice (Rect.unit (s := S4096x256) (k0_off3 c 3#32) S512x256.size (k0_off3_inb c 2)) (fun _ => rfl)).view.set ((Memref.whole main_v1 : Memref sig .tc .hbm S4096x256 .f32).slice (Rect.unit (s := S4096x256) (k0_off3 c 2#32) S512x256.size (k0_off3_inb c 1)) (fun _ => rfl)).view.set := owin_disjoint c 1 2 (by decide)
  have hO1_3 : Disjoint ((Memref.whole main_v1 : Memref sig .tc .hbm S4096x256 .f32).slice (Rect.unit (s := S4096x256) (k0_off3 c 4#32) S512x256.size (k0_off3_inb c 3)) (fun _ => rfl)).view.set ((Memref.whole main_v1 : Memref sig .tc .hbm S4096x256 .f32).slice (Rect.unit (s := S4096x256) (k0_off3 c 2#32) S512x256.size (k0_off3_inb c 1)) (fun _ => rfl)).view.set := owin_disjoint c 1 3 (by decide)
  have hO1_4 : Disjoint ((Memref.whole main_v1 : Memref sig .tc .hbm S4096x256 .f32).slice (Rect.unit (s := S4096x256) (k0_off3 c 5#32) S512x256.size (k0_off3_inb c 4)) (fun _ => rfl)).view.set ((Memref.whole main_v1 : Memref sig .tc .hbm S4096x256 .f32).slice (Rect.unit (s := S4096x256) (k0_off3 c 2#32) S512x256.size (k0_off3_inb c 1)) (fun _ => rfl)).view.set := owin_disjoint c 1 4 (by decide)
  have hO1_5 : Disjoint ((Memref.whole main_v1 : Memref sig .tc .hbm S4096x256 .f32).slice (Rect.unit (s := S4096x256) (k0_off3 c 6#32) S512x256.size (k0_off3_inb c 5)) (fun _ => rfl)).view.set ((Memref.whole main_v1 : Memref sig .tc .hbm S4096x256 .f32).slice (Rect.unit (s := S4096x256) (k0_off3 c 2#32) S512x256.size (k0_off3_inb c 1)) (fun _ => rfl)).view.set := owin_disjoint c 1 5 (by decide)
  have hO1_6 : Disjoint ((Memref.whole main_v1 : Memref sig .tc .hbm S4096x256 .f32).slice (Rect.unit (s := S4096x256) (k0_off3 c 7#32) S512x256.size (k0_off3_inb c 6)) (fun _ => rfl)).view.set ((Memref.whole main_v1 : Memref sig .tc .hbm S4096x256 .f32).slice (Rect.unit (s := S4096x256) (k0_off3 c 2#32) S512x256.size (k0_off3_inb c 1)) (fun _ => rfl)).view.set := owin_disjoint c 1 6 (by decide)
  have hOo2 : Disjoint ((Memref.whole main_v1 : Memref sig .tc .hbm S4096x256 .f32).slice (Rect.unit (s := S4096x256) (k0_off3 c 3#32) S512x256.size (k0_off3_inb c 2)) (fun _ => rfl)).view.set ((Memref.whole main_v1 : Memref sig .tc .hbm S4096x256 .f32).slice (Rect.unit (s := S4096x256) (k0_off2 c) S512x256.size (k0_off2_inb c)) (fun _ => rfl)).view.set := owin_own_disjoint c 2
  have hO2_3 : Disjoint ((Memref.whole main_v1 : Memref sig .tc .hbm S4096x256 .f32).slice (Rect.unit (s := S4096x256) (k0_off3 c 4#32) S512x256.size (k0_off3_inb c 3)) (fun _ => rfl)).view.set ((Memref.whole main_v1 : Memref sig .tc .hbm S4096x256 .f32).slice (Rect.unit (s := S4096x256) (k0_off3 c 3#32) S512x256.size (k0_off3_inb c 2)) (fun _ => rfl)).view.set := owin_disjoint c 2 3 (by decide)
  have hO2_4 : Disjoint ((Memref.whole main_v1 : Memref sig .tc .hbm S4096x256 .f32).slice (Rect.unit (s := S4096x256) (k0_off3 c 5#32) S512x256.size (k0_off3_inb c 4)) (fun _ => rfl)).view.set ((Memref.whole main_v1 : Memref sig .tc .hbm S4096x256 .f32).slice (Rect.unit (s := S4096x256) (k0_off3 c 3#32) S512x256.size (k0_off3_inb c 2)) (fun _ => rfl)).view.set := owin_disjoint c 2 4 (by decide)
  have hO2_5 : Disjoint ((Memref.whole main_v1 : Memref sig .tc .hbm S4096x256 .f32).slice (Rect.unit (s := S4096x256) (k0_off3 c 6#32) S512x256.size (k0_off3_inb c 5)) (fun _ => rfl)).view.set ((Memref.whole main_v1 : Memref sig .tc .hbm S4096x256 .f32).slice (Rect.unit (s := S4096x256) (k0_off3 c 3#32) S512x256.size (k0_off3_inb c 2)) (fun _ => rfl)).view.set := owin_disjoint c 2 5 (by decide)
  have hO2_6 : Disjoint ((Memref.whole main_v1 : Memref sig .tc .hbm S4096x256 .f32).slice (Rect.unit (s := S4096x256) (k0_off3 c 7#32) S512x256.size (k0_off3_inb c 6)) (fun _ => rfl)).view.set ((Memref.whole main_v1 : Memref sig .tc .hbm S4096x256 .f32).slice (Rect.unit (s := S4096x256) (k0_off3 c 3#32) S512x256.size (k0_off3_inb c 2)) (fun _ => rfl)).view.set := owin_disjoint c 2 6 (by decide)
  have hOo3 : Disjoint ((Memref.whole main_v1 : Memref sig .tc .hbm S4096x256 .f32).slice (Rect.unit (s := S4096x256) (k0_off3 c 4#32) S512x256.size (k0_off3_inb c 3)) (fun _ => rfl)).view.set ((Memref.whole main_v1 : Memref sig .tc .hbm S4096x256 .f32).slice (Rect.unit (s := S4096x256) (k0_off2 c) S512x256.size (k0_off2_inb c)) (fun _ => rfl)).view.set := owin_own_disjoint c 3
  have hO3_4 : Disjoint ((Memref.whole main_v1 : Memref sig .tc .hbm S4096x256 .f32).slice (Rect.unit (s := S4096x256) (k0_off3 c 5#32) S512x256.size (k0_off3_inb c 4)) (fun _ => rfl)).view.set ((Memref.whole main_v1 : Memref sig .tc .hbm S4096x256 .f32).slice (Rect.unit (s := S4096x256) (k0_off3 c 4#32) S512x256.size (k0_off3_inb c 3)) (fun _ => rfl)).view.set := owin_disjoint c 3 4 (by decide)
  have hO3_5 : Disjoint ((Memref.whole main_v1 : Memref sig .tc .hbm S4096x256 .f32).slice (Rect.unit (s := S4096x256) (k0_off3 c 6#32) S512x256.size (k0_off3_inb c 5)) (fun _ => rfl)).view.set ((Memref.whole main_v1 : Memref sig .tc .hbm S4096x256 .f32).slice (Rect.unit (s := S4096x256) (k0_off3 c 4#32) S512x256.size (k0_off3_inb c 3)) (fun _ => rfl)).view.set := owin_disjoint c 3 5 (by decide)
  have hO3_6 : Disjoint ((Memref.whole main_v1 : Memref sig .tc .hbm S4096x256 .f32).slice (Rect.unit (s := S4096x256) (k0_off3 c 7#32) S512x256.size (k0_off3_inb c 6)) (fun _ => rfl)).view.set ((Memref.whole main_v1 : Memref sig .tc .hbm S4096x256 .f32).slice (Rect.unit (s := S4096x256) (k0_off3 c 4#32) S512x256.size (k0_off3_inb c 3)) (fun _ => rfl)).view.set := owin_disjoint c 3 6 (by decide)
  have hOo4 : Disjoint ((Memref.whole main_v1 : Memref sig .tc .hbm S4096x256 .f32).slice (Rect.unit (s := S4096x256) (k0_off3 c 5#32) S512x256.size (k0_off3_inb c 4)) (fun _ => rfl)).view.set ((Memref.whole main_v1 : Memref sig .tc .hbm S4096x256 .f32).slice (Rect.unit (s := S4096x256) (k0_off2 c) S512x256.size (k0_off2_inb c)) (fun _ => rfl)).view.set := owin_own_disjoint c 4
  have hO4_5 : Disjoint ((Memref.whole main_v1 : Memref sig .tc .hbm S4096x256 .f32).slice (Rect.unit (s := S4096x256) (k0_off3 c 6#32) S512x256.size (k0_off3_inb c 5)) (fun _ => rfl)).view.set ((Memref.whole main_v1 : Memref sig .tc .hbm S4096x256 .f32).slice (Rect.unit (s := S4096x256) (k0_off3 c 5#32) S512x256.size (k0_off3_inb c 4)) (fun _ => rfl)).view.set := owin_disjoint c 4 5 (by decide)
  have hO4_6 : Disjoint ((Memref.whole main_v1 : Memref sig .tc .hbm S4096x256 .f32).slice (Rect.unit (s := S4096x256) (k0_off3 c 7#32) S512x256.size (k0_off3_inb c 6)) (fun _ => rfl)).view.set ((Memref.whole main_v1 : Memref sig .tc .hbm S4096x256 .f32).slice (Rect.unit (s := S4096x256) (k0_off3 c 5#32) S512x256.size (k0_off3_inb c 4)) (fun _ => rfl)).view.set := owin_disjoint c 4 6 (by decide)
  have hOo5 : Disjoint ((Memref.whole main_v1 : Memref sig .tc .hbm S4096x256 .f32).slice (Rect.unit (s := S4096x256) (k0_off3 c 6#32) S512x256.size (k0_off3_inb c 5)) (fun _ => rfl)).view.set ((Memref.whole main_v1 : Memref sig .tc .hbm S4096x256 .f32).slice (Rect.unit (s := S4096x256) (k0_off2 c) S512x256.size (k0_off2_inb c)) (fun _ => rfl)).view.set := owin_own_disjoint c 5
  have hO5_6 : Disjoint ((Memref.whole main_v1 : Memref sig .tc .hbm S4096x256 .f32).slice (Rect.unit (s := S4096x256) (k0_off3 c 7#32) S512x256.size (k0_off3_inb c 6)) (fun _ => rfl)).view.set ((Memref.whole main_v1 : Memref sig .tc .hbm S4096x256 .f32).slice (Rect.unit (s := S4096x256) (k0_off3 c 6#32) S512x256.size (k0_off3_inb c 5)) (fun _ => rfl)).view.set := owin_disjoint c 5 6 (by decide)
  have hOo6 : Disjoint ((Memref.whole main_v1 : Memref sig .tc .hbm S4096x256 .f32).slice (Rect.unit (s := S4096x256) (k0_off3 c 7#32) S512x256.size (k0_off3_inb c 6)) (fun _ => rfl)).view.set ((Memref.whole main_v1 : Memref sig .tc .hbm S4096x256 .f32).slice (Rect.unit (s := S4096x256) (k0_off2 c) S512x256.size (k0_off2_inb c)) (fun _ => rfl)).view.set := owin_own_disjoint c 6
  have hmw0 : ∀ q : DmaSem sig, (q.val < 15 ∨ 22 ≤ q.val) → (levAts L lv : sProp 𝕄) ⊢ MayWait (c : Thread nD τ) (.dma q) () (tallyAt (recvCell (peer c 6) 6) () N + tallyAt (recvCell (peer c 5) 5) () N + tallyAt (recvCell (peer c 4) 4) () N + tallyAt (recvCell (peer c 3) 3) () N + tallyAt (recvCell (peer c 2) 2) () N + tallyAt (recvCell (peer c 1) 1) () N + tallyAt (recvCell (peer c 0) 0) () N) :=
    fun q hq => mayWait_loc c q hq _ (by repeat (first | exact onlyRecv_tally c _ | apply onlyRecv_add))
  have hmw1 : ∀ q : DmaSem sig, (q.val < 15 ∨ 22 ≤ q.val) → (levAts L lv : sProp 𝕄) ⊢ MayWait (c : Thread nD τ) (.dma q) () (tallyAt (recvCell (peer c 6) 6) () N + tallyAt (recvCell (peer c 5) 5) () N + tallyAt (recvCell (peer c 4) 4) () N + tallyAt (recvCell (peer c 3) 3) () N + tallyAt (recvCell (peer c 2) 2) () N + tallyAt (recvCell (peer c 1) 1) () N) :=
    fun q hq => mayWait_loc c q hq _ (by repeat (first | exact onlyRecv_tally c _ | apply onlyRecv_add))
  have hmw2 : ∀ q : DmaSem sig, (q.val < 15 ∨ 22 ≤ q.val) → (levAts L lv : sProp 𝕄) ⊢ MayWait (c : Thread nD τ) (.dma q) () (tallyAt (recvCell (peer c 6) 6) () N + tallyAt (recvCell (peer c 5) 5) () N + tallyAt (recvCell (peer c 4) 4) () N + tallyAt (recvCell (peer c 3) 3) () N + tallyAt (recvCell (peer c 2) 2) () N) :=
    fun q hq => mayWait_loc c q hq _ (by repeat (first | exact onlyRecv_tally c _ | apply onlyRecv_add))
  have hmw3 : ∀ q : DmaSem sig, (q.val < 15 ∨ 22 ≤ q.val) → (levAts L lv : sProp 𝕄) ⊢ MayWait (c : Thread nD τ) (.dma q) () (tallyAt (recvCell (peer c 6) 6) () N + tallyAt (recvCell (peer c 5) 5) () N + tallyAt (recvCell (peer c 4) 4) () N + tallyAt (recvCell (peer c 3) 3) () N) :=
    fun q hq => mayWait_loc c q hq _ (by repeat (first | exact onlyRecv_tally c _ | apply onlyRecv_add))
  have hmw4 : ∀ q : DmaSem sig, (q.val < 15 ∨ 22 ≤ q.val) → (levAts L lv : sProp 𝕄) ⊢ MayWait (c : Thread nD τ) (.dma q) () (tallyAt (recvCell (peer c 6) 6) () N + tallyAt (recvCell (peer c 5) 5) () N + tallyAt (recvCell (peer c 4) 4) () N) :=
    fun q hq => mayWait_loc c q hq _ (by repeat (first | exact onlyRecv_tally c _ | apply onlyRecv_add))
  have hmw5 : ∀ q : DmaSem sig, (q.val < 15 ∨ 22 ≤ q.val) → (levAts L lv : sProp 𝕄) ⊢ MayWait (c : Thread nD τ) (.dma q) () (tallyAt (recvCell (peer c 6) 6) () N + tallyAt (recvCell (peer c 5) 5) () N) :=
    fun q hq => mayWait_loc c q hq _ (by repeat (first | exact onlyRecv_tally c _ | apply onlyRecv_add))
  have hmw6 : ∀ q : DmaSem sig, (q.val < 15 ∨ 22 ≤ q.val) → (levAts L lv : sProp 𝕄) ⊢ MayWait (c : Thread nD τ) (.dma q) () (tallyAt (recvCell (peer c 6) 6) () N) :=
    fun q hq => mayWait_loc c q hq _ (by repeat (first | exact onlyRecv_tally c _ | apply onlyRecv_add))
  have hmwb : (levAts L lv : sProp 𝕄) ⊢ MayWait (c : Thread nD τ) (.reg barS) () (tallyAt (recvCell (peer c 6) 6) () N + tallyAt (recvCell (peer c 5) 5) () N + tallyAt (recvCell (peer c 4) 4) () N + tallyAt (recvCell (peer c 3) 3) () N + tallyAt (recvCell (peer c 2) 2) () N + tallyAt (recvCell (peer c 1) 1) () N + tallyAt (recvCell (peer c 0) 0) () N) :=
    mayWait_bar c _ (by repeat (first | exact onlyRecv_tally c _ | apply onlyRecv_add))
  set_option sl_exec.dmaWindow true in
  set_option sl_exec.dmaWindowSet true in
  sl_exec_parts
  -- the signal to peer c 0: device c's duty 0 there, handing over its own receive slot 6
  iapply (wp_signal_hop m K c 0 (peer c 0) rfl frv _ W) $$ [HO HtBP0 Hr6]
  · isplitr; · iexact IBP0
    isplitl [HO]; · iexact HO
    isplitl [HtBP0]; · iexact HtBP0
    isplitl [Hr6]; · unfold slotPts; iexact Hr6
    isplitr; · iexact HrR6
    iexact HrBP0
  iintro HO
  set_option sl_exec.dmaWindow true in
  set_option sl_exec.dmaWindowSet true in
  sl_exec_parts
  -- the signal to peer c 1: device c's duty 1 there, handing over its own receive slot 5
  iapply (wp_signal_hop m K c 1 (peer c 1) rfl frv _ W) $$ [HO HtBP1 Hr5]
  · isplitr; · iexact IBP1
    isplitl [HO]; · iexact HO
    isplitl [HtBP1]; · iexact HtBP1
    isplitl [Hr5]; · unfold slotPts; iexact Hr5
    isplitr; · iexact HrR5
    iexact HrBP1
  iintro HO
  set_option sl_exec.dmaWindow true in
  set_option sl_exec.dmaWindowSet true in
  sl_exec_parts
  -- the signal to peer c 2: device c's duty 2 there, handing over its own receive slot 4
  iapply (wp_signal_hop m K c 2 (peer c 2) rfl frv _ W) $$ [HO HtBP2 Hr4]
  · isplitr; · iexact IBP2
    isplitl [HO]; · iexact HO
    isplitl [HtBP2]; · iexact HtBP2
    isplitl [Hr4]; · unfold slotPts; iexact Hr4
    isplitr; · iexact HrR4
    iexact HrBP2
  iintro HO
  set_option sl_exec.dmaWindow true in
  set_option sl_exec.dmaWindowSet true in
  sl_exec_parts
  -- the signal to peer c 3: device c's duty 3 there, handing over its own receive slot 3
  iapply (wp_signal_hop m K c 3 (peer c 3) rfl frv _ W) $$ [HO HtBP3 Hr3]
  · isplitr; · iexact IBP3
    isplitl [HO]; · iexact HO
    isplitl [HtBP3]; · iexact HtBP3
    isplitl [Hr3]; · unfold slotPts; iexact Hr3
    isplitr; · iexact HrR3
    iexact HrBP3
  iintro HO
  set_option sl_exec.dmaWindow true in
  set_option sl_exec.dmaWindowSet true in
  sl_exec_parts
  -- the signal to peer c 4: device c's duty 4 there, handing over its own receive slot 2
  iapply (wp_signal_hop m K c 4 (peer c 4) rfl frv _ W) $$ [HO HtBP4 Hr2]
  · isplitr; · iexact IBP4
    isplitl [HO]; · iexact HO
    isplitl [HtBP4]; · iexact HtBP4
    isplitl [Hr2]; · unfold slotPts; iexact Hr2
    isplitr; · iexact HrR2
    iexact HrBP4
  iintro HO
  set_option sl_exec.dmaWindow true in
  set_option sl_exec.dmaWindowSet true in
  sl_exec_parts
  -- the signal to peer c 5: device c's duty 5 there, handing over its own receive slot 1
  iapply (wp_signal_hop m K c 5 (peer c 5) rfl frv _ W) $$ [HO HtBP5 Hr1]
  · isplitr; · iexact IBP5
    isplitl [HO]; · iexact HO
    isplitl [HtBP5]; · iexact HtBP5
    isplitl [Hr1]; · unfold slotPts; iexact Hr1
    isplitr; · iexact HrR1
    iexact HrBP5
  iintro HO
  set_option sl_exec.dmaWindow true in
  set_option sl_exec.dmaWindowSet true in
  sl_exec_parts
  -- the signal to peer c 6: device c's duty 6 there, handing over its own receive slot 0
  iapply (wp_signal_hop m K c 6 (peer c 6) rfl frv _ W) $$ [HO HtBP6 Hr0]
  · isplitr; · iexact IBP6
    isplitl [HO]; · iexact HO
    isplitl [HtBP6]; · iexact HtBP6
    isplitl [Hr0]; · unfold slotPts; iexact Hr0
    isplitr; · iexact HrR0
    iexact HrBP6
  iintro HO
  set_option sl_exec.dmaWindow true in
  set_option sl_exec.dmaWindowSet true in
  sl_exec_parts
  -- the barrier round's payloads: every peer's receive slot for this device, and that its receive cell is at round 0
  ihave Hp := (Entails.of_eq (bar_payloads m c)) $$ HatB_pay1
  icases Hp with ⟨⟨⟨%fd6, Hd6⟩, #HrP6⟩, ⟨⟨%fd5, Hd5⟩, #HrP5⟩, ⟨⟨%fd4, Hd4⟩, #HrP4⟩, ⟨⟨%fd3, Hd3⟩, #HrP3⟩, ⟨⟨%fd2, Hd2⟩, #HrP2⟩, ⟨⟨%fd1, Hd1⟩, #HrP1⟩, ⟨⟨%fd0, Hd0⟩, #HrP0⟩⟩
  -- hop 0: send slot 0 and slot 0 of peer c 0's receive buffer go to the transfer
  iapply (wp_send_hop m K c 0 _ (dev8_eq c) (sound_body.sl.Hc0_w5 m c fwt fcm) fd0 (sent_fact m c 0 _ _ _ (x_loaded m c) ((wt_read_other c 0 3 (by decide) _ _).trans ((wt_read_other c 0 2 (by decide) _ _).trans ((wt_read_other c 0 1 (by decide) _ _).trans (wtile_loaded_peer m c 0 0 0 rfl _))))) _ _) $$ [Hc0 Hd0 HO HtS0 HtRP0]
  · isplitr; · iexact IS0
    isplitr; · iexact IRP0
    isplitl [Hc0]; · unfold commPts; iexact Hc0
    isplitl [Hd0]; · unfold slotPts; iexact Hd0
    isplitl [HO]; · iexact HO
    isplitl [HtS0]; · iexact HtS0
    isplitr; · iexact HrS0
    isplitl [HtRP0]; · iexact HtRP0
    iexact HrP0
  iintro ⟨HcS0, HO⟩
  set_option sl_exec.dmaWindow true in
  set_option sl_exec.dmaWindowSet true in
  sl_exec_parts
  -- hop 1: send slot 1 and slot 1 of peer c 1's receive buffer go to the transfer
  iapply (wp_send_hop m K c 1 _ (dev9_eq c) (sound_body.sl.Hc1_w2 m c fwt fcm) fd1 (sent_fact m c 1 _ _ _ (x_loaded m c) ((wt_read_other c 1 0 (by decide) _ _).trans ((wt_read_other c 1 3 (by decide) _ _).trans ((wt_read_other c 1 2 (by decide) _ _).trans (wtile_loaded_peer m c 1 1 1 rfl _))))) _ _) $$ [Hc1 Hd1 HO HtS1 HtRP1]
  · isplitr; · iexact IS1
    isplitr; · iexact IRP1
    isplitl [Hc1]; · unfold commPts; iexact Hc1
    isplitl [Hd1]; · unfold slotPts; iexact Hd1
    isplitl [HO]; · iexact HO
    isplitl [HtS1]; · iexact HtS1
    isplitr; · iexact HrS1
    isplitl [HtRP1]; · iexact HtRP1
    iexact HrP1
  iintro ⟨HcS1, HO⟩
  set_option sl_exec.dmaWindow true in
  set_option sl_exec.dmaWindowSet true in
  sl_exec_parts
  -- hop 2: send slot 2 and slot 2 of peer c 2's receive buffer go to the transfer
  iapply (wp_send_hop m K c 2 _ (dev10_eq c) (sound_body.sl.Hc2_w2 m c fwt fcm) fd2 (sent_fact m c 2 _ _ _ (x_loaded m c) ((wt_read_other c 2 1 (by decide) _ _).trans ((wt_read_other c 2 0 (by decide) _ _).trans ((wt_read_other c 2 3 (by decide) _ _).trans (wtile_loaded_peer m c 2 2 2 rfl _))))) _ _) $$ [Hc2 Hd2 HO HtS2 HtRP2]
  · isplitr; · iexact IS2
    isplitr; · iexact IRP2
    isplitl [Hc2]; · unfold commPts; iexact Hc2
    isplitl [Hd2]; · unfold slotPts; iexact Hd2
    isplitl [HO]; · iexact HO
    isplitl [HtS2]; · iexact HtS2
    isplitr; · iexact HrS2
    isplitl [HtRP2]; · iexact HtRP2
    iexact HrP2
  iintro ⟨HcS2, HO⟩
  set_option sl_exec.dmaWindow true in
  set_option sl_exec.dmaWindowSet true in
  sl_exec_parts
  -- hop 3: send slot 3 and slot 3 of peer c 3's receive buffer go to the transfer
  iapply (wp_send_hop m K c 3 _ (dev11_eq c) (sound_body.sl.Hc3_w2 m c fwt fcm) fd3 (sent_fact m c 3 _ _ _ (x_loaded m c) ((wt_read_other c 3 2 (by decide) _ _).trans ((wt_read_other c 3 1 (by decide) _ _).trans ((wt_read_other c 3 0 (by decide) _ _).trans (wtile_loaded_peer m c 3 3 3 rfl _))))) _ _) $$ [Hc3 Hd3 HO HtS3 HtRP3]
  · isplitr; · iexact IS3
    isplitr; · iexact IRP3
    isplitl [Hc3]; · unfold commPts; iexact Hc3
    isplitl [Hd3]; · unfold slotPts; iexact Hd3
    isplitl [HO]; · iexact HO
    isplitl [HtS3]; · iexact HtS3
    isplitr; · iexact HrS3
    isplitl [HtRP3]; · iexact HtRP3
    iexact HrP3
  iintro ⟨HcS3, HO⟩
  set_option sl_exec.dmaWindow true in
  set_option sl_exec.dmaWindowSet true in
  sl_exec_parts
  -- hop 4: send slot 4 and slot 4 of peer c 4's receive buffer go to the transfer
  iapply (wp_send_hop m K c 4 _ (dev12_eq c) (sound_body.sl.Hc4_w2 m c fwt fcm) fd4 (sent_fact m c 4 _ _ _ (x_loaded m c) ((wt_read_other c 0 3 (by decide) _ _).trans ((wt_read_other c 0 2 (by decide) _ _).trans ((wt_read_other c 0 1 (by decide) _ _).trans (wtile_loaded_peer m c 0 4 4 rfl _))))) _ _) $$ [Hc4 Hd4 HO HtS4 HtRP4]
  · isplitr; · iexact IS4
    isplitr; · iexact IRP4
    isplitl [Hc4]; · unfold commPts; iexact Hc4
    isplitl [Hd4]; · unfold slotPts; iexact Hd4
    isplitl [HO]; · iexact HO
    isplitl [HtS4]; · iexact HtS4
    isplitr; · iexact HrS4
    isplitl [HtRP4]; · iexact HtRP4
    iexact HrP4
  iintro ⟨HcS4, HO⟩
  set_option sl_exec.dmaWindow true in
  set_option sl_exec.dmaWindowSet true in
  sl_exec_parts
  -- hop 5: send slot 5 and slot 5 of peer c 5's receive buffer go to the transfer
  iapply (wp_send_hop m K c 5 _ (dev13_eq c) (sound_body.sl.Hc5_w1 m c fwt fcm) fd5 (sent_fact m c 5 _ _ _ (x_loaded m c) ((wt_read_other c 1 3 (by decide) _ _).trans ((wt_read_other c 1 2 (by decide) _ _).trans (wtile_loaded_peer m c 1 5 5 rfl _)))) _ _) $$ [Hc5 Hd5 HO HtS5 HtRP5]
  · isplitr; · iexact IS5
    isplitr; · iexact IRP5
    isplitl [Hc5]; · unfold commPts; iexact Hc5
    isplitl [Hd5]; · unfold slotPts; iexact Hd5
    isplitl [HO]; · iexact HO
    isplitl [HtS5]; · iexact HtS5
    isplitr; · iexact HrS5
    isplitl [HtRP5]; · iexact HtRP5
    iexact HrP5
  iintro ⟨HcS5, HO⟩
  set_option sl_exec.dmaWindow true in
  set_option sl_exec.dmaWindowSet true in
  sl_exec_parts
  ihave HO := (owes_zero_add c _ _) $$ HO
  -- hop 6: send slot 6 and slot 6 of peer c 6's receive buffer go to the transfer
  iapply (wp_send_hop m K c 6 _ (dev14_eq c) (sound_body.sl.Hc6_w1 m c fwt fcm) fd6 (sent_fact m c 6 _ _ _ (x_loaded m c) ((wt_read_other c 2 3 (by decide) _ _).trans (wtile_loaded_peer m c 2 6 6 rfl _))) _ _) $$ [Hc6 Hd6 HO HtS6 HtRP6]
  · isplitr; · iexact IS6
    isplitr; · iexact IRP6
    isplitl [Hc6]; · unfold commPts; iexact Hc6
    isplitl [Hd6]; · unfold slotPts; iexact Hd6
    isplitl [HO]; · iexact HO
    isplitl [HtS6]; · iexact HtS6
    isplitr; · iexact HrS6
    isplitl [HtRP6]; · iexact HtRP6
    iexact HrP6
  iintro ⟨HcS6, HO⟩
  set_option sl_exec.dmaWindow true in
  set_option sl_exec.dmaWindowSet true in
  sl_exec_parts
  have hbo : sound_body.sl.dma4 m c fwt fst = ownBlk m c := own_dma m c _ (x_loaded m c) _ (by first | exact wtile_loaded_own m c 3 _ | exact (wt_read_other c 3 2 (by decide) _ _).trans ((wt_read_other c 3 1 (by decide) _ _).trans ((wt_read_other c 3 0 (by decide) _ _).trans (wtile_loaded_own m c 3 _)))) fst _
  have hb0 : sound_body.sl.dma7 m c fwt fst = gotBlk m c 0 := got_dma0 m c _ rfl fst _
  have hb1 : sound_body.sl.dma10 m c fwt fst = gotBlk m c 1 := got_dma1 m c _ rfl fst _
  have hb2 : sound_body.sl.dma13 m c fwt fst = gotBlk m c 2 := got_dma2 m c _ rfl fst _
  have hb3 : sound_body.sl.dma16 m c fwt fst = gotBlk m c 3 := got_dma3 m c _ rfl fst _
  have hb4 : sound_body.sl.dma19 m c fwt fst = gotBlk m c 4 := got_dma4 m c _ rfl fst _
  have hb5 : sound_body.sl.dma22 m c fwt fst = gotBlk m c 5 := got_dma5 m c _ rfl fst _
  have hb6 : sound_body.sl.dma25 m c fwt fst = gotBlk m c 6 := got_dma6 m c _ rfl fst _
  -- the fourteen rounds cells close: their counters, at zero, are the core's again
  imod (Rounds.cell_close ER (sched m) (Set.mem_univ (K (c, jS 0))) (fun h => h) (R := 0 + 1) (fun r hr => duties_later m (sendCell c 0) r hr)) $$ [HatS0] with HzS0
  · isplitr; · iexact IS0
    iexact HatS0
  imod (Rounds.cell_close ER (sched m) (Set.mem_univ (K (c, jS 1))) (fun h => h) (R := 0 + 1) (fun r hr => duties_later m (sendCell c 1) r hr)) $$ [HatS1] with HzS1
  · isplitr; · iexact IS1
    iexact HatS1
  imod (Rounds.cell_close ER (sched m) (Set.mem_univ (K (c, jS 2))) (fun h => h) (R := 0 + 1) (fun r hr => duties_later m (sendCell c 2) r hr)) $$ [HatS2] with HzS2
  · isplitr; · iexact IS2
    iexact HatS2
  imod (Rounds.cell_close ER (sched m) (Set.mem_univ (K (c, jS 3))) (fun h => h) (R := 0 + 1) (fun r hr => duties_later m (sendCell c 3) r hr)) $$ [HatS3] with HzS3
  · isplitr; · iexact IS3
    iexact HatS3
  imod (Rounds.cell_close ER (sched m) (Set.mem_univ (K (c, jS 4))) (fun h => h) (R := 0 + 1) (fun r hr => duties_later m (sendCell c 4) r hr)) $$ [HatS4] with HzS4
  · isplitr; · iexact IS4
    iexact HatS4
  imod (Rounds.cell_close ER (sched m) (Set.mem_univ (K (c, jS 5))) (fun h => h) (R := 0 + 1) (fun r hr => duties_later m (sendCell c 5) r hr)) $$ [HatS5] with HzS5
  · isplitr; · iexact IS5
    iexact HatS5
  imod (Rounds.cell_close ER (sched m) (Set.mem_univ (K (c, jS 6))) (fun h => h) (R := 0 + 1) (fun r hr => duties_later m (sendCell c 6) r hr)) $$ [HatS6] with HzS6
  · isplitr; · iexact IS6
    iexact HatS6
  imod (Rounds.cell_close ER (sched m) (Set.mem_univ (K (c, jR 0))) (fun h => h) (R := 0 + 1) (fun r hr => duties_later m (recvCell c 0) r hr)) $$ [HatR0] with HzR0
  · isplitr; · iexact IR0
    iexact HatR0
  imod (Rounds.cell_close ER (sched m) (Set.mem_univ (K (c, jR 1))) (fun h => h) (R := 0 + 1) (fun r hr => duties_later m (recvCell c 1) r hr)) $$ [HatR1] with HzR1
  · isplitr; · iexact IR1
    iexact HatR1
  imod (Rounds.cell_close ER (sched m) (Set.mem_univ (K (c, jR 2))) (fun h => h) (R := 0 + 1) (fun r hr => duties_later m (recvCell c 2) r hr)) $$ [HatR2] with HzR2
  · isplitr; · iexact IR2
    iexact HatR2
  imod (Rounds.cell_close ER (sched m) (Set.mem_univ (K (c, jR 3))) (fun h => h) (R := 0 + 1) (fun r hr => duties_later m (recvCell c 3) r hr)) $$ [HatR3] with HzR3
  · isplitr; · iexact IR3
    iexact HatR3
  imod (Rounds.cell_close ER (sched m) (Set.mem_univ (K (c, jR 4))) (fun h => h) (R := 0 + 1) (fun r hr => duties_later m (recvCell c 4) r hr)) $$ [HatR4] with HzR4
  · isplitr; · iexact IR4
    iexact HatR4
  imod (Rounds.cell_close ER (sched m) (Set.mem_univ (K (c, jR 5))) (fun h => h) (R := 0 + 1) (fun r hr => duties_later m (recvCell c 5) r hr)) $$ [HatR5] with HzR5
  · isplitr; · iexact IR5
    iexact HatR5
  imod (Rounds.cell_close ER (sched m) (Set.mem_univ (K (c, jR 6))) (fun h => h) (R := 0 + 1) (fun r hr => duties_later m (recvCell c 6) r hr)) $$ [HatR6] with HzR6
  · isplitr; · iexact IR6
    iexact HatR6
  rw [wp_ret]; imodintro
  iapply Hk
  unfold bodyPost scratches
  isplitl [HX]; · iexact HX
  isplitl [HW HW_2 HW_3 HW_4 HW_5 HW_6 HW_7]
  · iapply (w_rejoin c (wOf m c))
    isplitl [HW]; · iexact HW
    isplitl [HW_2]; · iexact HW_2
    isplitl [HW_3]; · iexact HW_3
    isplitl [HW_4]; · iexact HW_4
    isplitl [HW_5]; · iexact HW_5
    isplitl [HW_6]; · iexact HW_6
    iexact HW_7
  isplitl [Hout Hout_2 Hout_3 Hout_4 Hout_5 Hout_6 Hout_7]
  · iapply (out_rejoin c (outV m c) _ _ _ _ _ _ _ (rest_fact m c _ _ _ hb5 hb6) (own_fact m c _ _ hbo) (win_fact m c 0 _ _ hb0) (win_fact m c 1 _ _ hb1) (win_fact m c 2 _ _ hb2) (win_fact m c 3 _ _ hb3) (win_fact m c 4 _ _ hb4))
    isplitl [Hout]; · iexact Hout
    isplitl [Hout_2]; · iexact Hout_2
    isplitl [Hout_3]; · iexact Hout_3
    isplitl [Hout_4]; · iexact Hout_4
    isplitl [Hout_5]; · iexact Hout_5
    isplitl [Hout_6]; · iexact Hout_6
    iexact Hout_7
  isplitl [Hxs Hwt Hst HatS0_pay1 HatS1_pay1 HatS2_pay1 HatS3_pay1 HatS4_pay1 HatS5_pay1 HatS6_pay1 HatR0_pay1 HatR1_pay1 HatR2_pay1 HatR3_pay1 HatR4_pay1 HatR5_pay1 HatR6_pay1]
  · isplitl [Hxs]; · iexists _; iexact Hxs
    isplitl [Hwt]; · iexists _; iexact Hwt
    isplitl [HatS0_pay1 HatS1_pay1 HatS2_pay1 HatS3_pay1 HatS4_pay1 HatS5_pay1 HatS6_pay1]
    · iapply (comm_join c _ _ _ _ _ _ _)
      isplitl [HatS0_pay1]; · iexact HatS0_pay1
      isplitl [HatS1_pay1]; · iexact HatS1_pay1
      isplitl [HatS2_pay1]; · iexact HatS2_pay1
      isplitl [HatS3_pay1]; · iexact HatS3_pay1
      isplitl [HatS4_pay1]; · iexact HatS4_pay1
      isplitl [HatS5_pay1]; · iexact HatS5_pay1
      iexact HatS6_pay1
    isplitl [HatR0_pay1 HatR1_pay1 HatR2_pay1 HatR3_pay1 HatR4_pay1 HatR5_pay1 HatR6_pay1]
    · iapply (recv_join c _ _ _ _ _ _ _)
      isplitl [HatR0_pay1]; · iexact HatR0_pay1
      isplitl [HatR1_pay1]; · iexact HatR1_pay1
      isplitl [HatR2_pay1]; · iexact HatR2_pay1
      isplitl [HatR3_pay1]; · iexact HatR3_pay1
      isplitl [HatR4_pay1]; · iexact HatR4_pay1
      isplitl [HatR5_pay1]; · iexact HatR5_pay1
      iexact HatR6_pay1
    iexists _; iexact Hst
  isplitr [HO]
  · iapply (allSems0_intro c)
    unfold locSems0
    rw [bigSep_fin16', bigSep_hop, bigSep_hop]
    isplitl [Hl0 Hl1 Hl2 Hl3 Hl4 Hl5 Hl6 Hl7 Hl8 Hl9 Hl10 Hl11 Hl12 Hl13 Hl14 Hl15]
    · isplitl [Hl0]; · iexact Hl0
      isplitl [Hl1]; · iexact Hl1
      isplitl [Hl2]; · iexact Hl2
      isplitl [Hl3]; · iexact Hl3
      isplitl [Hl4]; · iexact Hl4
      isplitl [Hl5]; · iexact Hl5
      isplitl [Hl6]; · iexact Hl6
      isplitl [Hl7]; · iexact Hl7
      isplitl [Hl8]; · iexact Hl8
      isplitl [Hl9]; · iexact Hl9
      isplitl [Hl10]; · iexact Hl10
      isplitl [Hl11]; · iexact Hl11
      isplitl [Hl12]; · iexact Hl12
      isplitl [Hl13]; · iexact Hl13
      isplitl [Hl14]; · iexact Hl14
      iexact Hl15
    isplitl [HzS0 HzS1 HzS2 HzS3 HzS4 HzS5 HzS6]
    · isplitl [HzS0]; · iexact HzS0
      isplitl [HzS1]; · iexact HzS1
      isplitl [HzS2]; · iexact HzS2
      isplitl [HzS3]; · iexact HzS3
      isplitl [HzS4]; · iexact HzS4
      isplitl [HzS5]; · iexact HzS5
      iexact HzS6
    isplitl [HzR0]; · iexact HzR0
    isplitl [HzR1]; · iexact HzR1
    isplitl [HzR2]; · iexact HzR2
    isplitl [HzR3]; · iexact HzR3
    isplitl [HzR4]; · iexact HzR4
    isplitl [HzR5]; · iexact HzR5
    iexact HzR6
  iexists _; iexact HO

/-- info: 'Cert.KernelIdeal.A2A.sound_body' depends on axioms: [propext, Classical.choice, Quot.sound] -/
#guard_msgs in #print axioms sound_body

end Cert.KernelIdeal.A2A

end
-- ==== Proof.Launch.lean ====
import proofs.«900533_g7700000000000534_dist_gemm_a2a_m4096_k4096_n2048_f32_relu_v7x_i8_1_alg».proof.Proof.Body
import proofs.«900533_g7700000000000534_dist_gemm_a2a_m4096_k4096_n2048_f32_relu_v7x_i8_1_alg».proof.Proof.Tables
import proofs.«900533_g7700000000000534_dist_gemm_a2a_m4096_k4096_n2048_f32_relu_v7x_i8_1_alg».proof.Proof.Gen.KernelIdeal.Launch
import proofs.«900533_g7700000000000534_dist_gemm_a2a_m4096_k4096_n2048_f32_relu_v7x_i8_1_alg».proof.Proof.Gen.KernelIdeal.Points
import Idealize.ShloMosaic.Lib.Pipeline.Launch
import Idealize.ShloMosaic.Lib.Pipeline.Kit
import Idealize.ShloMosaic.Lib.Tactic

set_option maxRecDepth 16384

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ UU ℕ

variable (m : (ℓ : Loc nD τ sig) → Buf (Elt F) ℓ)

/-! ## The proof data -/

/-- What a device's body starts from, the five scratch buffers apart: its ghost state at some names, its credits,
    the level facts, the sixteen local semaphores at zero, the two arguments at their contents, the result array. -/
def start (c : Dev nD) : sProp 𝕄 :=
  iprop((∃ K, ghost m K c) ∗ cred (tallyAt (barCell c) () 7) ∗ bigSep Finset.univ (fun h : Hop => cred (tallyAt (recvCell c h) () N)) ∗ levAts L lv
    ∗ locSems0 c ∗ held c xM (xOf m c) ∗ held c wM (wOf m c) ∗ (∃ f, held c oM f))

def Φ₀ (c : Dev nD) : sProp 𝕄 := iprop(start m c ∗ scratches c)
/-- After the point: the arguments as they were, the result, the scratch buffers, every own semaphore at zero. -/
def Φ₁ (c : Dev nD) : sProp 𝕄 :=
  iprop(held c xM (xOf m c) ∗ held c wM (wOf m c) ∗ held c oM (outV m c) ∗ scratches c ∗ allSems0 c)

def dats (ρ : Dev nD → PrngReg) (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

/-! ## The body obligation -/

def bodyPre' (ρ : Dev nD → PrngReg) (c : Dev nD) : sProp 𝕄 :=
  iprop(Φ₀ m c ∗ (dats m ρ 0 c).owesAt () t0_0.castSucc ∗ emp)

def bodyPost' (ρ : Dev nD → PrngReg) (c : Dev nD) : sProp 𝕄 :=
  iprop(Φ₁ m c ∗ (dats m ρ 0 c).owesAt () t0_0.succ ∗ emp)

theorem body_obligation (ρ : Dev nD → PrngReg) (c : Dev nD) : BodyObligation (dats (F := F) m ρ 0 c) (defs₀ (F := F)) 𝒱₀ () Set.univ := fun t => by
  rw [fin_N0 t]
  rw [show (Finset.univ : Finset (Fin cfg0.W)) = ∅ from rfl, BI.bigSep_empty, BI.bigSep_empty]
  show bodyPre' m ρ c ⊢ wp frame (wpE (defs₀ (F := F)) 𝒱₀ c none) Set.univ (bodyAt0 (F := F) t0_0) (fun _ => bodyPost' m ρ c)
  unfold bodyPre' Φ₀ start
  iintro ⟨⟨⟨⟨%K, Hg⟩, HcB, HcR, Hlev, Hloc, Hx, Hw, Ho⟩, Hscr⟩, ⟨%W, %hW, HO⟩, -⟩
  iapply (sound_body m K c fun _ => bodyPost' m ρ c)
  unfold bodyPre
  isplitr []
  · isplitl [Hg]; · iexact Hg
    isplitl [HcB]; · iexact HcB
    isplitl [HcR]; · iexact HcR
    isplitl [Hlev]; · iexact Hlev
    isplitl [HO]; · iexists W; iexact HO
    isplitl [Hloc]; · iexact Hloc
    isplitl [Hx]; · iexact Hx
    isplitl [Hw]; · iexact Hw
    isplitl [Ho]; · iexact Ho
    iexact Hscr
  · unfold bodyPost bodyPost' Φ₁
    iintro ⟨Hx, Hw, Ho, Hscr, Hsem, ⟨%W, HO⟩⟩
    isplitl [Hx Hw Ho Hscr Hsem]
    · isplitl [Hx]; · iexact Hx
      isplitl [Hw]; · iexact Hw
      isplitl [Ho]; · iexact Ho
      isplitl [Hscr]; · iexact Hscr
      iexact Hsem
    isplitl
    · iexists W; isplitr
      · ipureintro; exact fun _ _ => Or.inl trivial
      iexact HO
    · iempintro

/-! ## The launch: the own semaphores, the cells, the tokens -/

abbrev osem : DmaSem sig → SemLoc sig := SemLoc.dma

theorem ownSemFacts : Pipeline.OwnSemFacts cfg0.spec osem :=
  ⟨by decide, fun a b h => by cases h; rfl, fun _ w => w.elim0⟩

theorem share_eq (ρ : Dev nD → PrngReg) (c : Dev nD) (w : Fin cfg0.W) : (dats m ρ 0 c).share w = fullShare := w.elim0

theorem csem_jS (h : Hop) : csem (jS h) = (.dma (sendS h) : SemLoc sig) := by revert h; decide
theorem csem_jR (h : Hop) : csem (jR h) = (.dma (recvS h) : SemLoc sig) := by revert h; decide
theorem kcell_zero (c : Dev nD) : kcell (c, 0) = barCell c := rfl
theorem kcell_jS (c : Dev nD) (h : Hop) : kcell (c, jS h) = sendCell c h := by
  show ((c : Thread nD τ), csem (jS h)) = _; rw [csem_jS]
theorem kcell_jR (c : Dev nD) (h : Hop) : kcell (c, jR h) = recvCell c h := by
  show ((c : Thread nD τ), csem (jR h)) = _; rw [csem_jR]

/-- A left inverse of the cells' naming. -/
def csemInv : SemLoc sig → ℕ
  | .reg _ => 0
  | .dma q => q.val - 7
theorem csemInv_csem : ∀ j : Fin 15, csemInv (csem j) = j.val := by decide
theorem csem_injective : Function.Injective (csem : Fin 15 → SemLoc sig) :=
  fun a b h => Fin.ext (by rw [← csemInv_csem a, ← csemInv_csem b, h])

theorem kcell_injective : Function.Injective (kcell : Dev nD × Fin 15 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]
def ringCells : Finset (GSem nD τ sig) := Finset.univ.map ⟨kcell, kcell_injective⟩

theorem sendS_inj : ∀ h h' : Hop, sendS h = sendS h' → h = h' := by decide
theorem recvS_inj : ∀ h h' : Hop, recvS h = recvS h' → h = h' := by decide
theorem sendS_ne_recvS' : ∀ h h' : Hop, sendS h ≠ recvS h' := by decide

/-- A device's own cells' duty tokens as minted: the barrier's seven, one per send cell, one per receive cell. -/
def tokOf (cj : Dev nD × (Hop ⊕ (Hop ⊕ Hop))) : GSem nD τ sig × ℕ × Hop := match cj.2 with
  | .inl k => (barCell cj.1, 0, k)
  | .inr (.inl h) => (sendCell cj.1 h, 0, 0)
  | .inr (.inr h) => (recvCell cj.1 h, 0, 0)
theorem tokOf_injective : Function.Injective (tokOf : Dev nD × (Hop ⊕ (Hop ⊕ Hop)) → GSem nD τ sig × ℕ × Hop) := by
  rintro ⟨c, j⟩ ⟨c', j'⟩ h
  have h1 : c = c' := by
    have := congrArg (fun x : GSem nD τ sig × ℕ × Hop => x.1.1.1) h
    rcases j with k | h₁ | h₁ <;> rcases j' with k' | h₂ | h₂ <;> exact this
  subst h1
  have hs := congrArg (fun x : GSem nD τ sig × ℕ × Hop => x.1.2) h
  have hd := congrArg (fun x : GSem nD τ sig × ℕ × Hop => x.2.2) h
  rcases j with k | h₁ | h₁ <;> rcases j' with k' | h₂ | h₂
  · have : k = k' := hd
    rw [this]
  · exact absurd hs (fun h' => by cases h')
  · exact absurd hs (fun h' => by cases h')
  · exact absurd hs (fun h' => by cases h')
  · have : h₁ = h₂ := sendS_inj _ _ (SemLoc.dma.inj hs)
    rw [this]
  · exact absurd (SemLoc.dma.inj hs) (sendS_ne_recvS' _ _)
  · exact absurd hs (fun h' => by cases h')
  · exact absurd (SemLoc.dma.inj hs).symm (sendS_ne_recvS' _ _)
  · have : h₁ = h₂ := recvS_inj _ _ (SemLoc.dma.inj hs)
    rw [this]
def ringToks : Finset (GSem nD τ sig × ℕ × Hop) := Finset.univ.map ⟨tokOf, tokOf_injective⟩

/-- The launch element: the pipeline library's, the ring's cells and tokens, no counter. -/
def u₀ : UU :=
  (initOf (Pipeline.cells cfgs cellOf_inj) (Pipeline.launchToks cfgs cellOf_inj), (initOf ringCells ringToks, 1))

/-- The duty tokens of device c's own cells. -/
def toks (c : Dev nD) : sProp 𝕄 :=
  iprop((bigSep Finset.univ fun k : Hop => dutyTok ER (barCell c) 0 k)
    ∗ (bigSep Finset.univ fun h : Hop => dutyTok ER (sendCell c h) 0 (0 : Hop))
    ∗ bigSep Finset.univ fun h : Hop => dutyTok ER (recvCell c h) 0 (0 : Hop))

/-- What the launch element deals device c. -/
def G (c : Dev nD) : sProp 𝕄 :=
  iprop((bigSep Finset.univ fun k : Fin 15 => roundState ER (sched m) (kcell (c, k)) 0)
    ∗ (bigSep Finset.univ fun k : Fin 15 => iprop(atPos ER (kcell (c, k)) 0 ∅ 0 ∗ reached ER (kcell (c, k)) 0)) ∗ toks c)

/-- What the global step makes of it. -/
def G' (c : Dev nD) : sProp 𝕄 := iprop((∃ K, ghost m K c) ∗ locSems0 c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 15 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, bigSep_univ_sum]; rfl
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every device's cells allocated at once -/

/-- The thirty own semaphores: the sixteen local ones, the seven send and the seven receive ones. -/
def e30 : Fin 16 ⊕ (Hop ⊕ Hop) ≃ DmaSem sig where
  toFun
    | .inl j => locSem j
    | .inr (.inl h) => sendS h
    | .inr (.inr h) => recvS h
  invFun q :=
    if h : q.val < 8 then .inl ⟨q.val, by omega⟩
    else if h2 : q.val < 15 then .inr (.inl ⟨q.val - 8, by omega⟩)
    else if h3 : q.val < 22 then .inr (.inr ⟨q.val - 15, by omega⟩)
    else .inl ⟨q.val - 14, by have : q.val < 30 := q.isLt; omega⟩
  left_inv := by decide
  right_inv := by decide

/-- The fifteen cell names: the barrier's, the seven send cells', the seven receive cells'. -/
def e15 : Unit ⊕ (Hop ⊕ Hop) ≃ Fin 15 where
  toFun
    | .inl _ => 0
    | .inr (.inl h) => jS h
    | .inr (.inr h) => jR h
  invFun j :=
    if j.val = 0 then .inl ()
    else if h : j.val < 8 then .inr (.inl ⟨j.val - 1, by omega⟩)
    else .inr (.inr ⟨j.val - 8, by have := j.isLt; omega⟩)
  left_inv := by decide
  right_inv := by decide

theorem bigSep_fin15 (Φ : Fin 15 → sProp 𝕄) :
    bigSep Finset.univ Φ = iprop(Φ 0 ∗ (bigSep Finset.univ fun h : Hop => Φ (jS h)) ∗ bigSep Finset.univ fun h : Hop => Φ (jR h)) := by
  rw [bigSep_univ_equiv e15, bigSep_univ_sum, bigSep_univ_sum, bigSep_univ_of_subsingleton ()]; rfl

theorem ownSems0_eq (c : Dev nD) : (Pipeline.ownSems0 (Ix := Unit) (Name := ℕ) (U := UU) (Lvl := ℕ) (Val := Elt F) (τ := τ) osem c : sProp 𝕄)
    = iprop(locSems0 c ∗ (bigSep Finset.univ fun h : Hop => semVal (sendCell c h) 0) ∗ bigSep Finset.univ fun h : Hop => semVal (recvCell c h) 0) := by
  unfold Pipeline.ownSems0 locSems0
  rw [bigSep_univ_equiv e30, bigSep_univ_sum, bigSep_univ_sum]; rfl

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ iprop((bigSep Finset.univ fun k : Fin 15 => semVal (kcell (c, k)) 0) ∗ locSems0 c : sProp 𝕄) := by
  rw [ownSems0_eq, unscopedSems0_eq, bigSep_fin15]
  simp only [kcell_jS, kcell_jR]
  iintro ⟨⟨Hl, HS, HR⟩, HB⟩
  isplitr [Hl]
  · isplitl [HB]; · iexact HB
    isplitl [HS] <;> iassumption
  · iexact Hl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c ∗ locSems0 c) := by
  unfold G
  iintro ⟨Hos, Hus, Hst, Hat, Htok⟩
  ihave Hv := (sems0_eq (F := F) c) $$ [Hos Hus]
  · isplitl [Hos] <;> iassumption
  icases Hv with ⟨Hv, Hloc⟩
  imod (show iprop((bigSep Finset.univ fun k : Fin 15 => semVal (kcell (c, k)) 0) ∗ bigSep Finset.univ fun k : Fin 15 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hloc

def records (K : Dev nD × Fin 15 → ℕ) : sProp 𝕄 :=
  iprop((bigSep Finset.univ fun ck : Dev nD × Fin 15 => cellInv ER (sched m) (K ck) (kcell ck))
    ∗ bigSep Finset.univ fun ck : Dev nD × Fin 15 => reached ER (kcell ck) 0)

instance records_persistent (K : Dev nD × Fin 15 → ℕ) : BI.Persistent (records m K) := by unfold records; infer_instance

theorem inv_at (K : Dev nD × Fin 15 → ℕ) (ck : Dev nD × Fin 15) :
    (bigSep Finset.univ fun ck : Dev nD × Fin 15 => (cellInv ER (sched m) (K ck) (kcell ck) : sProp 𝕄)) ⊢ cellInv ER (sched m) (K ck) (kcell ck) :=
  bigSep_elim (Finset.mem_univ ck)
theorem reached_at (ck : Dev nD × Fin 15) :
    (bigSep Finset.univ fun ck : Dev nD × Fin 15 => (reached ER (kcell ck) 0 : sProp 𝕄)) ⊢ reached ER (kcell ck) 0 :=
  bigSep_elim (Finset.mem_univ ck)

theorem inv_send (K : Dev nD × Fin 15 → ℕ) (c : Dev nD) (h : Hop) :
    (bigSep Finset.univ fun ck : Dev nD × Fin 15 => (cellInv ER (sched m) (K ck) (kcell ck) : sProp 𝕄)) ⊢ cellInv ER (sched m) (K (c, jS h)) (sendCell c h) := by
  rw [← kcell_jS c h]; exact inv_at m K (c, jS h)
theorem inv_recv (K : Dev nD × Fin 15 → ℕ) (c : Dev nD) (h : Hop) :
    (bigSep Finset.univ fun ck : Dev nD × Fin 15 => (cellInv ER (sched m) (K ck) (kcell ck) : sProp 𝕄)) ⊢ cellInv ER (sched m) (K (c, jR h)) (recvCell c h) := by
  rw [← kcell_jR c h]; exact inv_at m K (c, jR h)
theorem reached_send (c : Dev nD) (h : Hop) :
    (bigSep Finset.univ fun ck : Dev nD × Fin 15 => (reached ER (kcell ck) 0 : sProp 𝕄)) ⊢ reached ER (sendCell c h) 0 := by
  rw [← kcell_jS c h]; exact reached_at (c, jS h)
theorem reached_recv (c : Dev nD) (h : Hop) :
    (bigSep Finset.univ fun ck : Dev nD × Fin 15 => (reached ER (kcell ck) 0 : sProp 𝕄)) ⊢ reached ER (recvCell c h) 0 := by
  rw [← kcell_jR c h]; exact reached_at (c, jR h)

/-- What stays with device c: its positions, the tokens of the duties it pays, its local semaphores. -/
def payToks (c : Dev nD) : sProp 𝕄 :=
  iprop((bigSep Finset.univ fun k : Hop => dutyTok ER (barCell (peer c k)) 0 k)
    ∗ (bigSep Finset.univ fun h : Hop => dutyTok ER (recvCell (peer c h) h) 0 (0 : Hop))
    ∗ bigSep Finset.univ fun h : Hop => dutyTok ER (sendCell c h) 0 (0 : Hop))
def linear (c : Dev nD) : sProp 𝕄 :=
  iprop((bigSep Finset.univ fun k : Fin 15 => atPos ER (kcell (c, k)) 0 ∅ 0) ∗ payToks c ∗ locSems0 c)

theorem ghost_intro (K : Dev nD × Fin 15 → ℕ) (c : Dev nD) : iprop(records m K ∗ linear c) ⊢ G' m c := by
  unfold records linear payToks G' ghost invs
  rw [bigSep_fin15]
  simp only [kcell_jS, kcell_jR]
  iintro ⟨⟨#HI, #HR⟩, ⟨HaB, HaS, HaV⟩, ⟨HtB, HtR, HtS⟩, Hloc⟩
  isplitr [Hloc]
  · iexists K
    isplitr
    · isplitr; · iapply (inv_at m K (c, 0)); iexact HI
      isplitr; · iapply (BI.bigSep_intro_persistent fun h _ => inv_send m K c h); iexact HI
      isplitr; · iapply (BI.bigSep_intro_persistent fun h _ => inv_recv m K c h); iexact HI
      isplitr; · iapply (BI.bigSep_intro_persistent fun k _ => inv_at m K (peer c k, 0)); iexact HI
      iapply (BI.bigSep_intro_persistent fun h _ => inv_recv m K (peer c h) h); iexact HI
    isplitl [HaB]; · iexact HaB
    isplitl [HaS]; · iexact HaS
    isplitl [HaV]; · iexact HaV
    isplitr; · iapply (BI.bigSep_intro_persistent fun k _ => reached_at (F := F) (peer c k, 0)); iexact HR
    isplitr; · iapply (BI.bigSep_intro_persistent fun h _ => reached_send (F := F) c h); iexact HR
    isplitr; · iapply (BI.bigSep_intro_persistent fun h _ => reached_recv (F := F) c h); iexact HR
    isplitl [HtB]; · iexact HtB
    isplitl [HtR]; · iexact HtR
    iexact HtS
  · iexact Hloc

/-- Hop by hop the ring turns: device and hop to the device's peer at the hop. -/
def ePeer : Dev nD × Hop ≃ Dev nD × Hop where
  toFun p := (peer p.1 p.2, p.2)
  invFun p := (src p.1 p.2, p.2)
  left_inv p := by obtain ⟨c, h⟩ := p; show (src (peer c h) h, h) = (c, h); rw [src_peer]
  right_inv p := by obtain ⟨c, h⟩ := p; show (peer (src c h) h, h) = (c, h); rw [peer_src]

theorem around (Φ : Dev nD → Hop → sProp 𝕄) :
    (bigSep Finset.univ fun c : Dev nD => bigSep Finset.univ fun h : Hop => Φ c h)
      = bigSep Finset.univ fun c : Dev nD => bigSep Finset.univ fun h : Hop => Φ (peer c h) h :=
  (bigSep_univ_prod (fun p : Dev nD × Hop => Φ p.1 p.2)).symm.trans
    ((bigSep_univ_equiv ePeer (fun p : Dev nD × Hop => Φ p.1 p.2)).trans (bigSep_univ_prod (fun p : Dev nD × Hop => Φ (peer p.1 p.2) p.2)))

/-- The tokens dealt around the ring: a barrier's token k to the device k + 1 places down, a receive cell's likewise. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    around (fun c k => (dutyTok ER (barCell c) 0 k : sProp 𝕄)),
    around (fun c h => (dutyTok ER (recvCell c h) 0 (0 : Hop) : sProp 𝕄))]
  iintro ⟨H1, H2, H3⟩
  isplitl [H1]; · iexact H1
  isplitl [H3]; · iexact H3
  iexact H2

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c ∗ locSems0 c) : sProp 𝕄)
      ⊢ bigSep Finset.univ (G' m) := by
  rw [bigSep_sep', bigSep_sep', bigSep_sep', ← bigSep_univ_prod (fun ck : Dev nD × Fin 15 => iprop(∃ κ : ℕ, cellInv ER (sched m) κ (kcell ck))),
    bigSep_congr (s := Finset.univ) (fun (c : Dev nD) _ => bigSep_sep' Finset.univ (fun k : Fin 15 => (atPos ER (kcell (c, k)) 0 ∅ 0 : sProp 𝕄)) (fun k => reached ER (kcell (c, k)) 0)),
    bigSep_sep', ← bigSep_univ_prod (fun ck : Dev nD × Fin 15 => (reached ER (kcell ck) 0 : sProp 𝕄))]
  iintro ⟨HI, ⟨Hat, #HR⟩, Htok, Hloc⟩
  ihave HK := (BI.bigSep_exists_pi Finset.univ (fun (ck : Dev nD × Fin 15) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · have hlin : (bigSep Finset.univ fun c : Dev nD => (linear c : sProp 𝕄))
        = iprop((bigSep Finset.univ fun c : Dev nD => bigSep Finset.univ fun k : Fin 15 => atPos ER (kcell (c, k)) 0 ∅ 0)
          ∗ (bigSep Finset.univ fun c : Dev nD => payToks c) ∗ bigSep Finset.univ fun c : Dev nD => locSems0 c) := by
      unfold linear; rw [bigSep_sep', bigSep_sep']
    rw [hlin]
    isplitl [Hat]; · iexact Hat
    isplitl [Htk]; · iexact Htk
    iexact Hloc

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem O₀_eq (d : Dev nD) :
    O₀ d = (∑ h : Hop, (tallyAt (recvCell (peer d h) h) () N : CellTallies nD τ sig Unit)) + ∑ k : Hop, (tallyAt (barCell (peer d k)) () 1 : CellTallies nD τ sig Unit) := by
  unfold O₀; rw [Fin.sum_univ_seven, Fin.sum_univ_seven]; ac_rfl

theorem creds (c : Dev nD) :
    (Pipeline.launchCred O₀ c : sProp 𝕄) ⊢ iprop(cred (tallyAt (barCell c) () 7) ∗ bigSep Finset.univ fun h : Hop => cred (tallyAt (recvCell c h) () N)) := by
  rw [show (O₀ : Dev nD → CellTallies nD τ sig Unit)
      = fun d => (fun d => ∑ h : Hop, (tallyAt (recvCell (peer d h) h) () N : CellTallies nD τ sig Unit)) d
        + (fun d => ∑ k : Hop, (tallyAt (barCell (peer d k)) () 1 : CellTallies nD τ sig Unit)) d from funext O₀_eq,
    Pipeline.launchCred_add, Pipeline.launchCred_sum, Pipeline.launchCred_sum]
  iintro ⟨HR, HB⟩
  isplitl [HB]
  · have hB : (bigSep Finset.univ fun k : Hop => (Pipeline.launchCred (fun d => tallyAt (barCell (peer d k)) () 1) c : sProp 𝕄))
        ⊢ bigSep Finset.univ fun k : Hop => (cred (tallyAt (barCell c) () 1) : sProp 𝕄) :=
      bigSep_mono fun (k : Hop) _ => Pipeline.launchCred_tallyAt (SemLoc.reg barS) (fun d => peer d k) (fun c => src c k)
        (fun c => peer_src c k) (fun d => src_peer d k) () 1 c
    have hB7 : (bigSep Finset.univ fun k : Hop => (cred (tallyAt (barCell c) () 1) : sProp 𝕄)) ⊢ cred (tallyAt (barCell c) () 7) := by
      rw [bigSep_hop]
      refine BIBase.Entails.trans ?_ (Entails.of_eq (congrArg cred (show (tallyAt (barCell c) () 1 + (tallyAt (barCell c) () 1 + (tallyAt (barCell c) () 1 + (tallyAt (barCell c) () 1
        + (tallyAt (barCell c) () 1 + (tallyAt (barCell c) () 1 + tallyAt (barCell c) () 1))))) : CellTallies nD τ sig Unit) = tallyAt (barCell c) () 7 from by
          simp only [tallyAt_add])))
      iintro ⟨H0, H1, H2, H3, H4, H5, H6⟩
      iapply (cred_add _ _).2; isplitl [H0]; · iexact H0
      iapply (cred_add _ _).2; isplitl [H1]; · iexact H1
      iapply (cred_add _ _).2; isplitl [H2]; · iexact H2
      iapply (cred_add _ _).2; isplitl [H3]; · iexact H3
      iapply (cred_add _ _).2; isplitl [H4]; · iexact H4
      iapply (cred_add _ _).2; isplitl [H5]; · iexact H5
      iexact H6
    iapply hB7
    iapply hB
    iexact HB
  · have hR : (bigSep Finset.univ fun h : Hop => (Pipeline.launchCred (fun d => tallyAt (recvCell (peer d h) h) () N) c : sProp 𝕄))
        ⊢ bigSep Finset.univ fun h : Hop => (cred (tallyAt (recvCell c h) () N) : sProp 𝕄) :=
      bigSep_mono fun (h : Hop) _ => Pipeline.launchCred_tallyAt (SemLoc.dma (recvS h)) (fun d => peer d h) (fun c => src c h)
        (fun c => peer_src c h) (fun d => src_peer d h) () N c
    iapply hR
    iexact HR

/-! ## The theorem's side conditions -/

theorem held_whole (c : Dev nD) {sp : Space} {S : Shape} {e : EltTy} (M : Memref sig .tc sp S e) (hM : M.view.set = Finset.univ)
    (f : Buf (Elt F) (M.view.loc (c : Thread nD τ))) : held c M f = (M.view.loc (c : Thread nD τ) ↦{fullShare} f : sProp 𝕄) := by
  unfold held; rw [hM]

theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold G'
  iintro ⟨⟨Hx, Hw, Ho⟩, Hlev, Hcr, -, HG, Hloc⟩
  ihave Hc := (creds (F := F) c) $$ Hcr
  icases Hc with ⟨HcB, HcR⟩
  imodintro
  unfold start
  rw [held_whole c xM (View.set_whole _), held_whole c wM (View.set_whole _)]
  isplitl
  · isplitl [HG]; · iexact HG
    isplitl [HcB]; · iexact HcB
    isplitl [HcR]; · iexact HcR
    isplitl [Hlev]; · iexact Hlev
    isplitl [Hloc]; · iexact Hloc
    isplitl [Hx]; · iexact Hx
    isplitl [Hw]; · iexact Hw
    iexists m ((c : Thread nD τ).loc main_v1)
    rw [held_whole c oM (View.set_whole _)]
    iexact Ho
  · iempintro

theorem phi0_intro (ρ : Dev nD → PrngReg) (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratches
  iintro ⟨Hs, -, ⟨%f0, H0⟩, ⟨%f1, H1⟩, ⟨%f2, H2⟩, ⟨%f3, H3⟩, ⟨%f4, H4⟩⟩
  isplitl [Hs]; · iexact Hs
  isplitl [H0]; · iexists f0; rw [held_whole c xsM (View.set_whole _)]; iexact H0
  isplitl [H1]; · iexists f1; rw [held_whole c wtM (View.set_whole _)]; iexact H1
  isplitl [H2]; · iexists f2; rw [held_whole c commM (View.set_whole _)]; iexact H2
  isplitl [H3]; · iexists f3; rw [held_whole c recvM (View.set_whole _)]; iexact H3
  iexists f4; rw [held_whole c stM (View.set_whole _)]; iexact H4

/-- What the launch keeps of the last point: the two arguments and the result, each whole. -/
def Yc (c : Dev nD) : sProp 𝕄 :=
  iprop((((c : Thread nD τ).loc main_arg0) ↦{fullShare} xOf m c) ∗ (((c : Thread nD τ).loc main_arg1) ↦{fullShare} wOf m c)
    ∗ (((c : Thread nD τ).loc main_v1) ↦{fullShare} outV m c))

theorem phi1_exit (ρ : Dev nD → PrngReg) (c : Dev nD) :
    (dats m ρ 0 c).Φ (Fin.last cfg0.N) ⊢ iprop(Yc m c ∗ Pipeline.ownSems0 osem c ∗ Pipeline.scopedRest cfg0.spec c) := by
  rw [show (dats m ρ 0 c).Φ (Fin.last cfg0.N) = Φ₁ m c from rfl, scopedRest0_eq]
  unfold Φ₁ scratches Yc allSems0
  rw [held_whole c xM (View.set_whole _), held_whole c wM (View.set_whole _), held_whole c oM (View.set_whole _)]
  iintro ⟨Hx, Hw, Ho, ⟨⟨%f0, H0⟩, ⟨%f1, H1⟩, ⟨%f2, H2⟩, ⟨%f3, H3⟩, ⟨%f4, H4⟩⟩, Hsem⟩
  isplitl [Hx Hw Ho]
  · isplitl [Hx]; · iexact Hx
    isplitl [Hw]; · iexact Hw
    iexact Ho
  isplitl [Hsem]; · unfold Pipeline.ownSems0; iexact Hsem
  isplitl [H0]; · iexists f0; rw [← held_whole c xsM (View.set_whole _)]; iexact H0
  isplitl [H1]; · iexists f1; rw [← held_whole c wtM (View.set_whole _)]; iexact H1
  isplitl [H2]; · iexists f2; rw [← held_whole c commM (View.set_whole _)]; iexact H2
  isplitl [H3]; · iexists f3; rw [← held_whole c recvM (View.set_whole _)]; iexact H3
  iexists f4; rw [← held_whole c stM (View.set_whole _)]; iexact H4

/-- No window, no pipeline cell to wait on. -/
theorem waits (ρ : Dev nD → PrngReg) (c : Dev nD) : (levAts L lv : sProp 𝕄) ⊢ Pipeline.cellsWaits cfgs (dats m ρ) () 0 c :=
  Pipeline.cellsWaits_intro cfgs (dats m ρ) () 0 c fun w s t => w.elim0

/-! ## The run -/

/-- The ring's launch element, owned through the right half of the user algebra, is owned through the ring's embedding. -/
theorem own_ER (b : UB) : (BI.own ((embR : Emb (UB × Counters) 𝕄) (b, (1 : Counters))) : sProp 𝕄) ⊢ BI.own (ER b) := Entails.of_eq rfl

set_option maxRecDepth 16384 in
/-- At the compiled mesh of eight devices, for any float values, from any memory with zero counters, given the body
    obligation on every device: every weakly fair execution of @main terminates, and every final state has each device's
    result array at its block of the product and both arguments unchanged. -/
theorem run_main_of (ρ : Dev nD → PrngReg) (hbody : ∀ c : Dev nD, BodyObligation (dats (F := F) m ρ 0 c) (defs₀ (F := F)) 𝒱₀ () Set.univ) :
    θ_run (defs (F := F)) (onTc (τ := τ) (main (F := F))) ⟨m, fun _ => 0, ρ⟩ (fun r => ∀ c : Dev nD,
      r.2.mem ((c.tc : Thread nD τ).loc main_v1) = outV m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => w.elim0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      ihave HX' := (own_ER (F := F) _) $$ HX
      imod (fund_ring m) $$ HX' with HG
      imodintro
      isplitl [HP] <;> iassumption)
    (hglob := glob m)
    (hA := fun _ w => w.elim0) (hpf := fun _ k => k.elim0)
    (X := start m) (Y := Yc m) (Z := fun _ => iprop(emp))
    (hX := start_intro m ρ) (hin := phi0_intro m ρ) (hout := phi1_exit m ρ)
    (QY := fun c s => s.mem ((c.tc : Thread nD τ).loc main_v1) = outV m c
      ∧ s.mem ((c.tc : Thread nD τ).loc main_arg0) = m ((c.tc : Thread nD τ).loc main_arg0)
      ∧ s.mem ((c.tc : Thread nD τ).loc main_arg1) = m ((c.tc : Thread nD τ).loc main_arg1))
    (hY := fun c s' => by
      unfold Yc
      iintro ⟨⟨Hx, Hw, Ho⟩, -, HSI⟩
      icombine HSI Hx gives %hx
      icombine HSI Hw gives %hw
      icombine HSI Ho gives %ho
      imodintro
      isplitr
      · ipureintro
        exact ⟨Buf.eq_of_forall_mem_univ ho, Buf.eq_of_forall_mem_univ hx, Buf.eq_of_forall_mem_univ hw⟩
      iexact HSI)
    (hQ := fun _ h c => (h c).2.2)

/-- info: 'Cert.KernelIdeal.A2A.run_main_of' depends on axioms: [propext, Classical.choice, Quot.sound] -/
#guard_msgs in #print axioms run_main_of

/-- The run, the body obligation discharged by the body lemma. -/
theorem run_main (ρ : Dev nD → PrngReg) : θ_run (defs (F := F)) (onTc (τ := τ) (main (F := F))) ⟨m, fun _ => 0, ρ⟩ (fun r => ∀ c : Dev nD,
      r.2.mem ((c.tc : Thread nD τ).loc main_v1) = outV m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_main_of m ρ (body_obligation m ρ)

/-- info: 'Cert.KernelIdeal.A2A.run_main' depends on axioms: [propext, Classical.choice, Quot.sound] -/
#guard_msgs in #print axioms run_main

end Cert.KernelIdeal.A2A

end
-- ==== Proof.Value.lean ====
import proofs.«900533_g7700000000000534_dist_gemm_a2a_m4096_k4096_n2048_f32_relu_v7x_i8_1_alg».proof.Proof.Inv
import proofs.«900533_g7700000000000534_dist_gemm_a2a_m4096_k4096_n2048_f32_relu_v7x_i8_1_alg».proof.Proof.Gen.ReferenceIdeal.Run
import proofs.«900533_g7700000000000534_dist_gemm_a2a_m4096_k4096_n2048_f32_relu_v7x_i8_1_alg».proof.Proof.Gen.ReferenceIdeal.Read
import proofs.«900533_g7700000000000534_dist_gemm_a2a_m4096_k4096_n2048_f32_relu_v7x_i8_1_alg».proof.Defs
import proofs.«900533_g7700000000000534_dist_gemm_a2a_m4096_k4096_n2048_f32_relu_v7x_i8_1_alg».proof.Proof.Gen.Pre_finite_inputs_Kernel
import proofs.«900533_g7700000000000534_dist_gemm_a2a_m4096_k4096_n2048_f32_relu_v7x_i8_1_alg».proof.Proof.Gen.Pre_finite_inputs_ReferenceIdeal
import Idealize.ShloMosaic.Lib.ValueIdx
import Idealize.ShloMosaic.Lib.ValueLayout
import Idealize.ShloMosaic.Lib.Pipeline.Value
import Idealize.ShloMosaic.PureOps.Ideal.Laws
import Idealize.ShloMosaic.Lib.Layout

set_option maxRecDepth 16384

noncomputable section

namespace Cert.KernelIdeal.A2A

open Cert.KernelIdeal Cert.KernelIdeal.Gen
open Idealize.ShloMosaic Idealize.ShloMosaic.TcCoe
open Idealize.SL.Sem
open Idealize.ShloMosaic.ValueIdx

/-! ## The reference's result, index by index -/

/-- Entry (p, q) of relu (X · W): the larger of zero and the sum over k of X (p, k) · W (k, q). -/
def refAt (X : FVec Ideal ⟨2, ![4096, 4096]⟩ .f32) (W : FVec Ideal ⟨2, ![4096, 2048]⟩ .f32) (p : Fin 4096) (q : Fin 2048) : EReal :=
  max (∑ k : Fin 4096, X (ix2 p k) * W (ix2 k q)) 0

/-- The reference's result as one function of its two arguments. -/
def refVal (X : Vec Ideal ⟨2, ![4096, 4096]⟩ .f32) (W : Vec Ideal ⟨2, ![4096, 2048]⟩ .f32) : Vec Ideal ⟨2, ![4096, 2048]⟩ .f32 :=
  fun i => refAt X W (i 0) (i 1)

theorem refVal_ix2 (X : Vec Ideal ⟨2, ![4096, 4096]⟩ .f32) (W : Vec Ideal ⟨2, ![4096, 2048]⟩ .f32) (p : Fin 4096) (q : Fin 2048) :
    refVal X W (ix2 p q) = refAt X W p q := rfl

/-- The last stage of the reference's run is refVal of the arguments: the host's product at an index is the sum over
    the contracted axis, the broadcast constant is zero, and the maximum is taken entry by entry. -/
theorem ref_is (X : Vec Ideal ⟨2, ![4096, 4096]⟩ .f32) (W : Vec Ideal ⟨2, ![4096, 2048]⟩ .f32) :
    Cert.ReferenceIdeal.Read.val_main_v2 (F := Ideal) X W = refVal X W := by
  funext i
  obtain ⟨p, q, rfl⟩ : ∃ (p : Fin 4096) (q : Fin 2048), i = ix2 p q := ⟨i 0, i 1, eq_ix2 i⟩
  have el : ∀ k : Fin 4096, Cert.ReferenceIdeal.Read.lidx_main_v0 (ix2 p q) k = ix2 p k := fun k =>
    funext fun a => Fin.ext (by match a with | ⟨0, _⟩ => rfl | ⟨1, _⟩ => rfl)
  have er : ∀ k : Fin 4096, Cert.ReferenceIdeal.Read.ridx_main_v0 (ix2 p q) k = ix2 k q := fun k =>
    funext fun a => Fin.ext (by match a with | ⟨0, _⟩ => rfl | ⟨1, _⟩ => rfl)
  rw [Cert.ReferenceIdeal.Read.val_main_v2_apply, Cert.ReferenceIdeal.Read.val_main_v0_apply, Cert.ReferenceIdeal.Read.val_main_v1_apply,
    Cert.ReferenceIdeal.Read.val_main_cst_apply, refVal_ix2]
  simp only [el, er]
  show max _ (Ideal.ofBits .f32 0x00000000#32) = _
  rw [Ideal.ofBits_zero_f32]
  rfl

/-! ## One block of the product, entry by entry -/

theorem lhs_blk_0 (i : S512x256.Idx) (q : dot_S512x4096_S4096x256_S512x256_1_0_0_1_n_n.contr.Idx) :
    (dot_S512x4096_S4096x256_S512x256_1_0_0_1_n_n.lhsIdx i q 0).val = (i 0).val := by
  unfold DotDims.lhsIdx
  rw [dif_neg (show ¬(0 : Fin S512x4096.rank) ∈ dot_S512x4096_S4096x256_S512x256_1_0_0_1_n_n.lhsBatch by decide), dif_pos (show (0 : Fin S512x4096.rank) ∈ dot_S512x4096_S4096x256_S512x256_1_0_0_1_n_n.lhsNonContracting by decide)]
  rfl
theorem lhs_blk_1 (i : S512x256.Idx) (q : dot_S512x4096_S4096x256_S512x256_1_0_0_1_n_n.contr.Idx) :
    (dot_S512x4096_S4096x256_S512x256_1_0_0_1_n_n.lhsIdx i q 1).val = (q ⟨0, by decide⟩).val :=
  dot_S512x4096_S4096x256_S512x256_1_0_0_1_n_n.lhsIdx_val_of_single rfl i q
theorem rhs_blk_0 (i : S512x256.Idx) (q : dot_S512x4096_S4096x256_S512x256_1_0_0_1_n_n.contr.Idx) :
    (dot_S512x4096_S4096x256_S512x256_1_0_0_1_n_n.rhsIdx i q 0).val = (q ⟨0, by decide⟩).val :=
  dot_S512x4096_S4096x256_S512x256_1_0_0_1_n_n.rhsIdx_val_of_single rfl i q
theorem rhs_blk_1 (i : S512x256.Idx) (q : dot_S512x4096_S4096x256_S512x256_1_0_0_1_n_n.contr.Idx) :
    (dot_S512x4096_S4096x256_S512x256_1_0_0_1_n_n.rhsIdx i q 1).val = (i 1).val := by
  unfold DotDims.rhsIdx
  rw [dif_neg (show ¬(1 : Fin S4096x256.rank) ∈ dot_S512x4096_S4096x256_S512x256_1_0_0_1_n_n.rhsBatch by decide), dif_pos (show (1 : Fin S4096x256.rank) ∈ dot_S512x4096_S4096x256_S512x256_1_0_0_1_n_n.rhsNonContracting by decide)]
  rfl

/-- The device's matrix product into a zero accumulator, at entry (p, q): the sum over k of x (p, k) · y (k, q). -/
theorem mm_apply (x : FVec Ideal S512x4096 .f32) (y : FVec Ideal S4096x256 .f32) (p : Fin 512) (q : Fin 256) :
    matmul dot_S512x4096_S4096x256_S512x256_1_0_0_1_n_n none x y (constant (F := Ideal) S512x256 .f32 0x00000000#32) (ix2 p q)
      = ∑ k : Fin 4096, x (ix2 p k) * y (ix2 k q) := by
  simp only [matmul]
  rw [Ideal.matmul_constant_zero_apply, ← Equiv.sum_comp (ValueIdx.contrEquiv1 dot_S512x4096_S4096x256_S512x256_1_0_0_1_n_n 4096 rfl rfl).symm]
  refine Finset.sum_congr rfl fun k _ => ?_
  have hk := ValueIdx.contrEquiv1_symm_val dot_S512x4096_S4096x256_S512x256_1_0_0_1_n_n 4096 rfl rfl k
  have el : dot_S512x4096_S4096x256_S512x256_1_0_0_1_n_n.lhsIdx (ix2 p q) ((ValueIdx.contrEquiv1 dot_S512x4096_S4096x256_S512x256_1_0_0_1_n_n 4096 rfl rfl).symm k) = ix2 p k := funext fun a => Fin.ext (by
    match a with
    | ⟨0, _⟩ => exact lhs_blk_0 _ _
    | ⟨1, _⟩ => exact (lhs_blk_1 _ _).trans hk)
  have er : dot_S512x4096_S4096x256_S512x256_1_0_0_1_n_n.rhsIdx (ix2 p q) ((ValueIdx.contrEquiv1 dot_S512x4096_S4096x256_S512x256_1_0_0_1_n_n 4096 rfl rfl).symm k) = ix2 k q := funext fun a => Fin.ext (by
    match a with
    | ⟨0, _⟩ => exact (rhs_blk_0 _ _).trans hk
    | ⟨1, _⟩ => exact rhs_blk_1 _ _)
  rw [el, er]

/-- A block relu (x · w) at entry (p, q), the column tile w read through its leading unit axis. -/
theorem blkF_apply (x : FVec Ideal S512x4096 .f32) (w : FVec Ideal S1x4096x256 .f32) (p : Fin 512) (q : Fin 256) :
    blkF (F := Ideal) x w (ix2 p q) = max (∑ k : Fin 4096, x (ix2 p k) * w (ix3 (0 : Fin 1) k q)) 0 := by
  unfold blkF
  rw [maximumf_apply, broadcast_apply, mm_apply]
  simp only [shapeCast_1ab_ab_apply]
  show max _ (Ideal.ofBits .f32 0x00000000#32) = _
  rw [Ideal.ofBits_zero_f32]

/-! ## The column tile, and the rows of the result -/

/-- The column tile for device d, read at (0, k, q): entry (k, 256 d + q) of the device's copy of w. -/
theorem wTile_apply (m : (ℓ : Loc nD τ sig) → Buf (Elt Ideal) ℓ) (s d : Dev nD) (k : Fin 4096) (q : Fin 256) :
    wTile m s d (ix3 (0 : Fin 1) k q)
      = wOf m s (ix2 k (⟨256 * d.val + q.val, by have : d.val < 8 := d.isLt; have := q.isLt; omega⟩ : Fin 2048)) := by
  unfold wTile
  rw [shapeCast_ab_1ab_apply]
  unfold wCol
  rw [View.read_apply]
  show wOf m s _ = _
  refine congrArg (wOf m s) (funext fun a => Fin.ext ?_)
  match a with
  | ⟨0, _⟩ => show 0 + 1 * k.val = k.val; omega
  | ⟨1, _⟩ => show 256 * d.val + 1 * q.val = 256 * d.val + q.val; omega

theorem peer_hopTo (d s : Dev nD) (h : s ≠ d) : peer s (hopTo d s) = d := by revert d s; decide

/-- Rows block s of device d's result is relu of device s's rows times the column tile for d: its own block
    when s = d, and otherwise the block s sent it, since rounding to bf16 and widening back are the identity here. -/
theorem rowBlk_eq (m : (ℓ : Loc nD τ sig) → Buf (Elt Ideal) ℓ) (d s : Dev nD) :
    rowBlk m d s = blkF (xOf m s) (wTile m s d) := by
  unfold rowBlk
  by_cases h : s = d
  · rw [if_pos h]; subst h; rfl
  · rw [if_neg h]
    unfold gotBlk sentBlk
    funext j
    rw [extf_apply, truncf_apply, src_hopTo d s h, peer_hopTo d s h]

theorem refAt_congr (X : FVec Ideal ⟨2, ![4096, 4096]⟩ .f32) (W : FVec Ideal ⟨2, ![4096, 2048]⟩ .f32) {p p' : Fin 4096} {q q' : Fin 2048}
    (hp : p.val = p'.val) (hq : q.val = q'.val) : refAt X W p q = refAt X W p' q' := by
  rw [Fin.ext hp, Fin.ext hq]

/-- With every device holding its rows of X and a copy of W: rows block s of device d's result, at (r, q), is
    entry (512 s + r, 256 d + q) of relu (X · W). -/
theorem rowBlk_apply (m : (ℓ : Loc nD τ sig) → Buf (Elt Ideal) ℓ)
    (X : Vec Ideal ⟨2, ![4096, 4096]⟩ .f32) (W : Vec Ideal ⟨2, ![4096, 2048]⟩ .f32)
    (hx : ∀ c : Dev nD, m ((c.tc : Thread nD τ).loc main_arg0) = Layout.block ⟨2, ![512, 4096]⟩ ⟨2, ![4096, 4096]⟩ 0 8 c X)
    (hw : ∀ c : Dev nD, m ((c.tc : Thread nD τ).loc main_arg1) = W) (d s : Dev nD) (r : Fin 512) (q : Fin 256) :
    rowBlk m d s (ix2 r q)
      = refAt X W (⟨512 * s.val + r.val, by have : s.val < 8 := s.isLt; have := r.isLt; omega⟩ : Fin 4096)
          (⟨256 * d.val + q.val, by have : d.val < 8 := d.isLt; have := q.isLt; omega⟩ : Fin 2048) := by
  have ex : ∀ k : Fin 4096, xOf m s (ix2 r k)
      = X (ix2 (⟨512 * s.val + r.val, by have : s.val < 8 := s.isLt; have := r.isLt; omega⟩ : Fin 4096) k) := fun k => by
    unfold xOf
    rw [hx s, Layout.block_apply]
    refine congrArg X (funext fun a => Fin.ext ?_)
    match a with
    | ⟨0, _⟩ => show s.val * 512 + r.val = 512 * s.val + r.val; omega
    | ⟨1, _⟩ => rfl
  have ew : wOf m s = W := hw s
  rw [rowBlk_eq, blkF_apply]
  unfold refAt
  simp only [wTile_apply, ex, ew]

/-! ## The device's result is its block of the reference's -/

theorem outV_block (m : (ℓ : Loc Cert.KernelIdeal.nD Cert.KernelIdeal.τ Cert.KernelIdeal.sig) → Buf (Elt Ideal) ℓ)
    (X : Vec Ideal ⟨2, ![4096, 4096]⟩ .f32) (W : Vec Ideal ⟨2, ![4096, 2048]⟩ .f32)
    (hx : ∀ c : Dev nD, m ((c.tc : Thread nD τ).loc main_arg0) = Layout.block ⟨2, ![512, 4096]⟩ ⟨2, ![4096, 4096]⟩ 0 8 c X)
    (hw : ∀ c : Dev nD, m ((c.tc : Thread nD τ).loc main_arg1) = W) (c : Dev nD) :
    outV (F := Ideal) m c = Layout.block ⟨2, ![4096, 256]⟩ ⟨2, ![4096, 2048]⟩ 1 8 c (refVal X W) := by
  funext i
  obtain ⟨p, q, rfl⟩ : ∃ (p : Fin 4096) (q : Fin 256), i = ix2 p q := ⟨i 0, i 1, eq_ix2 i⟩
  rw [Layout.block_apply]
  show rowBlk m c ⟨p.val / 512, _⟩ (ix2 ⟨p.val % 512, _⟩ q) = refAt X W _ _
  rw [rowBlk_apply m X W hx hw]
  refine refAt_congr X W ?_ ?_
  · show 512 * (p.val / 512) + p.val % 512 = p.val
    exact Nat.div_add_mod p.val 512
  · show 256 * c.val + q.val = c.val * 256 + q.val
    omega

/-! ## The reference's frame, and the two runs joined -/

/-- The reference runs and leaves its arguments as they were: its run with the result dropped. -/
theorem frame_ri : Cert.frame_ReferenceIdeal :=
  fun m ρ _ => (θ_run Cert.ReferenceIdeal.defs _ _).mono (fun _ h c => (h c).2) (Cert.ReferenceIdeal.Value.run (F := Ideal) m ρ)

/-- From the kernel's run ending with every device's result at outV: both programs run, the reference's result is
    refVal of its arguments, and each device's result is its block of it along the columns. -/
theorem algebraic_of_run
    (hrun : ∀ (m : (ℓ : Loc Cert.KernelIdeal.nD Cert.KernelIdeal.τ Cert.KernelIdeal.sig) → Buf (Elt Ideal) ℓ) (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩
        (fun r => ∀ c : Dev Cert.KernelIdeal.nD,
          r.2.mem ((c.tc : Thread _ _).loc Cert.KernelIdeal.main_v1) = outV (F := Ideal) m c
          ∧ r.2.mem ((c.tc : Thread _ _).loc Cert.KernelIdeal.main_arg0) = m ((c.tc : Thread _ _).loc Cert.KernelIdeal.main_arg0)
          ∧ r.2.mem ((c.tc : Thread _ _).loc Cert.KernelIdeal.main_arg1) = m ((c.tc : Thread _ _).loc Cert.KernelIdeal.main_arg1))) :
    Cert.algebraic_KernelIdeal_ReferenceIdeal := by
  intro m g m' g' _ hagree
  refine ⟨refVal (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)), ?_, ?_⟩
  · refine (θ_run (Cert.KernelIdeal.defs (F := Ideal)) _ _).mono (fun r h c => ⟨?_, (h c).2⟩) (hrun m g)
    rw [(h c).1]
    exact outV_block m _ _ (fun c => (hagree c).1) (fun c => (hagree c).2) c
  · refine (θ_run (Cert.ReferenceIdeal.defs (F := Ideal)) _ _).mono (fun r h => ⟨?_, (h 0).2⟩) (Cert.ReferenceIdeal.Value.run (F := Ideal) m' g')
    rw [(h 0).1, Cert.ReferenceIdeal.Read.val_main_v2_eq, ref_is]

/-- info: 'Cert.KernelIdeal.A2A.frame_ri' depends on axioms: [propext, Classical.choice, Quot.sound] -/
#guard_msgs in #print axioms frame_ri

/-- info: 'Cert.KernelIdeal.A2A.algebraic_of_run' depends on axioms: [propext, Classical.choice, Quot.sound] -/
#guard_msgs in #print axioms algebraic_of_run

end Cert.KernelIdeal.A2A

end
-- ==== Proof.lean ====
/- The claim's five conjuncts. Each printed kernel's frame is its run to the strongest post (every device's result at its
   block of the product, both arguments as they were) with the result dropped; the reference's frame is its own run; the
   idealization rewrote no operation; and at the ideal instance the kernel's run is joined with the reference's, each
   device's result being its block, along the columns, of relu (X · W). -/
import proofs.«900533_g7700000000000534_dist_gemm_a2a_m4096_k4096_n2048_f32_relu_v7x_i8_1_alg».proof.Defs
import proofs.«900533_g7700000000000534_dist_gemm_a2a_m4096_k4096_n2048_f32_relu_v7x_i8_1_alg».proof.Proof.Gen.Kernel
import proofs.«900533_g7700000000000534_dist_gemm_a2a_m4096_k4096_n2048_f32_relu_v7x_i8_1_alg».proof.Proof.Gen.Kernel.Skeleton
import proofs.«900533_g7700000000000534_dist_gemm_a2a_m4096_k4096_n2048_f32_relu_v7x_i8_1_alg».proof.Proof.Gen.Kernel.Launch
import proofs.«900533_g7700000000000534_dist_gemm_a2a_m4096_k4096_n2048_f32_relu_v7x_i8_1_alg».proof.Proof.Gen.Kernel.Points
import proofs.«900533_g7700000000000534_dist_gemm_a2a_m4096_k4096_n2048_f32_relu_v7x_i8_1_alg».proof.Proof.Gen.Kernel.Frame
import proofs.«900533_g7700000000000534_dist_gemm_a2a_m4096_k4096_n2048_f32_relu_v7x_i8_1_alg».proof.Proof.Gen.KernelIdeal
import proofs.«900533_g7700000000000534_dist_gemm_a2a_m4096_k4096_n2048_f32_relu_v7x_i8_1_alg».proof.Proof.Gen.KernelIdeal.Skeleton
import proofs.«900533_g7700000000000534_dist_gemm_a2a_m4096_k4096_n2048_f32_relu_v7x_i8_1_alg».proof.Proof.Gen.KernelIdeal.Launch
import proofs.«900533_g7700000000000534_dist_gemm_a2a_m4096_k4096_n2048_f32_relu_v7x_i8_1_alg».proof.Proof.Gen.KernelIdeal.Points
import proofs.«900533_g7700000000000534_dist_gemm_a2a_m4096_k4096_n2048_f32_relu_v7x_i8_1_alg».proof.Proof.Gen.KernelIdeal.Frame
import proofs.«900533_g7700000000000534_dist_gemm_a2a_m4096_k4096_n2048_f32_relu_v7x_i8_1_alg».proof.Proof.Gen.ReferenceIdeal
import proofs.«900533_g7700000000000534_dist_gemm_a2a_m4096_k4096_n2048_f32_relu_v7x_i8_1_alg».proof.Proof.Gen.Pre_finite_inputs_Kernel
import proofs.«900533_g7700000000000534_dist_gemm_a2a_m4096_k4096_n2048_f32_relu_v7x_i8_1_alg».proof.Proof.Gen.Pre_finite_inputs_ReferenceIdeal
import proofs.«900533_g7700000000000534_dist_gemm_a2a_m4096_k4096_n2048_f32_relu_v7x_i8_1_alg».proof.Proof.Launch
import proofs.«900533_g7700000000000534_dist_gemm_a2a_m4096_k4096_n2048_f32_relu_v7x_i8_1_alg».proof.Proof.Bits.Launch
import proofs.«900533_g7700000000000534_dist_gemm_a2a_m4096_k4096_n2048_f32_relu_v7x_i8_1_alg».proof.Proof.Value
import Idealize.ShloMosaic.Adequacy
import Idealize.ShloMosaic.Init

noncomputable section

namespace Cert.Proof

open Idealize.ShloMosaic Idealize.SL.Sem Cert.Kernel

/-- The word-level kernel runs and leaves its arguments as they were. -/
theorem frame_kernel : Cert.frame_Kernel :=
  fun m g _ => (θ_run (Cert.Kernel.defs (F := Bits)) _ _).mono (fun _ h c => (h c).2) (Cert.Kernel.A2A.run_main (F := Bits) m g)

/-- The idealized kernel runs and leaves its arguments as they were. -/
theorem frame_kernelIdeal : Cert.frame_KernelIdeal :=
  fun m g _ => (θ_run (Cert.KernelIdeal.defs (F := Ideal)) _ _).mono (fun _ h c => (h c).2) (Cert.KernelIdeal.A2A.run_main (F := Ideal) m g)

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_kernel, frame_kernelIdeal, Cert.KernelIdeal.A2A.frame_ri, trivial,
  Cert.KernelIdeal.A2A.algebraic_of_run (fun m ρ => Cert.KernelIdeal.A2A.run_main (F := Ideal) m ρ)⟩

end Cert.Proof

end
